-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v78) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S128x139 : Shape := ⟨2, ![128, 139]⟩
abbrev S1x1024 : Shape := ⟨2, ![1, 1024]⟩
abbrev S_ : Shape := ⟨0, ![]⟩

class Facts : Prop where
  bcast_S_S128x139 : S_.BroadcastsInDim S128x139 (![] : Fin 0 → Fin S128x139.rank)
  reducesTo_S128x139_S_d0_1 : S128x139.ReducesTo [0, 1] S_
  h_S_ : 0 < S_.numel

variable [Facts]

def fn {F : FTy → Type} [FloatOps F] (main_arg0 : FVec F S128x139 .f32) (main_arg1 : IVec S1x1024 32) (main_arg2 : IVec S1x1024 32) (main_arg3 : IVec S1x1024 32) (main_arg4 : IVec S1x1024 32) (main_arg5 : IVec S1x1024 32) : IVec S_ 1 :=
  let main_v0 : FVec F S128x139 .f32 := Host.absf main_arg0
  let main_cst : FVec F S_ .f32 := constant S_ .f32 0x7F800000#32
  let main_v1 : FVec F S128x139 .f32 := broadcastInDim S128x139 ![] bcast_S_S128x139 main_cst
  let main_v2 : IVec S128x139 1 := cmpf .olt main_v0 main_v1
  let main_c : IVec S_ 1 := constantI S_ 1 1#1
  let main_v3 : IVec S_ 1 := (fun x v => Host.reduce IntOp.andi x v reducesTo_S128x139_S_d0_1 h_S_) main_v2 main_c
  main_v3
-- ==== Kernel.lean ====
abbrev S128x139 : Shape := ⟨2, ![128, 139]⟩
abbrev S1x1024 : Shape := ⟨2, ![1, 1024]⟩
abbrev S139x128 : Shape := ⟨2, ![139, 128]⟩
abbrev S1x1024x1024x128 : Shape := ⟨4, ![1, 1024, 1024, 128]⟩
abbrev S1x128 : Shape := ⟨2, ![1, 128]⟩
abbrev S1x128x128x128 : Shape := ⟨4, ![1, 128, 128, 128]⟩
abbrev S128 : Shape := ⟨1, ![128]⟩
abbrev S128x1 : Shape := ⟨2, ![128, 1]⟩
abbrev S128x128 : Shape := ⟨2, ![128, 128]⟩
abbrev S1x1x66 : Shape := ⟨3, ![1, 1, 66]⟩
abbrev S1x1x6 : Shape := ⟨3, ![1, 1, 6]⟩
abbrev S128x128x1 : Shape := ⟨3, ![128, 128, 1]⟩
abbrev S128x128x66 : Shape := ⟨3, ![128, 128, 66]⟩
abbrev S16384x66 : Shape := ⟨2, ![16384, 66]⟩
abbrev S128x128x6 : Shape := ⟨3, ![128, 128, 6]⟩
abbrev S16384x6 : Shape := ⟨2, ![16384, 6]⟩
abbrev S66x128 : Shape := ⟨2, ![66, 128]⟩
abbrev S6x128 : Shape := ⟨2, ![6, 128]⟩
abbrev S128x128x128 : Shape := ⟨3, ![128, 128, 128]⟩
abbrev S16384x128 : Shape := ⟨2, ![16384, 128]⟩
abbrev S1x1x128 : Shape := ⟨3, ![1, 1, 128]⟩

abbrev nBuf : Space → Nat
  | .hbm => 8
  | .vmem => 23
  | .smem => 0
  | _ => 0

abbrev bufTy : (tb : Table) → Fin (tcTables nBuf tb) → BufTy
  | .hbm, ⟨0, _⟩ => ⟨S128x139, .f32⟩
  | .hbm, ⟨1, _⟩ => ⟨S1x1024, .i32⟩
  | .hbm, ⟨2, _⟩ => ⟨S1x1024, .i32⟩
  | .hbm, ⟨3, _⟩ => ⟨S1x1024, .i32⟩
  | .hbm, ⟨4, _⟩ => ⟨S1x1024, .i32⟩
  | .hbm, ⟨5, _⟩ => ⟨S1x1024, .i32⟩
  | .hbm, ⟨6, _⟩ => ⟨S139x128, .f32⟩
  | .hbm, ⟨7, _⟩ => ⟨S1x1024x1024x128, .f32⟩
  | .local _ .vmem, ⟨0, _⟩ => ⟨S1x128, .i32⟩
  | .local _ .vmem, ⟨1, _⟩ => ⟨S1x128, .i32⟩
  | .local _ .vmem, ⟨2, _⟩ => ⟨S1x128, .i32⟩
  | .local _ .vmem, ⟨3, _⟩ => ⟨S1x128, .i32⟩
  | .local _ .vmem, ⟨4, _⟩ => ⟨S1x128, .i32⟩
  | .local _ .vmem, ⟨5, _⟩ => ⟨S1x128, .i32⟩
  | .local _ .vmem, ⟨6, _⟩ => ⟨S1x128, .i32⟩
  | .local _ .vmem, ⟨7, _⟩ => ⟨S1x128, .i32⟩
  | .local _ .vmem, ⟨8, _⟩ => ⟨S1x128, .i32⟩
  | .local _ .vmem, ⟨9, _⟩ => ⟨S1x128, .i32⟩
  | .local _ .vmem, ⟨10, _⟩ => ⟨S1x128, .i32⟩
  | .local _ .vmem, ⟨11, _⟩ => ⟨S1x128, .i32⟩
  | .local _ .vmem, ⟨12, _⟩ => ⟨S1x128, .i32⟩
  | .local _ .vmem, ⟨13, _⟩ => ⟨S1x128, .i32⟩
  | .local _ .vmem, ⟨14, _⟩ => ⟨S1x128, .i32⟩
  | .local _ .vmem, ⟨15, _⟩ => ⟨S1x128, .i32⟩
  | .local _ .vmem, ⟨16, _⟩ => ⟨S1x128, .i32⟩
  | .local _ .vmem, ⟨17, _⟩ => ⟨S1x128, .i32⟩
  | .local _ .vmem, ⟨18, _⟩ => ⟨S1x128, .i32⟩
  | .local _ .vmem, ⟨19, _⟩ => ⟨S1x128, .i32⟩
  | .local _ .vmem, ⟨20, _⟩ => ⟨S139x128, .f32⟩
  | .local _ .vmem, ⟨21, _⟩ => ⟨S1x128x128x128, .f32⟩
  | .local _ .vmem, ⟨22, _⟩ => ⟨S1x128x128x128, .f32⟩
  | _, _ => ⟨S128x139, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg11_0 : Ref sig .tc := ⟨.vmem, 21, rfl⟩
abbrev cc0_stg11_1 : Ref sig .tc := ⟨.vmem, 22, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem11_0 : DmaSem sig := 21
abbrev cc0_sem11_1 : DmaSem sig := 22

abbrev nD : Nat := 1
abbrev τ : Topo := Topo.v7x

variable {F : FTy → Type} [FloatOps F]

abbrev grid0 : Pipeline.Grid := ⟨2, ![8, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, arg1.toNat, c0_i32_0.toNat]

abbrev stage0_0 : Fin 2 → Memref sig .tc .vmem S1x128 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x128 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x128 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x128 .i32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1x128 .i32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x128 .i32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S1x128 .i32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S1x128 .i32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![false, true]

abbrev stage0_8 : Fin 2 → Memref sig .tc .vmem S1x128 .i32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

abbrev stage0_9 : Fin 2 → Memref sig .tc .vmem S1x128 .i32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![false, true]

abbrev stage0_10 : Fin 1 → Memref sig .tc .vmem S139x128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 2 → Memref sig .tc .vmem S1x128x128x128 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

class Facts₀ : Prop where
  transposes_S128x139_S139x128_1_0 : S128x139.Transposes [1, 0] S139x128
  inb_S1x128_S1x128_0_0 : ∀ a, (![0, 0] : Fin 2 → Nat) a + S1x128.size a ≤ S1x128.size a
  h_S1x128 : 0 < S1x128.numel
  shapeCasts_S1x128_S128 : S1x128.ShapeCasts S128
  shapeCasts_S128_S128x1 : S128.ShapeCasts S128x1
  shapeCasts_S128_S1x128 : S128.ShapeCasts S1x128
  broadcasts_S128x1_S128x128 : S128x1.Broadcasts S128x128
  broadcasts_S1x128_S128x128 : S1x128.Broadcasts S128x128
  iota_S1x1x66_d2_w32 : S1x1x66.Iotas .tc 32 [2]
  iota_S1x1x6_d2_w32 : S1x1x6.Iotas .tc 32 [2]
  shapeCasts_S128x128_S128x128x1 : S128x128.ShapeCasts S128x128x1
  broadcasts_S128x128x1_S128x128x66 : S128x128x1.Broadcasts S128x128x66
  broadcasts_S1x1x66_S128x128x66 : S1x1x66.Broadcasts S128x128x66
  natLt_1_32 : 1 < 32
  bitsLt_bf16_f32 : FTy.bits .bf16 < FTy.bits .f32
  shapeCasts_S128x128x66_S16384x66 : S128x128x66.ShapeCasts S16384x66
  broadcasts_S128x128x1_S128x128x6 : S128x128x1.Broadcasts S128x128x6
  broadcasts_S1x1x6_S128x128x6 : S1x1x6.Broadcasts S128x128x6
  shapeCasts_S128x128x6_S16384x6 : S128x128x6.ShapeCasts S16384x6
  inb_S139x128_S139x128_0_0 : ∀ a, (![0, 0] : Fin 2 → Nat) a + S139x128.size a ≤ S139x128.size a
  h_S139x128 : 0 < S139x128.numel
  shapeCasts_S139x128_S139x128 : S139x128.ShapeCasts S139x128
  slices_S139x128_o0_0_S66x128 : S139x128.Slices ![0, 0] S66x128
  slices_S139x128_o66_0_S66x128 : S139x128.Slices ![66, 0] S66x128
  slices_S139x128_o132_0_S1x128 : S139x128.Slices ![132, 0] S1x128
  slices_S139x128_o133_0_S6x128 : S139x128.Slices ![133, 0] S6x128
  inb_S1x128x128x128_S1x128x128x128_0_0_0_0 : ∀ a, (![0, 0, 0, 0] : Fin 4 → Nat) a + S1x128x128x128.size a ≤ S1x128x128x128.size a
  h_S1x128x128x128 : 0 < S1x128x128x128.numel
  shapeCasts_S1x128x128x128_S128x128x128 : S1x128x128x128.ShapeCasts S128x128x128
  shapeCasts_S128x128x128_S1x128x128x128 : S128x128x128.ShapeCasts S1x128x128x128
  shapeCasts_S16384x128_S128x128x128 : S16384x128.ShapeCasts S128x128x128
  shapeCasts_S1x128_S1x1x128 : S1x128.ShapeCasts S1x1x128
  broadcasts_S128x128x1_S128x128x128 : S128x128x1.Broadcasts S128x128x128
  broadcasts_S1x1x128_S128x128x128 : S1x1x128.Broadcasts S128x128x128
  dot_S16384x66_S66x128_S16384x128_1_0_0_1_n_n_wf : DotDims.WF S16384x66 S66x128 S16384x128 [1] [0] [0] [1] [] []
  dot_S16384x6_S6x128_S16384x128_1_0_0_1_n_n_wf : DotDims.WF S16384x6 S6x128 S16384x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x128.size a ≤ S1x1024.size a
  hwx0_0 : ∀ i : grid0.Coords, EltTy.bits .i32 = 32 ∨ (Rect.block (s := S1x1024) S1x128.size (cc0_transform_0 i) (hinb0_0 i)).WholeWords (EltTy.packing .i32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x128.size a ≤ S1x1024.size a
  hwx0_1 : ∀ i : grid0.Coords, EltTy.bits .i32 = 32 ∨ (Rect.block (s := S1x1024) S1x128.size (cc0_transform_1 i) (hinb0_1 i)).WholeWords (EltTy.packing .i32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x128.size a ≤ S1x1024.size a
  hwx0_2 : ∀ i : grid0.Coords, EltTy.bits .i32 = 32 ∨ (Rect.block (s := S1x1024) S1x128.size (cc0_transform_2 i) (hinb0_2 i)).WholeWords (EltTy.packing .i32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x128.size a ≤ S1x1024.size a
  hwx0_3 : ∀ i : grid0.Coords, EltTy.bits .i32 = 32 ∨ (Rect.block (s := S1x1024) S1x128.size (cc0_transform_3 i) (hinb0_3 i)).WholeWords (EltTy.packing .i32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x128.size a ≤ S1x1024.size a
  hwx0_4 : ∀ i : grid0.Coords, EltTy.bits .i32 = 32 ∨ (Rect.block (s := S1x1024) S1x128.size (cc0_transform_4 i) (hinb0_4 i)).WholeWords (EltTy.packing .i32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x128.size a ≤ S1x1024.size a
  hwx0_5 : ∀ i : grid0.Coords, EltTy.bits .i32 = 32 ∨ (Rect.block (s := S1x1024) S1x128.size (cc0_transform_5 i) (hinb0_5 i)).WholeWords (EltTy.packing .i32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S1x128.size a ≤ S1x1024.size a
  hwx0_6 : ∀ i : grid0.Coords, EltTy.bits .i32 = 32 ∨ (Rect.block (s := S1x1024) S1x128.size (cc0_transform_6 i) (hinb0_6 i)).WholeWords (EltTy.packing .i32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S1x128.size a ≤ S1x1024.size a
  hwx0_7 : ∀ i : grid0.Coords, EltTy.bits .i32 = 32 ∨ (Rect.block (s := S1x1024) S1x128.size (cc0_transform_7 i) (hinb0_7 i)).WholeWords (EltTy.packing .i32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S1x128.size a ≤ S1x1024.size a
  hwx0_8 : ∀ i : grid0.Coords, EltTy.bits .i32 = 32 ∨ (Rect.block (s := S1x1024) S1x128.size (cc0_transform_8 i) (hinb0_8 i)).WholeWords (EltTy.packing .i32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S1x128.size a ≤ S1x1024.size a
  hwx0_9 : ∀ i : grid0.Coords, EltTy.bits .i32 = 32 ∨ (Rect.block (s := S1x1024) S1x128.size (cc0_transform_9 i) (hinb0_9 i)).WholeWords (EltTy.packing .i32)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S139x128.size a ≤ S139x128.size a
  hwx0_10 : ∀ i : grid0.Coords, EltTy.bits .f32 = 32 ∨ (Rect.block (s := S139x128) S139x128.size (cc0_transform_10 i) (hinb0_10 i)).WholeWords (EltTy.packing .f32)
  hstage0_11 : ∀ j, (stage0_11 j).IsWhole
  nbuf0_11 : grid0.bufCount reads0_11 false = 2
  hreads0_11 : ∀ i i' : grid0.Coords, (∀ a, reads0_11 a = true → i a = i' a) → cc0_transform_11 i = cc0_transform_11 i'
  hinb0_11 : ∀ (i : grid0.Coords) a, (cc0_transform_11 i a + 1) * S1x128x128x128.size a ≤ S1x1024x1024x128.size a
  hwx0_11 : ∀ i : grid0.Coords, EltTy.bits .f32 = 32 ∨ (Rect.block (s := S1x1024x1024x128) S1x128x128x128.size (cc0_transform_11 i) (hinb0_11 i)).WholeWords (EltTy.packing .f32)

variable [Facts₀]

def dot_S16384x66_S66x128_S16384x128_1_0_0_1_n_n : DotDims S16384x66 S66x128 S16384x128 where
  lhsContracting := [1]
  rhsContracting := [0]
  lhsNonContracting := [0]
  rhsNonContracting := [1]
  lhsBatch := []
  rhsBatch := []
  wf := dot_S16384x66_S66x128_S16384x128_1_0_0_1_n_n_wf
def dot_S16384x6_S6x128_S16384x128_1_0_0_1_n_n : DotDims S16384x6 S6x128 S16384x128 where
  lhsContracting := [1]
  rhsContracting := [0]
  lhsNonContracting := [0]
  rhsNonContracting := [1]
  lhsBatch := []
  rhsBatch := []
  wf := dot_S16384x6_S6x128_S16384x128_1_0_0_1_n_n_wf

abbrev win0_0 : Pipeline.Window sig grid0 :=
  Pipeline.Window.ofSpec (Memref.whole main_arg1) S1x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S1x128.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg2) S1x128.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_arg3) S1x128.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_arg3) S1x128.size cc0_transform_5 reads0_5 false false 2 stage0_5 sem0_5
    hrank0 hreads0_5 hinb0_5 nbuf0_5 (Memref.isWhole_whole _) hwx0_5 hstage0_5

abbrev win0_6 : Pipeline.Window sig grid0 :=
  Pipeline.Window.ofSpec (Memref.whole main_arg4) S1x128.size cc0_transform_6 reads0_6 false false 2 stage0_6 sem0_6
    hrank0 hreads0_6 hinb0_6 nbuf0_6 (Memref.isWhole_whole _) hwx0_6 hstage0_6

abbrev win0_7 : Pipeline.Window sig grid0 :=
  Pipeline.Window.ofSpec (Memref.whole main_arg4) S1x128.size cc0_transform_7 reads0_7 false false 2 stage0_7 sem0_7
    hrank0 hreads0_7 hinb0_7 nbuf0_7 (Memref.isWhole_whole _) hwx0_7 hstage0_7

abbrev win0_8 : Pipeline.Window sig grid0 :=
  Pipeline.Window.ofSpec (Memref.whole main_arg5) S1x128.size cc0_transform_8 reads0_8 false false 2 stage0_8 sem0_8
    hrank0 hreads0_8 hinb0_8 nbuf0_8 (Memref.isWhole_whole _) hwx0_8 hstage0_8

abbrev win0_9 : Pipeline.Window sig grid0 :=
  Pipeline.Window.ofSpec (Memref.whole main_arg5) S1x128.size cc0_transform_9 reads0_9 false false 2 stage0_9 sem0_9
    hrank0 hreads0_9 hinb0_9 nbuf0_9 (Memref.isWhole_whole _) hwx0_9 hstage0_9

abbrev win0_10 : Pipeline.Window sig grid0 :=
  Pipeline.Window.ofSpec (Memref.whole main_v0) S139x128.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_v1) S1x128x128x128.size cc0_transform_11 reads0_11 true false 2 stage0_11 sem0_11
    hrank0 hreads0_11 hinb0_11 nbuf0_11 (Memref.isWhole_whole _) hwx0_11 hstage0_11

abbrev win0 : Fin 12 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | ⟨_ + 12, h⟩ => absurd h (Nat.not_lt.2 (Nat.le_add_left _ _))
abbrev spec0 : Fin 12 → Pipeline.WinSpec sig grid0.rank := fun w => (win0 w).toWinSpec

class Facts : Prop extends Facts₀ where

variable [Facts]
-- ==== ReferenceIdeal.lean ====
abbrev S128x139 : Shape := ⟨2, ![128, 139]⟩
abbrev S1x1024 : Shape := ⟨2, ![1, 1024]⟩
abbrev S1x1024x1 : Shape := ⟨3, ![1, 1024, 1]⟩
abbrev S1x1x1024 : Shape := ⟨3, ![1, 1, 1024]⟩
abbrev S1x1024x1024 : Shape := ⟨3, ![1, 1024, 1024]⟩
abbrev S_ : Shape := ⟨0, ![]⟩
abbrev S139x128 : Shape := ⟨2, ![139, 128]⟩
abbrev S66x128 : Shape := ⟨2, ![66, 128]⟩
abbrev S1x1024x1024x1 : Shape := ⟨4, ![1, 1024, 1024, 1]⟩
abbrev S1x1024x1024x128 : Shape := ⟨4, ![1, 1024, 1024, 128]⟩
abbrev S1x128 : Shape := ⟨2, ![1, 128]⟩
abbrev S128 : Shape := ⟨1, ![128]⟩
abbrev S1x1x1x128 : Shape := ⟨4, ![1, 1, 1, 128]⟩
abbrev S6x128 : Shape := ⟨2, ![6, 128]⟩

abbrev nBuf : Space → Nat
  | .hbm => 124
  | .vmem => 0
  | .smem => 0
  | _ => 0

abbrev bufTy : (tb : Table) → Fin (tcTables nBuf tb) → BufTy
  | .hbm, ⟨0, _⟩ => ⟨S128x139, .f32⟩
  | .hbm, ⟨1, _⟩ => ⟨S1x1024, .i32⟩
  | .hbm, ⟨2, _⟩ => ⟨S1x1024, .i32⟩
  | .hbm, ⟨3, _⟩ => ⟨S1x1024, .i32⟩
  | .hbm, ⟨4, _⟩ => ⟨S1x1024, .i32⟩
  | .hbm, ⟨5, _⟩ => ⟨S1x1024, .i32⟩
  | .hbm, ⟨6, _⟩ => ⟨S1x1024x1, .i32⟩
  | .hbm, ⟨7, _⟩ => ⟨S1x1x1024, .i32⟩
  | .hbm, ⟨8, _⟩ => ⟨S1x1024x1024, .i32⟩
  | .hbm, ⟨9, _⟩ => ⟨S1x1024x1024, .i32⟩
  | .hbm, ⟨10, _⟩ => ⟨S1x1024x1024, .i1⟩
  | .hbm, ⟨11, _⟩ => ⟨S1x1024x1, .i32⟩
  | .hbm, ⟨12, _⟩ => ⟨S1x1x1024, .i32⟩
  | .hbm, ⟨13, _⟩ => ⟨S1x1024x1024, .i32⟩
  | .hbm, ⟨14, _⟩ => ⟨S1x1024x1024, .i32⟩
  | .hbm, ⟨15, _⟩ => ⟨S1x1024x1024, .i1⟩
  | .hbm, ⟨16, _⟩ => ⟨S1x1024x1, .i32⟩
  | .hbm, ⟨17, _⟩ => ⟨S1x1x1024, .i32⟩
  | .hbm, ⟨18, _⟩ => ⟨S1x1024x1024, .i32⟩
  | .hbm, ⟨19, _⟩ => ⟨S1x1024x1024, .i32⟩
  | .hbm, ⟨20, _⟩ => ⟨S1x1024x1024, .i1⟩
  | .hbm, ⟨21, _⟩ => ⟨S1x1024x1, .i32⟩
  | .hbm, ⟨22, _⟩ => ⟨S1x1x1024, .i32⟩
  | .hbm, ⟨23, _⟩ => ⟨S1x1024x1024, .i32⟩
  | .hbm, ⟨24, _⟩ => ⟨S1x1024x1024, .i32⟩
  | .hbm, ⟨25, _⟩ => ⟨S1x1024x1024, .i32⟩
  | .hbm, ⟨26, _⟩ => ⟨S_, .i32⟩
  | .hbm, ⟨27, _⟩ => ⟨S1x1024x1024, .i32⟩
  | .hbm, ⟨28, _⟩ => ⟨S1x1024x1024, .i32⟩
  | .hbm, ⟨29, _⟩ => ⟨S_, .i32⟩
  | .hbm, ⟨30, _⟩ => ⟨S_, .i32⟩
  | .hbm, ⟨31, _⟩ => ⟨S_, .i32⟩
  | .hbm, ⟨32, _⟩ => ⟨S1x1024x1024, .i32⟩
  | .hbm, ⟨33, _⟩ => ⟨S1x1024x1024, .i32⟩
  | .hbm, ⟨34, _⟩ => ⟨S_, .i32⟩
  | .hbm, ⟨35, _⟩ => ⟨S1x1024x1024, .i32⟩
  | .hbm, ⟨36, _⟩ => ⟨S1x1024x1024, .i32⟩
  | .hbm, ⟨37, _⟩ => ⟨S_, .i32⟩
  | .hbm, ⟨38, _⟩ => ⟨S_, .i32⟩
  | .hbm, ⟨39, _⟩ => ⟨S1x1024x1024, .i32⟩
  | .hbm, ⟨40, _⟩ => ⟨S1x1024x1024, .i32⟩
  | .hbm, ⟨41, _⟩ => ⟨S1x1024x1, .i32⟩
  | .hbm, ⟨42, _⟩ => ⟨S1x1x1024, .i32⟩
  | .hbm, ⟨43, _⟩ => ⟨S1x1024x1024, .i32⟩
  | .hbm, ⟨44, _⟩ => ⟨S1x1024x1024, .i32⟩
  | .hbm, ⟨45, _⟩ => ⟨S1x1024x1024, .i32⟩
  | .hbm, ⟨46, _⟩ => ⟨S_, .i32⟩
  | .hbm, ⟨47, _⟩ => ⟨S1x1024x1024, .i32⟩
  | .hbm, ⟨48, _⟩ => ⟨S1x1024x1024, .i32⟩
  | .hbm, ⟨49, _⟩ => ⟨S_, .i32⟩
  | .hbm, ⟨50, _⟩ => ⟨S_, .i32⟩
  | .hbm, ⟨51, _⟩ => ⟨S_, .i32⟩
  | .hbm, ⟨52, _⟩ => ⟨S1x1024x1024, .i32⟩
  | .hbm, ⟨53, _⟩ => ⟨S1x1024x1024, .i32⟩
  | .hbm, ⟨54, _⟩ => ⟨S_, .i32⟩
  | .hbm, ⟨55, _⟩ => ⟨S1x1024x1024, .i32⟩
  | .hbm, ⟨56, _⟩ => ⟨S1x1024x1024, .i32⟩
  | .hbm, ⟨57, _⟩ => ⟨S1x1024x1024, .i1⟩
  | .hbm, ⟨58, _⟩ => ⟨S_, .i32⟩
  | .hbm, ⟨59, _⟩ => ⟨S_, .i32⟩
  | .hbm, ⟨60, _⟩ => ⟨S1x1024x1024, .i32⟩
  | .hbm, ⟨61, _⟩ => ⟨S1x1024x1024, .i32⟩
  | .hbm, ⟨62, _⟩ => ⟨S1x1024x1, .i32⟩
  | .hbm, ⟨63, _⟩ => ⟨S1x1x1024, .i32⟩
  | .hbm, ⟨64, _⟩ => ⟨S1x1024x1024, .i32⟩
  | .hbm, ⟨65, _⟩ => ⟨S1x1024x1024, .i32⟩
  | .hbm, ⟨66, _⟩ => ⟨S1x1024x1024, .i32⟩
  | .hbm, ⟨67, _⟩ => ⟨S_, .i32⟩
  | .hbm, ⟨68, _⟩ => ⟨S1x1024x1024, .i32⟩
  | .hbm, ⟨69, _⟩ => ⟨S1x1024x1024, .i32⟩
  | .hbm, ⟨70, _⟩ => ⟨S_, .i32⟩
  | .hbm, ⟨71, _⟩ => ⟨S_, .i32⟩
  | .hbm, ⟨72, _⟩ => ⟨S_, .i32⟩
  | .hbm, ⟨73, _⟩ => ⟨S1x1024x1024, .i32⟩
  | .hbm, ⟨74, _⟩ => ⟨S1x1024x1024, .i32⟩
  | .hbm, ⟨75, _⟩ => ⟨S_, .i32⟩
  | .hbm, ⟨76, _⟩ => ⟨S1x1024x1024, .i32⟩
  | .hbm, ⟨77, _⟩ => ⟨S1x1024x1024, .i32⟩
  | .hbm, ⟨78, _⟩ => ⟨S_, .i32⟩
  | .hbm, ⟨79, _⟩ => ⟨S_, .i32⟩
  | .hbm, ⟨80, _⟩ => ⟨S1x1024x1024, .i32⟩
  | .hbm, ⟨81, _⟩ => ⟨S1x1024x1024, .i32⟩
  | .hbm, ⟨82, _⟩ => ⟨S139x128, .f32⟩
  | .hbm, ⟨83, _⟩ => ⟨S66x128, .f32⟩
  | .hbm, ⟨84, _⟩ => ⟨S_, .i32⟩
  | .hbm, ⟨85, _⟩ => ⟨S1x1024x1024, .i32⟩
  | .hbm, ⟨86, _⟩ => ⟨S1x1024x1024, .i1⟩
  | .hbm, ⟨87, _⟩ => ⟨S_, .i32⟩
  | .hbm, ⟨88, _⟩ => ⟨S1x1024x1024, .i32⟩
  | .hbm, ⟨89, _⟩ => ⟨S1x1024x1024, .i32⟩
  | .hbm, ⟨90, _⟩ => ⟨S1x1024x1024, .i32⟩
  | .hbm, ⟨91, _⟩ => ⟨S1x1024x1024x1, .i32⟩
  | .hbm, ⟨92, _⟩ => ⟨S1x1024x1024x128, .f32⟩
  | .hbm, ⟨93, _⟩ => ⟨S66x128, .f32⟩
  | .hbm, ⟨94, _⟩ => ⟨S_, .i32⟩
  | .hbm, ⟨95, _⟩ => ⟨S1x1024x1024, .i32⟩
  | .hbm, ⟨96, _⟩ => ⟨S1x1024x1024, .i1⟩
  | .hbm, ⟨97, _⟩ => ⟨S_, .i32⟩
  | .hbm, ⟨98, _⟩ => ⟨S1x1024x1024, .i32⟩
  | .hbm, ⟨99, _⟩ => ⟨S1x1024x1024, .i32⟩
  | .hbm, ⟨100, _⟩ => ⟨S1x1024x1024, .i32⟩
  | .hbm, ⟨101, _⟩ => ⟨S1x1024x1024x1, .i32⟩
  | .hbm, ⟨102, _⟩ => ⟨S1x1024x1024x128, .f32⟩
  | .hbm, ⟨103, _⟩ => ⟨S1x1024x1024x128, .f32⟩
  | .hbm, ⟨104, _⟩ => ⟨S1x1024x1024x1, .i1⟩
  | .hbm, ⟨105, _⟩ => ⟨S1x1024x1024x1, .f32⟩
  | .hbm, ⟨106, _⟩ => ⟨S1x128, .f32⟩
  | .hbm, ⟨107, _⟩ => ⟨S128, .f32⟩
  | .hbm, ⟨108, _⟩ => ⟨S1x1x1x128, .f32⟩
  | .hbm, ⟨109, _⟩ => ⟨S1x1024x1024x128, .f32⟩
  | .hbm, ⟨110, _⟩ => ⟨S1x1024x1024x128, .f32⟩
  | .hbm, ⟨111, _⟩ => ⟨S1x1024x1024x128, .f32⟩
  | .hbm, ⟨112, _⟩ => ⟨S1x1024x1024x128, .f32⟩
  | .hbm, ⟨113, _⟩ => ⟨S6x128, .f32⟩
  | .hbm, ⟨114, _⟩ => ⟨S_, .i32⟩
  | .hbm, ⟨115, _⟩ => ⟨S1x1024x1024, .i32⟩
  | .hbm, ⟨116, _⟩ => ⟨S1x1024x1024, .i1⟩
  | .hbm, ⟨117, _⟩ => ⟨S_, .i32⟩
  | .hbm, ⟨118, _⟩ => ⟨S1x1024x1024, .i32⟩
  | .hbm, ⟨119, _⟩ => ⟨S1x1024x1024, .i32⟩
  | .hbm, ⟨120, _⟩ => ⟨S1x1024x1024, .i32⟩
  | .hbm, ⟨121, _⟩ => ⟨S1x1024x1024x1, .i32⟩
  | .hbm, ⟨122, _⟩ => ⟨S1x1024x1024x128, .f32⟩
  | .hbm, ⟨123, _⟩ => ⟨S1x1024x1024x128, .f32⟩
  | _, _ => ⟨S128x139, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_c : Ref sig .tc := ⟨.hbm, 26, rfl⟩
abbrev main_v20 : Ref sig .tc := ⟨.hbm, 27, rfl⟩
abbrev main_v21 : Ref sig .tc := ⟨.hbm, 28, rfl⟩
abbrev main_c_0 : Ref sig .tc := ⟨.hbm, 29, rfl⟩
abbrev main_c_1 : Ref sig .tc := ⟨.hbm, 30, rfl⟩
abbrev main_call0_v0 : Ref sig .tc := ⟨.hbm, 31, rfl⟩
abbrev main_call0_v1 : Ref sig .tc := ⟨.hbm, 32, rfl⟩
abbrev main_call0_v2 : Ref sig .tc := ⟨.hbm, 33, rfl⟩
abbrev main_call0_v3 : Ref sig .tc := ⟨.hbm, 34, rfl⟩
abbrev main_call0_v4 : Ref sig .tc := ⟨.hbm, 35, rfl⟩
abbrev main_v22 : Ref sig .tc := ⟨.hbm, 36, rfl⟩
abbrev main_c_2 : Ref sig .tc := ⟨.hbm, 37, rfl⟩
abbrev main_call1_v0 : Ref sig .tc := ⟨.hbm, 38, rfl⟩
abbrev main_call1_v1 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_c_3 : Ref sig .tc := ⟨.hbm, 46, rfl⟩
abbrev main_v29 : Ref sig .tc := ⟨.hbm, 47, rfl⟩
abbrev main_v30 : Ref sig .tc := ⟨.hbm, 48, rfl⟩
abbrev main_c_4 : Ref sig .tc := ⟨.hbm, 49, rfl⟩
abbrev main_c_5 : Ref sig .tc := ⟨.hbm, 50, rfl⟩
abbrev main_call2_v0 : Ref sig .tc := ⟨.hbm, 51, rfl⟩
abbrev main_call2_v1 : Ref sig .tc := ⟨.hbm, 52, rfl⟩
abbrev main_call2_v2 : Ref sig .tc := ⟨.hbm, 53, rfl⟩
abbrev main_call2_v3 : Ref sig .tc := ⟨.hbm, 54, rfl⟩
abbrev main_call2_v4 : Ref sig .tc := ⟨.hbm, 55, rfl⟩
abbrev main_v31 : Ref sig .tc := ⟨.hbm, 56, rfl⟩
abbrev main_v32 : Ref sig .tc := ⟨.hbm, 57, rfl⟩
abbrev main_c_6 : Ref sig .tc := ⟨.hbm, 58, rfl⟩
abbrev main_call3_v0 : Ref sig .tc := ⟨.hbm, 59, rfl⟩
abbrev main_call3_v1 : Ref sig .tc := ⟨.hbm, 60, rfl⟩
abbrev main_v33 : Ref sig .tc := ⟨.hbm, 61, rfl⟩
abbrev main_v34 : Ref sig .tc := ⟨.hbm, 62, rfl⟩
abbrev main_v35 : Ref sig .tc := ⟨.hbm, 63, rfl⟩
abbrev main_v36 : Ref sig .tc := ⟨.hbm, 64, rfl⟩
abbrev main_v37 : Ref sig .tc := ⟨.hbm, 65, rfl⟩
abbrev main_v38 : Ref sig .tc := ⟨.hbm, 66, rfl⟩
abbrev main_c_7 : Ref sig .tc := ⟨.hbm, 67, rfl⟩
abbrev main_v39 : Ref sig .tc := ⟨.hbm, 68, rfl⟩
abbrev main_v40 : Ref sig .tc := ⟨.hbm, 69, rfl⟩
abbrev main_c_8 : Ref sig .tc := ⟨.hbm, 70, rfl⟩
abbrev main_c_9 : Ref sig .tc := ⟨.hbm, 71, rfl⟩
abbrev main_call4_v0 : Ref sig .tc := ⟨.hbm, 72, rfl⟩
abbrev main_call4_v1 : Ref sig .tc := ⟨.hbm, 73, rfl⟩
abbrev main_call4_v2 : Ref sig .tc := ⟨.hbm, 74, rfl⟩
abbrev main_call4_v3 : Ref sig .tc := ⟨.hbm, 75, rfl⟩
abbrev main_call4_v4 : Ref sig .tc := ⟨.hbm, 76, rfl⟩
abbrev main_v41 : Ref sig .tc := ⟨.hbm, 77, rfl⟩
abbrev main_c_10 : Ref sig .tc := ⟨.hbm, 78, rfl⟩
abbrev main_call5_v0 : Ref sig .tc := ⟨.hbm, 79, rfl⟩
abbrev main_call5_v1 : Ref sig .tc := ⟨.hbm, 80, rfl⟩
abbrev main_v42 : Ref sig .tc := ⟨.hbm, 81, rfl⟩
abbrev main_v43 : Ref sig .tc := ⟨.hbm, 82, rfl⟩
abbrev main_v44 : Ref sig .tc := ⟨.hbm, 83, rfl⟩
abbrev main_c_11 : Ref sig .tc := ⟨.hbm, 84, rfl⟩
abbrev main_v45 : Ref sig .tc := ⟨.hbm, 85, rfl⟩
abbrev main_v46 : Ref sig .tc := ⟨.hbm, 86, rfl⟩
abbrev main_c_12 : Ref sig .tc := ⟨.hbm, 87, rfl⟩
abbrev main_v47 : Ref sig .tc := ⟨.hbm, 88, rfl⟩
abbrev main_v48 : Ref sig .tc := ⟨.hbm, 89, rfl⟩
abbrev main_v49 : Ref sig .tc := ⟨.hbm, 90, rfl⟩
abbrev main_v50 : Ref sig .tc := ⟨.hbm, 91, rfl⟩
abbrev main_v51 : Ref sig .tc := ⟨.hbm, 92, rfl⟩
abbrev main_v52 : Ref sig .tc := ⟨.hbm, 93, rfl⟩
abbrev main_c_13 : Ref sig .tc := ⟨.hbm, 94, rfl⟩
abbrev main_v53 : Ref sig .tc := ⟨.hbm, 95, rfl⟩
abbrev main_v54 : Ref sig .tc := ⟨.hbm, 96, rfl⟩
abbrev main_c_14 : Ref sig .tc := ⟨.hbm, 97, rfl⟩
abbrev main_v55 : Ref sig .tc := ⟨.hbm, 98, rfl⟩
abbrev main_v56 : Ref sig .tc := ⟨.hbm, 99, rfl⟩
abbrev main_v57 : Ref sig .tc := ⟨.hbm, 100, rfl⟩
abbrev main_v58 : Ref sig .tc := ⟨.hbm, 101, rfl⟩
abbrev main_v59 : Ref sig .tc := ⟨.hbm, 102, rfl⟩
abbrev main_v60 : Ref sig .tc := ⟨.hbm, 103, rfl⟩
abbrev main_v61 : Ref sig .tc := ⟨.hbm, 104, rfl⟩
abbrev main_v62 : Ref sig .tc := ⟨.hbm, 105, rfl⟩
abbrev main_v63 : Ref sig .tc := ⟨.hbm, 106, rfl⟩
abbrev main_v64 : Ref sig .tc := ⟨.hbm, 107, rfl⟩
abbrev main_v65 : Ref sig .tc := ⟨.hbm, 108, rfl⟩
abbrev main_v66 : Ref sig .tc := ⟨.hbm, 109, rfl⟩
abbrev main_v67 : Ref sig .tc := ⟨.hbm, 110, rfl⟩
abbrev main_v68 : Ref sig .tc := ⟨.hbm, 111, rfl⟩
abbrev main_v69 : Ref sig .tc := ⟨.hbm, 112, rfl⟩
abbrev main_v70 : Ref sig .tc := ⟨.hbm, 113, rfl⟩
abbrev main_c_15 : Ref sig .tc := ⟨.hbm, 114, rfl⟩
abbrev main_v71 : Ref sig .tc := ⟨.hbm, 115, rfl⟩
abbrev main_v72 : Ref sig .tc := ⟨.hbm, 116, rfl⟩
abbrev main_c_16 : Ref sig .tc := ⟨.hbm, 117, rfl⟩
abbrev main_v73 : Ref sig .tc := ⟨.hbm, 118, rfl⟩
abbrev main_v74 : Ref sig .tc := ⟨.hbm, 119, rfl⟩
abbrev main_v75 : Ref sig .tc := ⟨.hbm, 120, rfl⟩
abbrev main_v76 : Ref sig .tc := ⟨.hbm, 121, rfl⟩
abbrev main_v77 : Ref sig .tc := ⟨.hbm, 122, rfl⟩
abbrev main_v78 : Ref sig .tc := ⟨.hbm, 123, rfl⟩

abbrev nD : Nat := 1
abbrev τ : Topo := Topo.v7x

variable {F : FTy → Type} [FloatOps F]

class Facts₀ : Prop where
  bcast_S1x1024_S1x1024x1_0_1 : S1x1024.BroadcastsInDim S1x1024x1 (![0, 1] : Fin 2 → Fin S1x1024x1.rank)
  bcast_S1x1024_S1x1x1024_0_2 : S1x1024.BroadcastsInDim S1x1x1024 (![0, 2] : Fin 2 → Fin S1x1x1024.rank)
  bcast_S1x1024x1_S1x1024x1024_0_1_2 : S1x1024x1.BroadcastsInDim S1x1024x1024 (![0, 1, 2] : Fin 3 → Fin S1x1024x1024.rank)
  bcast_S1x1x1024_S1x1024x1024_0_1_2 : S1x1x1024.BroadcastsInDim S1x1024x1024 (![0, 1, 2] : Fin 3 → Fin S1x1024x1024.rank)
  bcast_S_S1x1024x1024 : S_.BroadcastsInDim S1x1024x1024 (![] : Fin 0 → Fin S1x1024x1024.rank)
  transposes_S128x139_S139x128_1_0 : S128x139.Transposes [1, 0] S139x128
  slices_S139x128_S66x128_0_0 : S139x128.Slices ![0, 0] S66x128
  bcast_S1x1024x1024_S1x1024x1024x1_0_1_2 : S1x1024x1024.BroadcastsInDim S1x1024x1024x1 (![0, 1, 2] : Fin 3 → Fin S1x1024x1024x1.rank)
  slices_S139x128_S66x128_66_0 : S139x128.Slices ![66, 0] S66x128
  slices_S139x128_S1x128_132_0 : S139x128.Slices ![132, 0] S1x128
  shapeCasts_S1x128_S128 : S1x128.ShapeCasts S128
  bcast_S128_S1x1x1x128_3 : S128.BroadcastsInDim S1x1x1x128 (![3] : Fin 1 → Fin S1x1x1x128.rank)
  bcast_S1x1024x1024x1_S1x1024x1024x128_0_1_2_3 : S1x1024x1024x1.BroadcastsInDim S1x1024x1024x128 (![0, 1, 2, 3] : Fin 4 → Fin S1x1024x1024x128.rank)
  bcast_S1x1x1x128_S1x1024x1024x128_0_1_2_3 : S1x1x1x128.BroadcastsInDim S1x1024x1024x128 (![0, 1, 2, 3] : Fin 4 → Fin S1x1024x1024x128.rank)
  slices_S139x128_S6x128_133_0 : S139x128.Slices ![133, 0] S6x128
  gather_S66x128_S1x1024x1024x1_S1x1024x1024x128_3_0_n_n_0_3_1128_wf : GatherDims.WF S66x128 S1x1024x1024x1 S1x1024x1024x128 [3] [0] [] [0] [] 3 ![1, 128]
  gather_S6x128_S1x1024x1024x1_S1x1024x1024x128_3_0_n_n_0_3_1128_wf : GatherDims.WF S6x128 S1x1024x1024x1 S1x1024x1024x128 [3] [0] [] [0] [] 3 ![1, 128]

variable [Facts₀]

def gather_S66x128_S1x1024x1024x1_S1x1024x1024x128_3_0_n_n_0_3_1128 : GatherDims S66x128 S1x1024x1024x1 S1x1024x1024x128 where
  offsetDims := [3]
  collapsedSliceDims := [0]
  operandBatchingDims := []
  startIndicesBatchingDims := []
  startIndexMap := [0]
  indexVectorDim := 3
  sliceSizes := ![1, 128]
  wf := gather_S66x128_S1x1024x1024x1_S1x1024x1024x128_3_0_n_n_0_3_1128_wf
def gather_S6x128_S1x1024x1024x1_S1x1024x1024x128_3_0_n_n_0_3_1128 : GatherDims S6x128 S1x1024x1024x1 S1x1024x1024x128 where
  offsetDims := [3]
  collapsedSliceDims := [0]
  operandBatchingDims := []
  startIndicesBatchingDims := []
  startIndexMap := [0]
  indexVectorDim := 3
  sliceSizes := ![1, 128]
  wf := gather_S6x128_S1x1024x1024x1_S1x1024x1024x128_3_0_n_n_0_3_1128_wf

class Facts : Prop extends Facts₀ where

variable [Facts]
-- ==== Proof.KwBlock.lean ====
/-
  What one grid point of the kernel leaves in its output block, as ONE pure function of the
  eleven input blocks (the row and column slices of the five id arrays, and the transposed weight table).

  The body zeroes the block, then four times reads it back, adds a term and stores it again; since every
  store covers the whole block, each read returns exactly what the store before it wrote, and the last
  store's value is the nested sum
      (((0 + onehot(d1) · Wt[0:66]) + onehot(d2) · Wt[66:132]) + [same entity] * Wt[132]) + onehot(d3) · Wt[133:139].
-/
import proofs.«424427_j1468878815797_4_alg».proof.Proof.Gen.Kernel.Skeleton

noncomputable section

namespace Cert.Kernel.Hand

open Idealize.ShloMosaic Idealize.SL.Sem Cert.Kernel Cert.Kernel.Gen

variable {F : FTy → Type} [FloatOps F]

/-- The block after the first store: all zeros. -/
def blk0 : Vec F S1x128x128x128 .f32 := k0_pay24 (F := F)

/-- After the second store: the residue-offset rows added. `xar xac` are the chain ids of the block's rows
    and columns, `xrr xrc` the residue indices, `w` the transposed weight table. -/
def blk1 (xar xac xrr xrc : Vec F S1x128 .i32) (w : Vec F S139x128 .f32) : Vec F S1x128x128x128 .f32 :=
  k0_pay25 (k0_pay16 (F := F) (k0_pay4 (F := F) xrr) (k0_pay5 (F := F) xrc) (k0_pay10 (F := F) xar xac)) w (blk0 (F := F))

/-- After the third store: the token-offset rows added (`xtr xtc` the token indices). -/
def blk2 (xar xac xrr xrc xtr xtc : Vec F S1x128 .i32) (w : Vec F S139x128 .f32) : Vec F S1x128x128x128 .f32 :=
  k0_pay1 (k0_pay26 (k0_pay17 (k0_pay8 (F := F) xtr) (k0_pay9 (F := F) xtc) (k0_pay10 (F := F) xar xac) (k0_pay11 (F := F) xrr xrc))
    (k0_pay18) w (blk1 xar xac xrr xrc w))

/-- After the fourth store: the same-entity row added where the entities agree (`xer xec` the entity ids). -/
def blk3 (xar xac xrr xrc xer xec xtr xtc : Vec F S1x128 .i32) (w : Vec F S139x128 .f32) : Vec F S1x128x128x128 .f32 :=
  k0_pay2 (k0_pay14 (k0_pay12 (F := F) xer) (k0_pay13 (F := F) xec)) (k0_pay22 w) (blk2 xar xac xrr xrc xtr xtc w)

/-- After the last store: the copy-offset rows added (`xsr xsc` the copy ids). The order of the arguments is
    the order of the kernel's input windows: chain, residue, entity, copy, token — rows then columns of each. -/
def outBlock (xar xac xrr xrc xer xec xsr xsc xtr xtc : Vec F S1x128 .i32) (w : Vec F S139x128 .f32) : Vec F S1x128x128x128 .f32 :=
  k0_pay3 (k0_pay19 (F := F) (k0_pay15 (k0_pay6 (F := F) xsr) (k0_pay7 (F := F) xsc) (k0_pay12 (F := F) xer) (k0_pay13 (F := F) xec))
      (iota .tc S1x1x6 32 [2] iota_S1x1x6_d2_w32))
    (k0_pay23 w) (blk3 xar xac xrr xrc xer xec xtr xtc w)

end Cert.Kernel.Hand

end
-- ==== Proof.KwBody.lean ====
/-
  The kernel's body as a triple: run on whole staging buffers that hold the eleven input blocks,
  with the output's staging buffer at anything, it ends with the inputs untouched and the output buffer at
  `outBlock` of the inputs. Every store of the body covers the whole output block, so each of its
  read-backs returns the value stored just before it.
-/
import proofs.«424427_j1468878815797_4_alg».proof.Proof.KwBlock
import proofs.«424427_j1468878815797_4_alg».proof.Proof.Gen.Kernel.Launch
import proofs.«424427_j1468878815797_4_alg».proof.Proof.Gen.Kernel.Points
import Idealize.ShloMosaic.Lib.Pipeline.FrameBody
import Idealize.ShloMosaic.Lib.Pipeline.Value
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-- A read-back through the whole block, after stores of which the LAST covered the whole block, returns that
    last store's value, whatever was stored before it. -/
theorem readCov_cons_whole {Val : EltTy → Type} [∀ e, Nonempty (Val e)] {sig' : RefSig} {κ : Kind} {sp : Space} {S : Shape} {e : EltTy}
    (v : View sig' κ sp S e) {off : Fin S.rank → Nat} (h : off = fun _ => 0)
    (inb : ∀ a, off a + S.size a ≤ S.size a) (w : S.Idx → Val e) (L : List (View.Piece Val S e)) :
    v.readCov ((⟨Rect.unit off S.size inb, w⟩ : View.Piece Val S e) :: L) (Rect.unit off S.size inb).toLoadRect = w := by
  subst h
  rw [View.readCov_eq_canon_ld _ _ _ (fun y => ⟨_, List.mem_cons_self, View.mem_set_unit_zero rfl inb y⟩),
    View.canon_cons_unit_zero rfl, View.ld_unit_zero rfl]

theorem hz2a : (![0, 0] : Fin S1x128.rank → Nat) = fun _ => 0 := by
  funext a; match a with | ⟨0, _⟩ => rfl | ⟨1, _⟩ => rfl
theorem hz2b : (![0, 0] : Fin S139x128.rank → Nat) = fun _ => 0 := by
  funext a; match a with | ⟨0, _⟩ => rfl | ⟨1, _⟩ => rfl

/-- The origin of the output block: every access of the body to it is through the whole block. -/
theorem hz4 : (![0, 0, 0, 0] : Fin S1x128x128x128.rank → Nat) = fun _ => 0 := by
  funext a; match a with | ⟨0, _⟩ => rfl | ⟨1, _⟩ => rfl | ⟨2, _⟩ => rfl | ⟨3, _⟩ => rfl

set_option maxHeartbeats 4000000 in
theorem sound_kernel (c : Dev nD) (E : Set ℕ) (i : grid0.Coords)
    (arg2 : Memref sig .tc .vmem S1x128 .i32) (harg2 : arg2.IsWhole) (arg3 : Memref sig .tc .vmem S1x128 .i32) (harg3 : arg3.IsWhole)
    (arg4 : Memref sig .tc .vmem S1x128 .i32) (harg4 : arg4.IsWhole) (arg5 : Memref sig .tc .vmem S1x128 .i32) (harg5 : arg5.IsWhole)
    (arg6 : Memref sig .tc .vmem S1x128 .i32) (harg6 : arg6.IsWhole) (arg7 : Memref sig .tc .vmem S1x128 .i32) (harg7 : arg7.IsWhole)
    (arg8 : Memref sig .tc .vmem S1x128 .i32) (harg8 : arg8.IsWhole) (arg9 : Memref sig .tc .vmem S1x128 .i32) (harg9 : arg9.IsWhole)
    (arg10 : Memref sig .tc .vmem S1x128 .i32) (harg10 : arg10.IsWhole) (arg11 : Memref sig .tc .vmem S1x128 .i32) (harg11 : arg11.IsWhole)
    (arg12 : Memref sig .tc .vmem S139x128 .f32) (harg12 : arg12.IsWhole) (arg13 : Memref sig .tc .vmem S1x128x128x128 .f32) (harg13 : arg13.IsWhole)
    (x0 x1 x2 x3 x4 x5 x6 x7 x8 x9 : Vec F S1x128 .i32) (x10 : Vec F S139x128 .f32) (K : PUnit → sProp 𝕄) :
    iprop(owns (c : Thread nD τ) arg2 fullShare x0 ∗ owns (c : Thread nD τ) arg3 fullShare x1
        ∗ owns (c : Thread nD τ) arg4 fullShare x2 ∗ owns (c : Thread nD τ) arg5 fullShare x3
        ∗ owns (c : Thread nD τ) arg6 fullShare x4 ∗ owns (c : Thread nD τ) arg7 fullShare x5
        ∗ owns (c : Thread nD τ) arg8 fullShare x6 ∗ owns (c : Thread nD τ) arg9 fullShare x7
        ∗ owns (c : Thread nD τ) arg10 fullShare x8 ∗ owns (c : Thread nD τ) arg11 fullShare x9
        ∗ owns (c : Thread nD τ) arg12 fullShare x10 ∗ (∃ d, owns (c : Thread nD τ) arg13 fullShare d)
        ∗ (iprop(owns (c : Thread nD τ) arg2 fullShare x0 ∗ owns (c : Thread nD τ) arg3 fullShare x1
            ∗ owns (c : Thread nD τ) arg4 fullShare x2 ∗ owns (c : Thread nD τ) arg5 fullShare x3
            ∗ owns (c : Thread nD τ) arg6 fullShare x4 ∗ owns (c : Thread nD τ) arg7 fullShare x5
            ∗ owns (c : Thread nD τ) arg8 fullShare x6 ∗ owns (c : Thread nD τ) arg9 fullShare x7
            ∗ owns (c : Thread nD τ) arg10 fullShare x8 ∗ owns (c : Thread nD τ) arg11 fullShare x9
            ∗ owns (c : Thread nD τ) arg12 fullShare x10
            ∗ owns (c : Thread nD τ) arg13 fullShare (outBlock x0 x1 x2 x3 x4 x5 x6 x7 x8 x9 x10)) -∗ K ⟨⟩))
      ⊢ wp frame (wpE (defs₀ (F := F)) Variants.none c none) E
          (cc0__kernel i arg2 harg2 arg3 harg3 arg4 harg4 arg5 harg5 arg6 harg6 arg7 harg7 arg8 harg8 arg9 harg9 arg10 harg10 arg11 harg11 arg12 harg12 arg13 harg13) K := by
  simp only [cc0__kernel_eq_skeleton]; unfold cc0__kernel_skel
  simp only [k0_part1_eq_skeleton, k0_part2_eq_skeleton, k0_part3_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%d11, %f11, -, H11⟩, Hk⟩
  subst hf0 hf1 hf2 hf3 hf4 hf5 hf6 hf7 hf8 hf9 hf10
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists f10; isplitr; · ipureintro; rfl
    iexact H10
  iexists _; isplitr
  swap; · iexact H11
  ipureintro
  rw [View.read_writes_eq_canon _ _ _ (fun y => ⟨_, List.mem_cons_self, View.mem_set_unit_zero (S := S1x128x128x128) hz4 inb_S1x128x128x128_S1x128x128x128_0_0_0_0 y⟩)]
  rw [View.canon_cons_unit_zero (S := S1x128x128x128) hz4]
  sl_unfold_words
  simp only [readCov_cons_whole (S := S1x128x128x128) _ hz4, View.readAt_eq_ld,
    View.ld_unit_zero (S := S1x128) hz2a, View.ld_unit_zero (S := S139x128) hz2b]
  unfold outBlock blk3 blk2 blk1 blk0
  rfl

end Cert.Kernel.Hand

end
-- ==== Proof.LibSharedFrame.lean ====
/-
  The frame run of a one-region pipeline kernel whose INPUT windows may read one array through several
  windows (a row slice and a column slice of the same vector, say).

  The library's frame run asks that the windows' arrays be pairwise distinct, each held at the full share.
  When two input windows read the same array that cannot be: the array's one full share has to be dealt
  among them. Nothing else of the launch depends on distinctness, so the run below is the same statement
  with the dealing left to the caller (`hsplit`): the buffers behind the arrays, each whole at the full share,
  yield the proof data's arrays at the shares it names. The kernel is of the plainest kind otherwise: no
  semaphore or transfer of its own, no prefetched table, nothing carried in scratch between grid points, and
  it does not use the random-number register; its invariant is the core's scoped buffers that are no staging
  buffer, at some contents.
-/
import Idealize.ShloMosaic.Lib.Pipeline.Frame

noncomputable section

namespace Idealize.ShloMosaic.Pipeline.SharedFrame

open Idealize.ShloMosaic Idealize.ShloMosaic.TcCoe Idealize.ShloMosaic.Pipeline
open Idealize.SL Idealize.SL.RA Idealize.SL.BI
open scoped Idealize.SL.BI
open Idealize.SL.BI.BIBase Idealize.SL.BI.Laws Idealize.SL.ProofMode Idealize.SL.Sem
open Idealize.ShloMosaic.Rounds

variable {nD : Nat} {τ : Topo} {sig : RefSig} {Val : EltTy → Type}
variable {Λ₀ : SL.Sem.Labels} {P : Type} [Fintype P] [DecidableEq P] [∀ e, Nonempty (Val e)]

/-- THE FRAME RUN for windows that may share arrays. As the library's `θ_run_frame`, with the layout facts
    taken one by one (`hinj`: the staging cells are distinct; `hw`: the windows' layout but for the arrays'
    distinctness; `hne`, `harr`, `hstage`), the full-share hypothesis replaced by the caller's dealing of
    the arrays (`hsplit`), and the invariant the scoped rest alone (`hΦ`). Concludes the same `FramePost`:
    every window's array at the library's `Dat.arrAt … N`, every other unscoped buffer as the region found it. -/
theorem θ_run_frame_shared (cfgs : P → Cfg sig Λ₀)
    (dats : (p : P) → (c : Dev nD) → Dat τ Val Unit ℕ (UR sig nD τ) ℕ (cfgs p) c) (p : P)
    (hinj : Function.Injective (cellOf (nD := nD) (τ := τ) cfgs)) (hw : WinFacts₀ (cfgs p).spec)
    (hne : ∀ w : Fin (cfgs p).W, 0 < ((cfgs p).spec w).block.numel)
    (harr : ∀ w, ((cfgs p).spec w).arr.IsWhole) (hstage : ∀ w s, (((cfgs p).spec w).stage s).IsWhole)
    (defs₀ : Defs nD τ sig Val Λ₀) (𝒱₀ : Variants)
    (m : (ℓ : Loc nD τ sig) → Buf Val ℓ) (g : Dev nD → PrngReg)
    (main : Dev nD → Prog (TpuEff nD τ sig Val (Sig Λ₀ P fun p => ((cfgs p).toPCfg (Val := Val)).Adm) .tc) PUnit)
    (hbody : ∀ c, BodyObligationLoose (dats p c) defs₀ 𝒱₀ () Set.univ)
    (howed : ∀ c t, (dats p c).owed t = 0)
    (V : (c : Dev nD) → (b : Ref sig .tc) → Buf Val ((c.tc : Thread nD τ).loc b))
    (hmain : HMain (Ix := Unit) (Name := ℕ) (U := UR sig nD τ) (Lvl := ℕ) cfgs p defs₀ 𝒱₀ m main V)
    (hsplit : ∀ c, (arrBufs (Ix := Unit) (Name := ℕ) (U := UR sig nD τ) (Lvl := ℕ) (cfgs p).spec c (V c) : sProp (MT nD τ sig Unit Val ℕ (UR sig nD τ) ℕ))
      ⊢ (dats p c).arrays ((dats p c).arrAt · 0))
    (hΦ : ∀ c t, (dats p c).Φ t = scopedRest (Ix := Unit) (Name := ℕ) (U := UR sig nD τ) (Lvl := ℕ) (Val := Val) (cfgs p).spec c) :
    θ_run (Pipeline.defs (fun q => Cfg.toPCfg (Val := Val) (cfgs q)) defs₀) (onTc main) (s₀ m g) (FramePost cfgs dats p V) := by
  classical
  -- One call of the launch for a kernel with no semaphore of its own whose windows may share arrays. The ghost
  -- state is the pipeline's staging cells alone, so the user algebra is owned through its whole-component
  -- embedding and the funding of the cells is immediate.
  exact θ_run_region_noSem_shared cfgs dats () hinj p hw emb₁ defs₀ 𝒱₀ m g main hbody hne harr hstage howed
    (initOf (cells cfgs hinj) (launchToks cfgs hinj)) .rfl V hmain hsplit
    -- Of the unscoped buffers that are no window's array, nothing goes to the body (`X`, `Y` empty): they all
    -- bypass the region (`Z`), each whole at its entry contents.
    (X := fun _ => iprop(emp)) (Y := fun _ => iprop(emp))
    (Z := fun c => unscopedRest (Ix := Unit) (Name := ℕ) (U := UR sig nD τ) (Lvl := ℕ) (cfgs p).spec c (V c))
    (hX := fun c => by
      iintro H
      isplitr
      · iempintro
      · iexact H)
    -- The invariant is the scoped rest at every point, so entering and leaving the grid is the identity on it.
    (hin := fun c => by
      rw [hΦ]
      iintro ⟨-, H⟩
      iexact H)
    (hout := fun c => by
      rw [hΦ]
      iintro H
      isplitr
      · iempintro
      · iexact H)
    -- What the bypassing buffers say of the final memory: each holds its entry contents. Their points-tos, whole
    -- and untouched, are read against the state interpretation.
    (QY := fun c s => ∀ b ∈ restRefs sig (cfgs p).spec, s.mem ((c.tc : Thread nD τ).loc b) = V c b)
    (hY := fun c s' => by
      iintro ⟨-, HU, HSI⟩
      unfold unscopedRest
      imodintro
      iapply (pointsTo_read_all (restRefs sig (cfgs p).spec) (fun b => (c.tc : Thread nD τ).loc b) (V c) s')
      isplitl [HU] <;> iassumption)
    -- The launch's per-core conclusion — every window's array at the library's `arrAt … N`, every bypassing
    -- buffer at `V` — is the frame post's two clauses.
    (hQ := fun s h c => ⟨(h c).1, (h c).2⟩)

end Idealize.ShloMosaic.Pipeline.SharedFrame

end
-- ==== Proof.KwFrame.lean ====
/-
  The frame of the kernel program: launched from any memory, every weakly fair execution of @main ends,
  faults nowhere, and leaves the six argument arrays as they were; and the result array ends at what the
  grid's points wrote back, block by block.

  @main transposes the weight table on the host and then runs ONE pipelined region over an 8 x 8 grid. The
  region has twelve windows. Ten of them read the five id vectors, each vector through TWO windows (the 128
  ids of the point's rows and the 128 of its columns), so the two windows of a pair have the same array behind
  them: the pair shares it, each window holding one half of the array's share, which is all a window that only
  reads needs. The eleventh window is the whole transposed table; the twelfth is the output block, stored whole
  at every point and written back at every point. What the body leaves in the output's buffer is `outBlock` of
  the eleven input blocks; each input buffer holds its window's block of its array at every point, fetched
  there or not, because the body only reads it.
-/
import proofs.«424427_j1468878815797_4_alg».proof.Proof.KwBody
import proofs.«424427_j1468878815797_4_alg».proof.Proof.LibSharedFrame

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main up to the region -/

/-- Core `c`'s buffers when the region is entered: after the host's transpose of the weight table. -/
abbrev V (c : Dev nD) (b : Ref sig .tc) : Buf (Elt F) ((c : Thread nD τ).loc b) := StableHlo.after hostOps0 (fun b => m (c, b)) b

theorem hostOps0_fresh : (hostOps0 : List (HloOp τ sig (Elt F))).Forall fun op => op.fresh = ∅ := by
  simp only [List.Forall]; repeat' constructor

/-- @main is the host operation and then the region. -/
theorem hmain (𝒱₀ : Variants) : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

/-- The transpose writes its own result only: the region finds argument 0 as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- The transpose writes its own result only: the region finds argument 1 as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- The transpose writes its own result only: the region finds argument 2 as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- The transpose writes its own result only: the region finds argument 3 as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- The transpose writes its own result only: the region finds argument 4 as launched. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- The transpose writes its own result only: the region finds argument 5 as launched. -/
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's buffer holds its block at every point, fetched there or not: the body leaves it in place. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's buffer holds its block at every point, fetched there or not: the body leaves it in place. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's buffer holds its block at every point, fetched there or not: the body leaves it in place. -/
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3's buffer holds its block at every point, fetched there or not: the body leaves it in place. -/
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
/-- Input window 4's buffer holds its block at every point, fetched there or not: the body leaves it in place. -/
theorem before0_4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
/-- Input window 5's buffer holds its block at every point, fetched there or not: the body leaves it in place. -/
theorem before0_5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
/-- Input window 6's buffer holds its block at every point, fetched there or not: the body leaves it in place. -/
theorem before0_6_of {c : Dev nD} (dat : Dat τ (Elt F) Unit ℕ (UR sig nD τ) ℕ cfg0 c) (hA : dat.A 6 = V m c (Pipeline.arrRef spec0 6))
    (hafter : ∀ t, dat.after 6 t = iblk m c 6 t) (t : Fin cfg0.N) (d) : dat.before 6 t d = iblk m c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)
/-- Input window 7's buffer holds its block at every point, fetched there or not: the body leaves it in place. -/
theorem before0_7_of {c : Dev nD} (dat : Dat τ (Elt F) Unit ℕ (UR sig nD τ) ℕ cfg0 c) (hA : dat.A 7 = V m c (Pipeline.arrRef spec0 7))
    (hafter : ∀ t, dat.after 7 t = iblk m c 7 t) (t : Fin cfg0.N) (d) : dat.before 7 t d = iblk m c 7 t :=
  (dat.before_in_eq_fetched 7 rfl (fun _ => rfl) (fun _ _ _ => rfl) (fun t => by rw [hafter]; unfold Dat.blockOf iblk; rw [hA]; try rfl) t d).trans
    (by unfold Dat.fetched Dat.blockOf iblk; rw [hA]; try rfl)
/-- Input window 8's buffer holds its block at every point, fetched there or not: the body leaves it in place. -/
theorem before0_8_of {c : Dev nD} (dat : Dat τ (Elt F) Unit ℕ (UR sig nD τ) ℕ cfg0 c) (hA : dat.A 8 = V m c (Pipeline.arrRef spec0 8))
    (hafter : ∀ t, dat.after 8 t = iblk m c 8 t) (t : Fin cfg0.N) (d) : dat.before 8 t d = iblk m c 8 t :=
  (dat.before_in_eq_fetched 8 rfl (fun _ => rfl) (fun _ _ _ => rfl) (fun t => by rw [hafter]; unfold Dat.blockOf iblk; rw [hA]; try rfl) t d).trans
    (by unfold Dat.fetched Dat.blockOf iblk; rw [hA]; try rfl)
/-- Input window 9's buffer holds its block at every point, fetched there or not: the body leaves it in place. -/
theorem before0_9_of {c : Dev nD} (dat : Dat τ (Elt F) Unit ℕ (UR sig nD τ) ℕ cfg0 c) (hA : dat.A 9 = V m c (Pipeline.arrRef spec0 9))
    (hafter : ∀ t, dat.after 9 t = iblk m c 9 t) (t : Fin cfg0.N) (d) : dat.before 9 t d = iblk m c 9 t :=
  (dat.before_in_eq_fetched 9 rfl (fun _ => rfl) (fun _ _ _ => rfl) (fun t => by rw [hafter]; unfold Dat.blockOf iblk; rw [hA]; try rfl) t d).trans
    (by unfold Dat.fetched Dat.blockOf iblk; rw [hA]; try rfl)
/-- Input window 10's buffer holds its block at every point, fetched there or not: the body leaves it in place. -/
theorem before0_10_of {c : Dev nD} (dat : Dat τ (Elt F) Unit ℕ (UR sig nD τ) ℕ cfg0 c) (hA : dat.A 10 = V m c (Pipeline.arrRef spec0 10))
    (hafter : ∀ t, dat.after 10 t = iblk m c 10 t) (t : Fin cfg0.N) (d) : dat.before 10 t d = iblk m c 10 t :=
  (dat.before_in_eq_fetched 10 rfl (fun _ => rfl) (fun _ _ _ => rfl) (fun t => by rw [hafter]; unfold Dat.blockOf iblk; rw [hA]; try rfl) t d).trans
    (by unfold Dat.fetched Dat.blockOf iblk; rw [hA]; try rfl)

/-! ## The proof data -/

/-- The region's proof data on core `c`: the arrays as the region finds them; after the body each input buffer at
    its block and the output's at `outBlock` of the input blocks; nothing carried between points; the two windows
    of each id vector holding the two halves of its share. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => outBlock (iblk m c 0 t) (iblk m c 1 t) (iblk m c 2 t) (iblk m c 3 t) (iblk m c 4 t) (iblk m c 5 t) (iblk m c 6 t) (iblk m c 7 t) (iblk m c 8 t) (iblk m c 9 t) (iblk m c 10 t)
  Φ _ := Pipeline.scopedRest (Ix := Unit) (Name := ℕ) (U := UR sig nD τ) (Lvl := ℕ) (Val := Elt F) spec0 c
  q w := match w with
    | ⟨0, _⟩ => fullShare.left
    | ⟨1, _⟩ => fullShare.right
    | ⟨2, _⟩ => fullShare.left
    | ⟨3, _⟩ => fullShare.right
    | ⟨4, _⟩ => fullShare.left
    | ⟨5, _⟩ => fullShare.right
    | ⟨6, _⟩ => fullShare.left
    | ⟨7, _⟩ => fullShare.right
    | ⟨8, _⟩ => fullShare.left
    | ⟨9, _⟩ => fullShare.right
    | ⟨10, _⟩ => fullShare
    | ⟨11, _⟩ => fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = iblk m c 9 t := by dsimp only [dats]
theorem after0_10 (c : Dev nD) (t : Fin cfg0.N) : (dats m 0 c).after 10 t = iblk m c 10 t := by dsimp only [dats]
theorem after0_11 (c : Dev nD) (t : Fin cfg0.N) : (dats m 0 c).after 11 t = outBlock (iblk m c 0 t) (iblk m c 1 t) (iblk m c 2 t) (iblk m c 3 t) (iblk m c 4 t) (iblk m c 5 t) (iblk m c 6 t) (iblk m c 7 t) (iblk m c 8 t) (iblk m c 9 t) (iblk m c 10 t) := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d
theorem before0_9 (c : Dev nD) (t : Fin cfg0.N) (d) : (dats m 0 c).before 9 t d = iblk m c 9 t :=
  before0_9_of m (dats m 0 c) (A_eq m c 9) (after0_9 m c) t d
theorem before0_10 (c : Dev nD) (t : Fin cfg0.N) (d) : (dats m 0 c).before 10 t d = iblk m c 10 t :=
  before0_10_of m (dats m 0 c) (A_eq m c 10) (after0_10 m c) t d

/-! ## The body obligation -/

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d))
    ∗ (∃ d, owns (c : Thread nD τ) (st0_10 t) fullShare ((dats m 0 c).before 10 t d))
    ∗ (∃ d, owns (c : Thread nD τ) (st0_11 t) fullShare ((dats m 0 c).before 11 t d)))

def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t)
    ∗ owns (c : Thread nD τ) (st0_9 t) fullShare ((dats m 0 c).after 9 t)
    ∗ owns (c : Thread nD τ) (st0_10 t) fullShare ((dats m 0 c).after 10 t)
    ∗ owns (c : Thread nD τ) (st0_11 t) fullShare ((dats m 0 c).after 11 t))

set_option maxHeartbeats 2000000 in
/-- The body at any point: the input buffers hold their blocks, so the body's triple applies; the invariant and
    the core's ledger pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8, before0_9, before0_10]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7, after0_8, after0_9, after0_10, after0_11]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
  iapply (sound_kernel c Set.univ (grid0.coords t) _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) (iblk m c 9 t) (iblk m c 10 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexists _; iexact H11
  iintro ⟨H0, H1, H2, H3, H4, H5, H6, H7, H8, H9, H10, H11⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  iexact H11

theorem body_obligation (c : Dev nD) : BodyObligation (dats (F := F) m 0 c) (defs₀ (F := F)) Variants.none () Set.univ := fun t => by
  rw [bigSep_W0, bigSep_W0]
  exact sound_body m c t

/-! ## Dealing the shared arrays -/

/-- The seven buffers behind the twelve windows, each whole at the full share, yield the windows' arrays at the
    proof data's shares: each id vector's full share split into its two halves, one for the row window and one
    for the column window; the table and the result whole. -/
theorem hsplit (c : Dev nD) :
    (Pipeline.arrBufs (Ix := Unit) (Name := ℕ) (U := UR sig nD τ) (Lvl := ℕ) spec0 c (V m c) : sProp 𝕄)
      ⊢ (dats m 0 c).arrays ((dats m 0 c).arrAt · 0) := by
  have harr : (dats m 0 c).arrays ((dats m 0 c).arrAt · 0)
      = bigSep Finset.univ fun w : Fin cfg0.W => ((((c : Thread nD τ).loc (Pipeline.arrRef spec0 w)) ↦{(dats m 0 c).share w} V m c (Pipeline.arrRef spec0 w)) : sProp 𝕄) := by
    unfold Dat.arrays
    exact bigSep_congr fun w _ => by rw [(arr_whole0 w).set_eq_univ]; rfl
  rw [harr]
  unfold Pipeline.arrBufs
  rw [show (bigSep (Finset.univ.image (Pipeline.arrRef spec0)) (fun b => (((c : Thread nD τ).loc b) ↦{fullShare} V m c b : sProp 𝕄)))
      = iprop((((c : Thread nD τ).loc main_arg1) ↦{fullShare} V m c main_arg1) ∗ (((c : Thread nD τ).loc main_arg2) ↦{fullShare} V m c main_arg2) ∗ (((c : Thread nD τ).loc main_arg3) ↦{fullShare} V m c main_arg3) ∗ (((c : Thread nD τ).loc main_arg4) ↦{fullShare} V m c main_arg4) ∗ (((c : Thread nD τ).loc main_arg5) ↦{fullShare} V m c main_arg5) ∗ (((c : Thread nD τ).loc main_v0) ↦{fullShare} V m c main_v0) ∗ (((c : Thread nD τ).loc main_v1) ↦{fullShare} V m c main_v1))
    from bigSep_eq_bigSepL_of_eq [main_arg1, main_arg2, main_arg3, main_arg4, main_arg5, main_v0, main_v1] (by decide) (by decide) _, bigSep_W0]
  iintro ⟨H1, H2, H3, H4, H5, Hv0, Hv1⟩
  ihave H1 := (pointsTo_share (PosShare.mem_left_op_right fullShare)).1 $$ H1
  icases H1 with ⟨H1a, H1b⟩
  ihave H2 := (pointsTo_share (PosShare.mem_left_op_right fullShare)).1 $$ H2
  icases H2 with ⟨H2a, H2b⟩
  ihave H3 := (pointsTo_share (PosShare.mem_left_op_right fullShare)).1 $$ H3
  icases H3 with ⟨H3a, H3b⟩
  ihave H4 := (pointsTo_share (PosShare.mem_left_op_right fullShare)).1 $$ H4
  icases H4 with ⟨H4a, H4b⟩
  ihave H5 := (pointsTo_share (PosShare.mem_left_op_right fullShare)).1 $$ H5
  icases H5 with ⟨H5a, H5b⟩
  isplitl [H1a]; · iexact H1a
  isplitl [H1b]; · iexact H1b
  isplitl [H2a]; · iexact H2a
  isplitl [H2b]; · iexact H2b
  isplitl [H3a]; · iexact H3a
  isplitl [H3b]; · iexact H3b
  isplitl [H4a]; · iexact H4a
  isplitl [H4b]; · iexact H4b
  isplitl [H5a]; · iexact H5a
  isplitl [H5b]; · iexact H5b
  isplitl [Hv0]; · iexact Hv0
  iexact Hv1

/-! ## The run and the frame -/

set_option backward.isDefEq.respectTransparency.types false in
/-- Every weakly fair execution of @main ends with every window's array at what the write-backs left and every other
    unscoped buffer as the region found it. -/
theorem run_main : θ_run defs (onTc (τ := τ) (main (F := F))) (s₀ m ρ) (Pipeline.FramePost cfgs (dats m) 0 (V m)) :=
  Pipeline.SharedFrame.θ_run_frame_shared cfgs (dats m) (0 : Fin 1) cellOf_inj winFacts₀0 block_pos0 arr_whole0 stage_whole0 defs₀ Variants.none m ρ main
    (hbody := fun c => (body_obligation m c).loose) (howed := fun _ _ => rfl) (V := V m) (hmain := hmain m Variants.none)
    (hsplit := hsplit m) (hΦ := fun _ _ => rfl)

/-- The run read at the result and the arguments: the result array at the write-backs' fold, each id vector as
    launched (an input window never writes its array), the weight table as launched (no window stages it). -/
theorem run_result : θ_run defs (onTc (τ := τ) (main (F := F))) ⟨m, fun _ => 0, ρ⟩ (fun r => ∀ c : Dev nD,
      r.2.mem ((c.tc : Thread nD τ).loc main_v1) = (dats m 0 c).arrAt 11 cfg0.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c => ⟨(h c).1 11,
      ((h c).2 main_arg0 (Pipeline.mem_restRefs_of main_arg0 rfl (by decide))).trans (V_main_arg0 m c),
      ((h c).1 0).trans (((dats m 0 c).arrAt_in 0 rfl _).trans ((A_eq m c 0).trans (V_main_arg1 m c))),
      ((h c).1 2).trans (((dats m 0 c).arrAt_in 2 rfl _).trans ((A_eq m c 2).trans (V_main_arg2 m c))),
      ((h c).1 4).trans (((dats m 0 c).arrAt_in 4 rfl _).trans ((A_eq m c 4).trans (V_main_arg3 m c))),
      ((h c).1 6).trans (((dats m 0 c).arrAt_in 6 rfl _).trans ((A_eq m c 6).trans (V_main_arg4 m c))),
      ((h c).1 8).trans (((dats m 0 c).arrAt_in 8 rfl _).trans ((A_eq m c 8).trans (V_main_arg5 m c)))⟩) (run_main m ρ)

/-- THE FRAME: the program runs to the end and leaves its six arguments unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c => (h c).2) (run_result m ρ)

end Cert.Kernel.Hand

end
-- ==== Proof.KiBlock.lean ====
/-
  What one grid point of the kernel leaves in its output block, as ONE pure function of the
  eleven input blocks (the row and column slices of the five id arrays, and the transposed weight table).

  The body zeroes the block, then four times reads it back, adds a term and stores it again; since every
  store covers the whole block, each read returns exactly what the store before it wrote, and the last
  store's value is the nested sum
      (((0 + onehot(d1) · Wt[0:66]) + onehot(d2) · Wt[66:132]) + [same entity] * Wt[132]) + onehot(d3) · Wt[133:139].
-/
import proofs.«424427_j1468878815797_4_alg».proof.Proof.Gen.KernelIdeal.Skeleton

noncomputable section

namespace Cert.KernelIdeal.Hand

open Idealize.ShloMosaic Idealize.SL.Sem Cert.KernelIdeal Cert.KernelIdeal.Gen

variable {F : FTy → Type} [FloatOps F]

/-- The block after the first store: all zeros. -/
def blk0 : Vec F S1x128x128x128 .f32 := k0_pay24 (F := F)

/-- After the second store: the residue-offset rows added. `xar xac` are the chain ids of the block's rows
    and columns, `xrr xrc` the residue indices, `w` the transposed weight table. -/
def blk1 (xar xac xrr xrc : Vec F S1x128 .i32) (w : Vec F S139x128 .f32) : Vec F S1x128x128x128 .f32 :=
  k0_pay25 (k0_pay16 (F := F) (k0_pay4 (F := F) xrr) (k0_pay5 (F := F) xrc) (k0_pay10 (F := F) xar xac)) w (blk0 (F := F))

/-- After the third store: the token-offset rows added (`xtr xtc` the token indices). -/
def blk2 (xar xac xrr xrc xtr xtc : Vec F S1x128 .i32) (w : Vec F S139x128 .f32) : Vec F S1x128x128x128 .f32 :=
  k0_pay1 (k0_pay26 (k0_pay17 (k0_pay8 (F := F) xtr) (k0_pay9 (F := F) xtc) (k0_pay10 (F := F) xar xac) (k0_pay11 (F := F) xrr xrc))
    (k0_pay18) w (blk1 xar xac xrr xrc w))

/-- After the fourth store: the same-entity row added where the entities agree (`xer xec` the entity ids). -/
def blk3 (xar xac xrr xrc xer xec xtr xtc : Vec F S1x128 .i32) (w : Vec F S139x128 .f32) : Vec F S1x128x128x128 .f32 :=
  k0_pay2 (k0_pay14 (k0_pay12 (F := F) xer) (k0_pay13 (F := F) xec)) (k0_pay22 w) (blk2 xar xac xrr xrc xtr xtc w)

/-- After the last store: the copy-offset rows added (`xsr xsc` the copy ids). The order of the arguments is
    the order of the kernel's input windows: chain, residue, entity, copy, token — rows then columns of each. -/
def outBlock (xar xac xrr xrc xer xec xsr xsc xtr xtc : Vec F S1x128 .i32) (w : Vec F S139x128 .f32) : Vec F S1x128x128x128 .f32 :=
  k0_pay3 (k0_pay19 (F := F) (k0_pay15 (k0_pay6 (F := F) xsr) (k0_pay7 (F := F) xsc) (k0_pay12 (F := F) xer) (k0_pay13 (F := F) xec))
      (iota .tc S1x1x6 32 [2] iota_S1x1x6_d2_w32))
    (k0_pay23 w) (blk3 xar xac xrr xrc xer xec xtr xtc w)

end Cert.KernelIdeal.Hand

end
-- ==== Proof.KiBody.lean ====
/-
  The kernel's body as a triple: run on whole staging buffers that hold the eleven input blocks,
  with the output's staging buffer at anything, it ends with the inputs untouched and the output buffer at
  `outBlock` of the inputs. Every store of the body covers the whole output block, so each of its
  read-backs returns the value stored just before it.
-/
import proofs.«424427_j1468878815797_4_alg».proof.Proof.KiBlock
import proofs.«424427_j1468878815797_4_alg».proof.Proof.Gen.KernelIdeal.Launch
import proofs.«424427_j1468878815797_4_alg».proof.Proof.Gen.KernelIdeal.Points
import Idealize.ShloMosaic.Lib.Pipeline.FrameBody
import Idealize.ShloMosaic.Lib.Pipeline.Value
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-- A read-back through the whole block, after stores of which the LAST covered the whole block, returns that
    last store's value, whatever was stored before it. -/
theorem readCov_cons_whole {Val : EltTy → Type} [∀ e, Nonempty (Val e)] {sig' : RefSig} {κ : Kind} {sp : Space} {S : Shape} {e : EltTy}
    (v : View sig' κ sp S e) {off : Fin S.rank → Nat} (h : off = fun _ => 0)
    (inb : ∀ a, off a + S.size a ≤ S.size a) (w : S.Idx → Val e) (L : List (View.Piece Val S e)) :
    v.readCov ((⟨Rect.unit off S.size inb, w⟩ : View.Piece Val S e) :: L) (Rect.unit off S.size inb).toLoadRect = w := by
  subst h
  rw [View.readCov_eq_canon_ld _ _ _ (fun y => ⟨_, List.mem_cons_self, View.mem_set_unit_zero rfl inb y⟩),
    View.canon_cons_unit_zero rfl, View.ld_unit_zero rfl]

theorem hz2a : (![0, 0] : Fin S1x128.rank → Nat) = fun _ => 0 := by
  funext a; match a with | ⟨0, _⟩ => rfl | ⟨1, _⟩ => rfl
theorem hz2b : (![0, 0] : Fin S139x128.rank → Nat) = fun _ => 0 := by
  funext a; match a with | ⟨0, _⟩ => rfl | ⟨1, _⟩ => rfl

/-- The origin of the output block: every access of the body to it is through the whole block. -/
theorem hz4 : (![0, 0, 0, 0] : Fin S1x128x128x128.rank → Nat) = fun _ => 0 := by
  funext a; match a with | ⟨0, _⟩ => rfl | ⟨1, _⟩ => rfl | ⟨2, _⟩ => rfl | ⟨3, _⟩ => rfl

set_option maxHeartbeats 4000000 in
theorem sound_kernel (c : Dev nD) (E : Set ℕ) (i : grid0.Coords)
    (arg2 : Memref sig .tc .vmem S1x128 .i32) (harg2 : arg2.IsWhole) (arg3 : Memref sig .tc .vmem S1x128 .i32) (harg3 : arg3.IsWhole)
    (arg4 : Memref sig .tc .vmem S1x128 .i32) (harg4 : arg4.IsWhole) (arg5 : Memref sig .tc .vmem S1x128 .i32) (harg5 : arg5.IsWhole)
    (arg6 : Memref sig .tc .vmem S1x128 .i32) (harg6 : arg6.IsWhole) (arg7 : Memref sig .tc .vmem S1x128 .i32) (harg7 : arg7.IsWhole)
    (arg8 : Memref sig .tc .vmem S1x128 .i32) (harg8 : arg8.IsWhole) (arg9 : Memref sig .tc .vmem S1x128 .i32) (harg9 : arg9.IsWhole)
    (arg10 : Memref sig .tc .vmem S1x128 .i32) (harg10 : arg10.IsWhole) (arg11 : Memref sig .tc .vmem S1x128 .i32) (harg11 : arg11.IsWhole)
    (arg12 : Memref sig .tc .vmem S139x128 .f32) (harg12 : arg12.IsWhole) (arg13 : Memref sig .tc .vmem S1x128x128x128 .f32) (harg13 : arg13.IsWhole)
    (x0 x1 x2 x3 x4 x5 x6 x7 x8 x9 : Vec F S1x128 .i32) (x10 : Vec F S139x128 .f32) (K : PUnit → sProp 𝕄) :
    iprop(owns (c : Thread nD τ) arg2 fullShare x0 ∗ owns (c : Thread nD τ) arg3 fullShare x1
        ∗ owns (c : Thread nD τ) arg4 fullShare x2 ∗ owns (c : Thread nD τ) arg5 fullShare x3
        ∗ owns (c : Thread nD τ) arg6 fullShare x4 ∗ owns (c : Thread nD τ) arg7 fullShare x5
        ∗ owns (c : Thread nD τ) arg8 fullShare x6 ∗ owns (c : Thread nD τ) arg9 fullShare x7
        ∗ owns (c : Thread nD τ) arg10 fullShare x8 ∗ owns (c : Thread nD τ) arg11 fullShare x9
        ∗ owns (c : Thread nD τ) arg12 fullShare x10 ∗ (∃ d, owns (c : Thread nD τ) arg13 fullShare d)
        ∗ (iprop(owns (c : Thread nD τ) arg2 fullShare x0 ∗ owns (c : Thread nD τ) arg3 fullShare x1
            ∗ owns (c : Thread nD τ) arg4 fullShare x2 ∗ owns (c : Thread nD τ) arg5 fullShare x3
            ∗ owns (c : Thread nD τ) arg6 fullShare x4 ∗ owns (c : Thread nD τ) arg7 fullShare x5
            ∗ owns (c : Thread nD τ) arg8 fullShare x6 ∗ owns (c : Thread nD τ) arg9 fullShare x7
            ∗ owns (c : Thread nD τ) arg10 fullShare x8 ∗ owns (c : Thread nD τ) arg11 fullShare x9
            ∗ owns (c : Thread nD τ) arg12 fullShare x10
            ∗ owns (c : Thread nD τ) arg13 fullShare (outBlock x0 x1 x2 x3 x4 x5 x6 x7 x8 x9 x10)) -∗ K ⟨⟩))
      ⊢ wp frame (wpE (defs₀ (F := F)) Variants.none c none) E
          (cc0__kernel i arg2 harg2 arg3 harg3 arg4 harg4 arg5 harg5 arg6 harg6 arg7 harg7 arg8 harg8 arg9 harg9 arg10 harg10 arg11 harg11 arg12 harg12 arg13 harg13) K := by
  simp only [cc0__kernel_eq_skeleton]; unfold cc0__kernel_skel
  simp only [k0_part1_eq_skeleton, k0_part2_eq_skeleton, k0_part3_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%d11, %f11, -, H11⟩, Hk⟩
  subst hf0 hf1 hf2 hf3 hf4 hf5 hf6 hf7 hf8 hf9 hf10
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists f10; isplitr; · ipureintro; rfl
    iexact H10
  iexists _; isplitr
  swap; · iexact H11
  ipureintro
  rw [View.read_writes_eq_canon _ _ _ (fun y => ⟨_, List.mem_cons_self, View.mem_set_unit_zero (S := S1x128x128x128) hz4 inb_S1x128x128x128_S1x128x128x128_0_0_0_0 y⟩)]
  rw [View.canon_cons_unit_zero (S := S1x128x128x128) hz4]
  sl_unfold_words
  simp only [readCov_cons_whole (S := S1x128x128x128) _ hz4, View.readAt_eq_ld,
    View.ld_unit_zero (S := S1x128) hz2a, View.ld_unit_zero (S := S139x128) hz2b]
  unfold outBlock blk3 blk2 blk1 blk0
  rfl

end Cert.KernelIdeal.Hand

end
-- ==== Proof.KiFrame.lean ====
/-
  The frame of the kernel program: launched from any memory, every weakly fair execution of @main ends,
  faults nowhere, and leaves the six argument arrays as they were; and the result array ends at what the
  grid's points wrote back, block by block.

  @main transposes the weight table on the host and then runs ONE pipelined region over an 8 x 8 grid. The
  region has twelve windows. Ten of them read the five id vectors, each vector through TWO windows (the 128
  ids of the point's rows and the 128 of its columns), so the two windows of a pair have the same array behind
  them: the pair shares it, each window holding one half of the array's share, which is all a window that only
  reads needs. The eleventh window is the whole transposed table; the twelfth is the output block, stored whole
  at every point and written back at every point. What the body leaves in the output's buffer is `outBlock` of
  the eleven input blocks; each input buffer holds its window's block of its array at every point, fetched
  there or not, because the body only reads it.
-/
import proofs.«424427_j1468878815797_4_alg».proof.Proof.KiBody
import proofs.«424427_j1468878815797_4_alg».proof.Proof.LibSharedFrame

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main up to the region -/

/-- Core `c`'s buffers when the region is entered: after the host's transpose of the weight table. -/
abbrev V (c : Dev nD) (b : Ref sig .tc) : Buf (Elt F) ((c : Thread nD τ).loc b) := StableHlo.after hostOps0 (fun b => m (c, b)) b

theorem hostOps0_fresh : (hostOps0 : List (HloOp τ sig (Elt F))).Forall fun op => op.fresh = ∅ := by
  simp only [List.Forall]; repeat' constructor

/-- @main is the host operation and then the region. -/
theorem hmain (𝒱₀ : Variants) : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

/-- The transpose writes its own result only: the region finds argument 0 as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- The transpose writes its own result only: the region finds argument 1 as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- The transpose writes its own result only: the region finds argument 2 as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- The transpose writes its own result only: the region finds argument 3 as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- The transpose writes its own result only: the region finds argument 4 as launched. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- The transpose writes its own result only: the region finds argument 5 as launched. -/
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's buffer holds its block at every point, fetched there or not: the body leaves it in place. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's buffer holds its block at every point, fetched there or not: the body leaves it in place. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's buffer holds its block at every point, fetched there or not: the body leaves it in place. -/
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3's buffer holds its block at every point, fetched there or not: the body leaves it in place. -/
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
/-- Input window 4's buffer holds its block at every point, fetched there or not: the body leaves it in place. -/
theorem before0_4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
/-- Input window 5's buffer holds its block at every point, fetched there or not: the body leaves it in place. -/
theorem before0_5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
/-- Input window 6's buffer holds its block at every point, fetched there or not: the body leaves it in place. -/
theorem before0_6_of {c : Dev nD} (dat : Dat τ (Elt F) Unit ℕ (UR sig nD τ) ℕ cfg0 c) (hA : dat.A 6 = V m c (Pipeline.arrRef spec0 6))
    (hafter : ∀ t, dat.after 6 t = iblk m c 6 t) (t : Fin cfg0.N) (d) : dat.before 6 t d = iblk m c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)
/-- Input window 7's buffer holds its block at every point, fetched there or not: the body leaves it in place. -/
theorem before0_7_of {c : Dev nD} (dat : Dat τ (Elt F) Unit ℕ (UR sig nD τ) ℕ cfg0 c) (hA : dat.A 7 = V m c (Pipeline.arrRef spec0 7))
    (hafter : ∀ t, dat.after 7 t = iblk m c 7 t) (t : Fin cfg0.N) (d) : dat.before 7 t d = iblk m c 7 t :=
  (dat.before_in_eq_fetched 7 rfl (fun _ => rfl) (fun _ _ _ => rfl) (fun t => by rw [hafter]; unfold Dat.blockOf iblk; rw [hA]; try rfl) t d).trans
    (by unfold Dat.fetched Dat.blockOf iblk; rw [hA]; try rfl)
/-- Input window 8's buffer holds its block at every point, fetched there or not: the body leaves it in place. -/
theorem before0_8_of {c : Dev nD} (dat : Dat τ (Elt F) Unit ℕ (UR sig nD τ) ℕ cfg0 c) (hA : dat.A 8 = V m c (Pipeline.arrRef spec0 8))
    (hafter : ∀ t, dat.after 8 t = iblk m c 8 t) (t : Fin cfg0.N) (d) : dat.before 8 t d = iblk m c 8 t :=
  (dat.before_in_eq_fetched 8 rfl (fun _ => rfl) (fun _ _ _ => rfl) (fun t => by rw [hafter]; unfold Dat.blockOf iblk; rw [hA]; try rfl) t d).trans
    (by unfold Dat.fetched Dat.blockOf iblk; rw [hA]; try rfl)
/-- Input window 9's buffer holds its block at every point, fetched there or not: the body leaves it in place. -/
theorem before0_9_of {c : Dev nD} (dat : Dat τ (Elt F) Unit ℕ (UR sig nD τ) ℕ cfg0 c) (hA : dat.A 9 = V m c (Pipeline.arrRef spec0 9))
    (hafter : ∀ t, dat.after 9 t = iblk m c 9 t) (t : Fin cfg0.N) (d) : dat.before 9 t d = iblk m c 9 t :=
  (dat.before_in_eq_fetched 9 rfl (fun _ => rfl) (fun _ _ _ => rfl) (fun t => by rw [hafter]; unfold Dat.blockOf iblk; rw [hA]; try rfl) t d).trans
    (by unfold Dat.fetched Dat.blockOf iblk; rw [hA]; try rfl)
/-- Input window 10's buffer holds its block at every point, fetched there or not: the body leaves it in place. -/
theorem before0_10_of {c : Dev nD} (dat : Dat τ (Elt F) Unit ℕ (UR sig nD τ) ℕ cfg0 c) (hA : dat.A 10 = V m c (Pipeline.arrRef spec0 10))
    (hafter : ∀ t, dat.after 10 t = iblk m c 10 t) (t : Fin cfg0.N) (d) : dat.before 10 t d = iblk m c 10 t :=
  (dat.before_in_eq_fetched 10 rfl (fun _ => rfl) (fun _ _ _ => rfl) (fun t => by rw [hafter]; unfold Dat.blockOf iblk; rw [hA]; try rfl) t d).trans
    (by unfold Dat.fetched Dat.blockOf iblk; rw [hA]; try rfl)

/-! ## The proof data -/

/-- The region's proof data on core `c`: the arrays as the region finds them; after the body each input buffer at
    its block and the output's at `outBlock` of the input blocks; nothing carried between points; the two windows
    of each id vector holding the two halves of its share. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => outBlock (iblk m c 0 t) (iblk m c 1 t) (iblk m c 2 t) (iblk m c 3 t) (iblk m c 4 t) (iblk m c 5 t) (iblk m c 6 t) (iblk m c 7 t) (iblk m c 8 t) (iblk m c 9 t) (iblk m c 10 t)
  Φ _ := Pipeline.scopedRest (Ix := Unit) (Name := ℕ) (U := UR sig nD τ) (Lvl := ℕ) (Val := Elt F) spec0 c
  q w := match w with
    | ⟨0, _⟩ => fullShare.left
    | ⟨1, _⟩ => fullShare.right
    | ⟨2, _⟩ => fullShare.left
    | ⟨3, _⟩ => fullShare.right
    | ⟨4, _⟩ => fullShare.left
    | ⟨5, _⟩ => fullShare.right
    | ⟨6, _⟩ => fullShare.left
    | ⟨7, _⟩ => fullShare.right
    | ⟨8, _⟩ => fullShare.left
    | ⟨9, _⟩ => fullShare.right
    | ⟨10, _⟩ => fullShare
    | ⟨11, _⟩ => fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = iblk m c 9 t := by dsimp only [dats]
theorem after0_10 (c : Dev nD) (t : Fin cfg0.N) : (dats m 0 c).after 10 t = iblk m c 10 t := by dsimp only [dats]
theorem after0_11 (c : Dev nD) (t : Fin cfg0.N) : (dats m 0 c).after 11 t = outBlock (iblk m c 0 t) (iblk m c 1 t) (iblk m c 2 t) (iblk m c 3 t) (iblk m c 4 t) (iblk m c 5 t) (iblk m c 6 t) (iblk m c 7 t) (iblk m c 8 t) (iblk m c 9 t) (iblk m c 10 t) := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d
theorem before0_9 (c : Dev nD) (t : Fin cfg0.N) (d) : (dats m 0 c).before 9 t d = iblk m c 9 t :=
  before0_9_of m (dats m 0 c) (A_eq m c 9) (after0_9 m c) t d
theorem before0_10 (c : Dev nD) (t : Fin cfg0.N) (d) : (dats m 0 c).before 10 t d = iblk m c 10 t :=
  before0_10_of m (dats m 0 c) (A_eq m c 10) (after0_10 m c) t d

/-! ## The body obligation -/

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d))
    ∗ (∃ d, owns (c : Thread nD τ) (st0_10 t) fullShare ((dats m 0 c).before 10 t d))
    ∗ (∃ d, owns (c : Thread nD τ) (st0_11 t) fullShare ((dats m 0 c).before 11 t d)))

def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t)
    ∗ owns (c : Thread nD τ) (st0_9 t) fullShare ((dats m 0 c).after 9 t)
    ∗ owns (c : Thread nD τ) (st0_10 t) fullShare ((dats m 0 c).after 10 t)
    ∗ owns (c : Thread nD τ) (st0_11 t) fullShare ((dats m 0 c).after 11 t))

set_option maxHeartbeats 2000000 in
/-- The body at any point: the input buffers hold their blocks, so the body's triple applies; the invariant and
    the core's ledger pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8, before0_9, before0_10]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7, after0_8, after0_9, after0_10, after0_11]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
  iapply (sound_kernel c Set.univ (grid0.coords t) _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) (iblk m c 9 t) (iblk m c 10 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexists _; iexact H11
  iintro ⟨H0, H1, H2, H3, H4, H5, H6, H7, H8, H9, H10, H11⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  iexact H11

theorem body_obligation (c : Dev nD) : BodyObligation (dats (F := F) m 0 c) (defs₀ (F := F)) Variants.none () Set.univ := fun t => by
  rw [bigSep_W0, bigSep_W0]
  exact sound_body m c t

/-! ## Dealing the shared arrays -/

/-- The seven buffers behind the twelve windows, each whole at the full share, yield the windows' arrays at the
    proof data's shares: each id vector's full share split into its two halves, one for the row window and one
    for the column window; the table and the result whole. -/
theorem hsplit (c : Dev nD) :
    (Pipeline.arrBufs (Ix := Unit) (Name := ℕ) (U := UR sig nD τ) (Lvl := ℕ) spec0 c (V m c) : sProp 𝕄)
      ⊢ (dats m 0 c).arrays ((dats m 0 c).arrAt · 0) := by
  have harr : (dats m 0 c).arrays ((dats m 0 c).arrAt · 0)
      = bigSep Finset.univ fun w : Fin cfg0.W => ((((c : Thread nD τ).loc (Pipeline.arrRef spec0 w)) ↦{(dats m 0 c).share w} V m c (Pipeline.arrRef spec0 w)) : sProp 𝕄) := by
    unfold Dat.arrays
    exact bigSep_congr fun w _ => by rw [(arr_whole0 w).set_eq_univ]; rfl
  rw [harr]
  unfold Pipeline.arrBufs
  rw [show (bigSep (Finset.univ.image (Pipeline.arrRef spec0)) (fun b => (((c : Thread nD τ).loc b) ↦{fullShare} V m c b : sProp 𝕄)))
      = iprop((((c : Thread nD τ).loc main_arg1) ↦{fullShare} V m c main_arg1) ∗ (((c : Thread nD τ).loc main_arg2) ↦{fullShare} V m c main_arg2) ∗ (((c : Thread nD τ).loc main_arg3) ↦{fullShare} V m c main_arg3) ∗ (((c : Thread nD τ).loc main_arg4) ↦{fullShare} V m c main_arg4) ∗ (((c : Thread nD τ).loc main_arg5) ↦{fullShare} V m c main_arg5) ∗ (((c : Thread nD τ).loc main_v0) ↦{fullShare} V m c main_v0) ∗ (((c : Thread nD τ).loc main_v1) ↦{fullShare} V m c main_v1))
    from bigSep_eq_bigSepL_of_eq [main_arg1, main_arg2, main_arg3, main_arg4, main_arg5, main_v0, main_v1] (by decide) (by decide) _, bigSep_W0]
  iintro ⟨H1, H2, H3, H4, H5, Hv0, Hv1⟩
  ihave H1 := (pointsTo_share (PosShare.mem_left_op_right fullShare)).1 $$ H1
  icases H1 with ⟨H1a, H1b⟩
  ihave H2 := (pointsTo_share (PosShare.mem_left_op_right fullShare)).1 $$ H2
  icases H2 with ⟨H2a, H2b⟩
  ihave H3 := (pointsTo_share (PosShare.mem_left_op_right fullShare)).1 $$ H3
  icases H3 with ⟨H3a, H3b⟩
  ihave H4 := (pointsTo_share (PosShare.mem_left_op_right fullShare)).1 $$ H4
  icases H4 with ⟨H4a, H4b⟩
  ihave H5 := (pointsTo_share (PosShare.mem_left_op_right fullShare)).1 $$ H5
  icases H5 with ⟨H5a, H5b⟩
  isplitl [H1a]; · iexact H1a
  isplitl [H1b]; · iexact H1b
  isplitl [H2a]; · iexact H2a
  isplitl [H2b]; · iexact H2b
  isplitl [H3a]; · iexact H3a
  isplitl [H3b]; · iexact H3b
  isplitl [H4a]; · iexact H4a
  isplitl [H4b]; · iexact H4b
  isplitl [H5a]; · iexact H5a
  isplitl [H5b]; · iexact H5b
  isplitl [Hv0]; · iexact Hv0
  iexact Hv1

/-! ## The run and the frame -/

set_option backward.isDefEq.respectTransparency.types false in
/-- Every weakly fair execution of @main ends with every window's array at what the write-backs left and every other
    unscoped buffer as the region found it. -/
theorem run_main : θ_run defs (onTc (τ := τ) (main (F := F))) (s₀ m ρ) (Pipeline.FramePost cfgs (dats m) 0 (V m)) :=
  Pipeline.SharedFrame.θ_run_frame_shared cfgs (dats m) (0 : Fin 1) cellOf_inj winFacts₀0 block_pos0 arr_whole0 stage_whole0 defs₀ Variants.none m ρ main
    (hbody := fun c => (body_obligation m c).loose) (howed := fun _ _ => rfl) (V := V m) (hmain := hmain m Variants.none)
    (hsplit := hsplit m) (hΦ := fun _ _ => rfl)

/-- The run read at the result and the arguments: the result array at the write-backs' fold, each id vector as
    launched (an input window never writes its array), the weight table as launched (no window stages it). -/
theorem run_result : θ_run defs (onTc (τ := τ) (main (F := F))) ⟨m, fun _ => 0, ρ⟩ (fun r => ∀ c : Dev nD,
      r.2.mem ((c.tc : Thread nD τ).loc main_v1) = (dats m 0 c).arrAt 11 cfg0.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c => ⟨(h c).1 11,
      ((h c).2 main_arg0 (Pipeline.mem_restRefs_of main_arg0 rfl (by decide))).trans (V_main_arg0 m c),
      ((h c).1 0).trans (((dats m 0 c).arrAt_in 0 rfl _).trans ((A_eq m c 0).trans (V_main_arg1 m c))),
      ((h c).1 2).trans (((dats m 0 c).arrAt_in 2 rfl _).trans ((A_eq m c 2).trans (V_main_arg2 m c))),
      ((h c).1 4).trans (((dats m 0 c).arrAt_in 4 rfl _).trans ((A_eq m c 4).trans (V_main_arg3 m c))),
      ((h c).1 6).trans (((dats m 0 c).arrAt_in 6 rfl _).trans ((A_eq m c 6).trans (V_main_arg4 m c))),
      ((h c).1 8).trans (((dats m 0 c).arrAt_in 8 rfl _).trans ((A_eq m c 8).trans (V_main_arg5 m c)))⟩) (run_main m ρ)

/-- THE FRAME: the program runs to the end and leaves its six arguments unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c => (h c).2) (run_result m ρ)

end Cert.KernelIdeal.Hand

end
-- ==== Proof.Spec.lean ====
/-
  The relative-position encoding, entry by entry.

  For a pair of tokens (row r, column q) and an output channel, the encoding adds four rows of the
  transposed weight table, picked by three small integer classes:
    * d1, the clipped residue offset  clip(res r - res q + 32, 0, 64), or the sentinel 65 when the two
      tokens lie on different chains;
    * d2, the clipped token offset    clip(tok r - tok q + 32, 0, 64), or 65 unless the tokens share both
      chain and residue;
    * d3, the clipped copy offset     clip(sym r - sym q + 2, 0, 4), or 5 when the entities differ;
  and the "same entity" row 132 taken once when the entities agree:
      w[d1] + w[66 + d2] + [same entity] * w[132] + w[133 + d3].
  All integer arithmetic is the 32-bit two's-complement arithmetic of both programs, kept here in the very
  operations they use, so that neither side has to reason about wrap-around: only the RANGE of a class
  (below 66, below 6, never negative) is ever needed, and that holds whatever the inputs are, because a
  class is either a value clipped into [0, hi] or a small literal.
-/
import Idealize.ShloMosaic.PureOps.Ideal
import Idealize.ShloMosaic.PureOps.Ideal.Laws
import Idealize.ShloMosaic.Lib.ValueIdx

noncomputable section

namespace Cert.RelPos

open Idealize.ShloMosaic Idealize.ShloMosaic.ValueIdx

/-- A clipped offset class: `x` clipped into `[0, hi]` when the mask bit is set, the sentinel otherwise. -/
def cls (c : BitVec 1) (x hi s : BitVec 32) : BitVec 32 :=
  Scalar.select c (IntOp.minsi hi (IntOp.maxsi 0#32 x)) s

/-- One entry of the encoding from the ten integers of the pair (chain, residue, entity, copy and token
    ids of the row token and of the column token) and the channel's weights `w k`, k the feature. -/
def relPosCore (w : Nat → EReal) (ar aq rr rq er eq sr sq tr tq : BitVec 32) : EReal :=
  ((w (cls (IntOp.cmpi .eq ar aq) (IntOp.addi (IntOp.subi rr rq) 32#32) 64#32 65#32).toNat
      + w (66 + (cls (IntOp.andi (IntOp.cmpi .eq ar aq) (IntOp.cmpi .eq rr rq)) (IntOp.addi (IntOp.subi tr tq) 32#32) 64#32 65#32).toNat))
      + Scalar.select (IntOp.cmpi .eq er eq) (1 : EReal) 0 * w 132)
    + w (133 + (cls (IntOp.cmpi .eq er eq) (IntOp.addi (IntOp.subi sr sq) 2#32) 4#32 5#32).toNat)

/-- A class is below any bound that exceeds both its cap and its sentinel (the bound a signed positive). -/
theorem cls_toNat_lt (c : BitVec 1) (x hi s : BitVec 32) (n : Nat) (hhi : hi.toNat < n) (hs : s.toNat < n) (hn : n ≤ 2 ^ 31) :
    (cls c x hi s).toNat < n := by
  -- Either the sentinel (below the bound by hypothesis) or the clipped value. The clipped value is the cap
  -- when the cap is signed-below max(0, x), and otherwise max(0, x) itself, a signed non-negative that is
  -- signed-at-most the cap; as cap < n ≤ 2^31, signed and unsigned readings agree on all of these.
  unfold cls Scalar.select
  by_cases hc : c = 1
  · rw [if_pos hc]
    unfold IntOp.minsi
    by_cases h1 : hi.slt (IntOp.maxsi 0#32 x) = true
    · rw [if_pos h1]; exact hhi
    · rw [if_neg h1]
      unfold IntOp.maxsi at h1 ⊢
      by_cases h2 : x.slt 0#32 = true
      · rw [if_pos h2]; simp; omega
      · rw [if_neg h2] at h1 ⊢
        simp only [BitVec.slt, BitVec.toInt] at h1 h2
        simp at h1 h2
        omega
  · rw [if_neg hc]; exact hs

/-- A class is never negative as a signed word (its cap and sentinel being signed non-negatives). -/
theorem cls_not_slt_zero (c : BitVec 1) (x hi s : BitVec 32) (hhi : hi.toNat < 2 ^ 31) (hs : s.toNat < 2 ^ 31) :
    (cls c x hi s).slt 0#32 = false := by
  -- Below 2^31 as an unsigned word, so its signed reading is that same natural number, not negative.
  have h := cls_toNat_lt c x hi s (2 ^ 31) hhi hs le_rfl
  simp only [BitVec.slt, BitVec.toInt, decide_eq_false_iff_not]
  simp
  omega

/-- The float a mask bit widened to a word converts to (signed): one when set, zero otherwise. -/
theorem bit_sitofp (b : BitVec 1) : (((b.setWidth 32).toInt : ℝ) : EReal) = Scalar.select b (1 : EReal) 0 := by
  rcases BitVec.eq_zero_or_eq_one b with rfl | rfl
  · rw [select_zero]
    have : ((0#1).setWidth 32).toInt = 0 := by decide
    rw [this]; simp
  · rw [select_one]
    have : ((1#1).setWidth 32).toInt = 1 := by decide
    rw [this]; simp

/-- The float a mask bit converts to (unsigned): one when set, zero otherwise. -/
theorem bit_uitofp (b : BitVec 1) : (((b.toNat : ℕ) : ℝ) : EReal) = Scalar.select b (1 : EReal) 0 := by
  rcases BitVec.eq_zero_or_eq_one b with rfl | rfl
  · rw [select_zero]; simp
  · rw [select_one]; simp

/-- A one-hot row times a table column is the table's entry at the hot position: over the extended
    reals zero times anything is zero, so no finiteness of the table is needed. -/
theorem onehot_sum (n : Nat) (hn : n ≤ 2 ^ 31) (d : BitVec 32) (hd : d.toNat < n) (g : Fin n → EReal) :
    ∑ k : Fin n, ((((IntOp.cmpi .eq d (BitVec.ofNat 32 k.val)).setWidth 32).toInt : ℝ) : EReal) * g k = g ⟨d.toNat, hd⟩ := by
  -- Only the term at the hot position survives: there the comparison bit is 1 and the factor is 1;
  -- elsewhere the positions differ as words too (both below 2^32), the bit is 0 and the term is 0 * g k = 0.
  rw [Finset.sum_eq_single (⟨d.toNat, hd⟩ : Fin n)]
  · have h1 : IntOp.cmpi .eq d (BitVec.ofNat 32 d.toNat) = 1#1 := by
      simp [IntOp.cmpi]
    simp only [h1]
    have : ((1#1).setWidth 32).toInt = 1 := by decide
    rw [this]; simp
  · intro k _ hk
    have hne : d ≠ BitVec.ofNat 32 k.val := by
      intro h
      apply hk
      apply Fin.ext
      have := congrArg BitVec.toNat h
      rw [BitVec.toNat_ofNat, Nat.mod_eq_of_lt (by have := k.isLt; omega)] at this
      exact this.symm
    have hb : (d == BitVec.ofNat 32 k.val) = false := by simpa using hne
    have h0 : IntOp.cmpi .eq d (BitVec.ofNat 32 k.val) = 0#1 := by
      simp [IntOp.cmpi, hb]
    simp only [h0]
    have : ((0#1).setWidth 32).toInt = 0 := by decide
    rw [this]; simp
  · intro h; exact absurd (Finset.mem_univ _) h

/-! ## The whole array -/

abbrev ShTok : Shape := ⟨2, ![1, 1024]⟩
abbrev ShW : Shape := ⟨2, ![128, 139]⟩
abbrev ShOut : Shape := ⟨4, ![1, 1024, 1024, 128]⟩

/-- The weights of channel `ch` by feature: column `ch` of the transposed table, zero past its end. -/
def wrow (W : ShW.Idx → EReal) (ch : Fin 128) (k : Nat) : EReal := if h : k < 139 then W (ix2 ch ⟨k, h⟩) else 0

/-- The encoding of the whole batch: entry (0, r, q, ch). -/
def relPos (W : ShW.Idx → EReal) (asym res ent sym tok : ShTok.Idx → BitVec 32) : ShOut.Idx → EReal := fun i =>
  relPosCore (wrow W ⟨(i 3).val, (i 3).isLt⟩)
    (asym (ix2 0 ⟨(i 1).val, (i 1).isLt⟩)) (asym (ix2 0 ⟨(i 2).val, (i 2).isLt⟩))
    (res (ix2 0 ⟨(i 1).val, (i 1).isLt⟩)) (res (ix2 0 ⟨(i 2).val, (i 2).isLt⟩))
    (ent (ix2 0 ⟨(i 1).val, (i 1).isLt⟩)) (ent (ix2 0 ⟨(i 2).val, (i 2).isLt⟩))
    (sym (ix2 0 ⟨(i 1).val, (i 1).isLt⟩)) (sym (ix2 0 ⟨(i 2).val, (i 2).isLt⟩))
    (tok (ix2 0 ⟨(i 1).val, (i 1).isLt⟩)) (tok (ix2 0 ⟨(i 2).val, (i 2).isLt⟩))

end Cert.RelPos

end
-- ==== Proof.KiBlockValue.lean ====
/-
  One entry of the block a grid point of the idealized kernel leaves, over the extended reals.

  Read at row r, column q and channel ch of the block, the nested sum of KiBlock collapses: a one-hot row
  times a slice of the weight table is the table's row at the hot position (zero times anything is zero on
  the extended reals, so the table may hold infinities), the leading zero block adds nothing, and a change
  of float format is the identity. What is left is the specification's entry `relPosCore` of the ten ids of
  the pair and the channel's column of the transposed table.
-/
import proofs.«424427_j1468878815797_4_alg».proof.Proof.KiBlock
import proofs.«424427_j1468878815797_4_alg».proof.Proof.Spec
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Hand

open Idealize.ShloMosaic Idealize.ShloMosaic.ValueIdx Idealize.SL.Sem Cert.KernelIdeal Cert.KernelIdeal.Gen

/-- The weights of channel `ch` by feature, read off the transposed table the kernel is handed: row `k`,
    column `ch`; zero past the table's end. -/
def wcol (w : Vec Ideal S139x128 .f32) (ch : Fin 128) (k : Nat) : EReal := if h : k < 139 then w (ix2 ⟨k, h⟩ ch) else 0

section Layout
variable {α : Type}

/-- An `[a]` array cast to `[a, 1]` reads, at `(i, u)`, the operand at `i`. -/
private theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column broadcast to `[a, b]` reads, at `(p, c)`, the column at `p`. -/
private theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- An `[a, b]` array cast to `[a, b, 1]` reads, at `(i, j, u)`, the operand at `(i, j)`. -/
private theorem shapeCast_ab_ab1_apply {a b : ℕ} (x : (⟨2, ![a, b]⟩ : Shape).Idx → α) (h : (⟨2, ![a, b]⟩ : Shape).ShapeCasts ⟨3, ![a, b, 1]⟩)
    (i : Fin a) (j : Fin b) (u : Fin 1) : shapeCast ⟨3, ![a, b, 1]⟩ x h (ix3 i j u) = x (ix2 i j) :=
  shapeCast_apply x h _ _ (by
    have hu : u.val = 0 := by omega
    rw [Shape.rowMajor_val_three, Shape.rowMajor_val_two]
    show i.val * b + j.val = (i.val * b + j.val) * 1 + u.val
    rw [hu, Nat.mul_one, Nat.add_zero])

/-- An `[a, b, 1]` array broadcast to `[a, b, n]` reads, at `(i, j, k)`, the operand at `(i, j, 0)`. -/
private theorem broadcastTo_ab1_abn_apply {a b n : ℕ} (v : (⟨3, ![a, b, 1]⟩ : Shape).Idx → α)
    (h : (⟨3, ![a, b, 1]⟩ : Shape).Broadcasts ⟨3, ![a, b, n]⟩) (i : Fin a) (j : Fin b) (k : Fin n) :
    broadcastTo ⟨3, ![a, b, n]⟩ v h (ix3 i j k) = v (ix3 i j (0 : Fin 1)) := by
  refine broadcastTo_apply v h (ix3 i j k) (ix3 i j (0 : Fin 1)) fun ax => ?_
  match ax with
  | ⟨0, _⟩ =>
    show i.val = if a = 1 then 0 else i.val
    split
    · have := i.isLt; omega
    · rfl
  | ⟨1, _⟩ =>
    show j.val = if b = 1 then 0 else j.val
    split
    · have := j.isLt; omega
    · rfl
  | ⟨2, _⟩ => rfl

/-- A `[1, 1, n]` row broadcast to `[a, b, n]` reads, at `(i, j, k)`, the row at `k`. -/
private theorem broadcastTo_11n_abn_apply {a b n : ℕ} (v : (⟨3, ![1, 1, n]⟩ : Shape).Idx → α)
    (h : (⟨3, ![1, 1, n]⟩ : Shape).Broadcasts ⟨3, ![a, b, n]⟩) (i : Fin a) (j : Fin b) (k : Fin n) :
    broadcastTo ⟨3, ![a, b, n]⟩ v h (ix3 i j k) = v (ix3 (0 : Fin 1) (0 : Fin 1) k) := by
  refine broadcastTo_apply v h (ix3 i j k) (ix3 (0 : Fin 1) (0 : Fin 1) k) fun ax => ?_
  match ax with
  | ⟨0, _⟩ => rfl
  | ⟨1, _⟩ => rfl
  | ⟨2, _⟩ =>
    show k.val = if n = 1 then 0 else k.val
    split
    · have := k.isLt; omega
    · rfl

/-- An `[a, b, n]` array cast to `[a * b, n]` reads, at `(b * i + j, k)`, the operand at `(i, j, k)`. -/
private theorem shapeCast_abn_mn_apply {a b n m : ℕ} (x : (⟨3, ![a, b, n]⟩ : Shape).Idx → α)
    (h : (⟨3, ![a, b, n]⟩ : Shape).ShapeCasts ⟨2, ![m, n]⟩) (i : Fin a) (j : Fin b) (k : Fin n) (p : Fin m)
    (hp : p.val = i.val * b + j.val) : shapeCast ⟨2, ![m, n]⟩ x h (ix2 p k) = x (ix3 i j k) :=
  shapeCast_apply x h _ _ (by
    rw [Shape.rowMajor_val_three, Shape.rowMajor_val_two]
    show (i.val * b + j.val) * n + k.val = p.val * n + k.val
    rw [hp])

/-- An `[m, n]` array cast to `[a, b, n]` reads, at `(i, j, k)`, the operand at `(b * i + j, k)`. -/
private theorem shapeCast_mn_abn_apply {a b n m : ℕ} (x : (⟨2, ![m, n]⟩ : Shape).Idx → α)
    (h : (⟨2, ![m, n]⟩ : Shape).ShapeCasts ⟨3, ![a, b, n]⟩) (i : Fin a) (j : Fin b) (k : Fin n) (p : Fin m)
    (hp : p.val = i.val * b + j.val) : shapeCast ⟨3, ![a, b, n]⟩ x h (ix3 i j k) = x (ix2 p k) :=
  shapeCast_apply x h _ _ (by
    rw [Shape.rowMajor_val_three, Shape.rowMajor_val_two]
    show p.val * n + k.val = (i.val * b + j.val) * n + k.val
    rw [hp])

/-- A `[1, n]` row cast to `[1, 1, n]` reads, at `(u, u', k)`, the row at `k`. -/
private theorem shapeCast_1n_11n_apply {n : ℕ} (x : (⟨2, ![1, n]⟩ : Shape).Idx → α)
    (h : (⟨2, ![1, n]⟩ : Shape).ShapeCasts ⟨3, ![1, 1, n]⟩) (u u' : Fin 1) (k : Fin n) :
    shapeCast ⟨3, ![1, 1, n]⟩ x h (ix3 u u' k) = x (ix2 (0 : Fin 1) k) :=
  shapeCast_apply x h _ _ (by
    have hu : u.val = 0 := by omega
    have hu' : u'.val = 0 := by omega
    rw [Shape.rowMajor_val_three, Shape.rowMajor_val_two]
    show 0 * n + k.val = (u.val * 1 + u'.val) * n + k.val
    rw [hu, hu'])

end Layout

/-! ### The 66-deep product read at an entry -/

private theorem lhs66_0 (i : S16384x128.Idx) (q : dot_S16384x66_S66x128_S16384x128_1_0_0_1_n_n.contr.Idx) :
    (dot_S16384x66_S66x128_S16384x128_1_0_0_1_n_n.lhsIdx i q 0).val = (i 0).val := by
  unfold DotDims.lhsIdx
  rw [dif_neg (show ¬(0 : Fin S16384x66.rank) ∈ dot_S16384x66_S66x128_S16384x128_1_0_0_1_n_n.lhsBatch by decide), dif_pos (show (0 : Fin S16384x66.rank) ∈ dot_S16384x66_S66x128_S16384x128_1_0_0_1_n_n.lhsNonContracting by decide)]
  rfl
private theorem lhs66_1 (i : S16384x128.Idx) (q : dot_S16384x66_S66x128_S16384x128_1_0_0_1_n_n.contr.Idx) :
    (dot_S16384x66_S66x128_S16384x128_1_0_0_1_n_n.lhsIdx i q 1).val = (q ⟨0, by decide⟩).val :=
  dot_S16384x66_S66x128_S16384x128_1_0_0_1_n_n.lhsIdx_val_of_single rfl i q
private theorem rhs66_0 (i : S16384x128.Idx) (q : dot_S16384x66_S66x128_S16384x128_1_0_0_1_n_n.contr.Idx) :
    (dot_S16384x66_S66x128_S16384x128_1_0_0_1_n_n.rhsIdx i q 0).val = (q ⟨0, by decide⟩).val :=
  dot_S16384x66_S66x128_S16384x128_1_0_0_1_n_n.rhsIdx_val_of_single rfl i q
private theorem rhs66_1 (i : S16384x128.Idx) (q : dot_S16384x66_S66x128_S16384x128_1_0_0_1_n_n.contr.Idx) :
    (dot_S16384x66_S66x128_S16384x128_1_0_0_1_n_n.rhsIdx i q 1).val = (i 1).val := by
  unfold DotDims.rhsIdx
  rw [dif_neg (show ¬(1 : Fin S66x128.rank) ∈ dot_S16384x66_S66x128_S16384x128_1_0_0_1_n_n.rhsBatch by decide), dif_pos (show (1 : Fin S66x128.rank) ∈ dot_S16384x66_S66x128_S16384x128_1_0_0_1_n_n.rhsNonContracting by decide)]
  rfl

/-- Into a zero accumulator, entry `(p, c)` of the product is the sum over the 66 features of row `p` of the left
    factor times column `c` of the right one. -/
private theorem matmul66_apply (L : FVec Ideal S16384x66 .bf16) (R : FVec Ideal S66x128 .bf16) (p : Fin 16384) (c : Fin 128) :
    matmul dot_S16384x66_S66x128_S16384x128_1_0_0_1_n_n none L R (constant (F := Ideal) S16384x128 .f32 0x00000000#32) (ix2 p c)
      = ∑ k : Fin 66, L (ix2 p k) * R (ix2 k c) := by
  refine (Ideal.matmul_constant_zero_apply dot_S16384x66_S66x128_S16384x128_1_0_0_1_n_n none L R (ix2 p c)).trans ?_
  rw [← Equiv.sum_comp (contrEquiv1 dot_S16384x66_S66x128_S16384x128_1_0_0_1_n_n 66 rfl rfl).symm]
  refine Finset.sum_congr rfl fun k _ => ?_
  have hk := contrEquiv1_symm_val dot_S16384x66_S66x128_S16384x128_1_0_0_1_n_n 66 rfl rfl k
  have el : dot_S16384x66_S66x128_S16384x128_1_0_0_1_n_n.lhsIdx (ix2 p c) ((contrEquiv1 dot_S16384x66_S66x128_S16384x128_1_0_0_1_n_n 66 rfl rfl).symm k) = ix2 p k :=
    funext fun a => Fin.ext (by
      match a with
      | ⟨0, _⟩ => exact lhs66_0 _ _
      | ⟨1, _⟩ => exact (lhs66_1 _ _).trans hk)
  have er : dot_S16384x66_S66x128_S16384x128_1_0_0_1_n_n.rhsIdx (ix2 p c) ((contrEquiv1 dot_S16384x66_S66x128_S16384x128_1_0_0_1_n_n 66 rfl rfl).symm k) = ix2 k c :=
    funext fun a => Fin.ext (by
      match a with
      | ⟨0, _⟩ => exact (rhs66_0 _ _).trans hk
      | ⟨1, _⟩ => exact rhs66_1 _ _)
  rw [el, er]

/-! ### The 6-deep product read at an entry -/

private theorem lhs6_0 (i : S16384x128.Idx) (q : dot_S16384x6_S6x128_S16384x128_1_0_0_1_n_n.contr.Idx) :
    (dot_S16384x6_S6x128_S16384x128_1_0_0_1_n_n.lhsIdx i q 0).val = (i 0).val := by
  unfold DotDims.lhsIdx
  rw [dif_neg (show ¬(0 : Fin S16384x6.rank) ∈ dot_S16384x6_S6x128_S16384x128_1_0_0_1_n_n.lhsBatch by decide), dif_pos (show (0 : Fin S16384x6.rank) ∈ dot_S16384x6_S6x128_S16384x128_1_0_0_1_n_n.lhsNonContracting by decide)]
  rfl
private theorem lhs6_1 (i : S16384x128.Idx) (q : dot_S16384x6_S6x128_S16384x128_1_0_0_1_n_n.contr.Idx) :
    (dot_S16384x6_S6x128_S16384x128_1_0_0_1_n_n.lhsIdx i q 1).val = (q ⟨0, by decide⟩).val :=
  dot_S16384x6_S6x128_S16384x128_1_0_0_1_n_n.lhsIdx_val_of_single rfl i q
private theorem rhs6_0 (i : S16384x128.Idx) (q : dot_S16384x6_S6x128_S16384x128_1_0_0_1_n_n.contr.Idx) :
    (dot_S16384x6_S6x128_S16384x128_1_0_0_1_n_n.rhsIdx i q 0).val = (q ⟨0, by decide⟩).val :=
  dot_S16384x6_S6x128_S16384x128_1_0_0_1_n_n.rhsIdx_val_of_single rfl i q
private theorem rhs6_1 (i : S16384x128.Idx) (q : dot_S16384x6_S6x128_S16384x128_1_0_0_1_n_n.contr.Idx) :
    (dot_S16384x6_S6x128_S16384x128_1_0_0_1_n_n.rhsIdx i q 1).val = (i 1).val := by
  unfold DotDims.rhsIdx
  rw [dif_neg (show ¬(1 : Fin S6x128.rank) ∈ dot_S16384x6_S6x128_S16384x128_1_0_0_1_n_n.rhsBatch by decide), dif_pos (show (1 : Fin S6x128.rank) ∈ dot_S16384x6_S6x128_S16384x128_1_0_0_1_n_n.rhsNonContracting by decide)]
  rfl

/-- Into a zero accumulator, entry `(p, c)` of the product is the sum over the 6 features of row `p` of the left
    factor times column `c` of the right one. -/
private theorem matmul6_apply (L : FVec Ideal S16384x6 .bf16) (R : FVec Ideal S6x128 .bf16) (p : Fin 16384) (c : Fin 128) :
    matmul dot_S16384x6_S6x128_S16384x128_1_0_0_1_n_n none L R (constant (F := Ideal) S16384x128 .f32 0x00000000#32) (ix2 p c)
      = ∑ k : Fin 6, L (ix2 p k) * R (ix2 k c) := by
  refine (Ideal.matmul_constant_zero_apply dot_S16384x6_S6x128_S16384x128_1_0_0_1_n_n none L R (ix2 p c)).trans ?_
  rw [← Equiv.sum_comp (contrEquiv1 dot_S16384x6_S6x128_S16384x128_1_0_0_1_n_n 6 rfl rfl).symm]
  refine Finset.sum_congr rfl fun k _ => ?_
  have hk := contrEquiv1_symm_val dot_S16384x6_S6x128_S16384x128_1_0_0_1_n_n 6 rfl rfl k
  have el : dot_S16384x6_S6x128_S16384x128_1_0_0_1_n_n.lhsIdx (ix2 p c) ((contrEquiv1 dot_S16384x6_S6x128_S16384x128_1_0_0_1_n_n 6 rfl rfl).symm k) = ix2 p k :=
    funext fun a => Fin.ext (by
      match a with
      | ⟨0, _⟩ => exact lhs6_0 _ _
      | ⟨1, _⟩ => exact (lhs6_1 _ _).trans hk)
  have er : dot_S16384x6_S6x128_S16384x128_1_0_0_1_n_n.rhsIdx (ix2 p c) ((contrEquiv1 dot_S16384x6_S6x128_S16384x128_1_0_0_1_n_n 6 rfl rfl).symm k) = ix2 k c :=
    funext fun a => Fin.ext (by
      match a with
      | ⟨0, _⟩ => exact (rhs6_0 _ _).trans hk
      | ⟨1, _⟩ => exact rhs6_1 _ _)
  rw [el, er]

/-! ## The id columns and rows -/

/-- A `[1, 128]` id row stood up as a column and spread over the columns reads, at `(r, q)`, the id of row `r`. -/
private theorem col_apply (v : IVec S1x128 32) (r q : Fin 128) :
    broadcastTo S128x128 (shapeCast S128x1 (shapeCast S128 v shapeCasts_S1x128_S128) shapeCasts_S128_S128x1)
      broadcasts_S128x1_S128x128 (ix2 r q) = v (ix2 0 r) :=
  (broadcastTo_a1_ab_apply _ _ r q).trans ((shapeCast_a_a1_apply _ _ r 0).trans (shapeCast_1a_a_apply _ _ r))

/-- A `[1, 128]` id row spread over the rows reads, at `(r, q)`, the id of column `q`. -/
private theorem row_apply (v : IVec S1x128 32) (r q : Fin 128) :
    broadcastTo S128x128 (shapeCast S1x128 (shapeCast S128 v shapeCasts_S1x128_S128) shapeCasts_S128_S1x128)
      broadcasts_S1x128_S128x128 (ix2 r q) = v (ix2 0 q) :=
  (broadcastTo_1b_ab_apply _ _ r q).trans ((shapeCast_a_1a_apply _ _ 0 q).trans (shapeCast_1a_a_apply _ _ q))

private theorem pay10_apply (xa xb : Vec Ideal S1x128 .i32) (r q : Fin 128) :
    k0_pay10 (F := Ideal) xa xb (ix2 r q) = IntOp.cmpi .eq (xa (ix2 0 r)) (xb (ix2 0 q)) := by
  unfold k0_pay10
  show IntOp.cmpi .eq _ _ = _
  rw [col_apply, row_apply]

private theorem pay11_apply (xa xb : Vec Ideal S1x128 .i32) (r q : Fin 128) :
    k0_pay11 (F := Ideal) xa xb (ix2 r q) = IntOp.cmpi .eq (xa (ix2 0 r)) (xb (ix2 0 q)) := by
  unfold k0_pay11 k0_pay4 k0_pay5
  show IntOp.cmpi .eq _ _ = _
  rw [col_apply, row_apply]

private theorem pay12_apply (x : Vec Ideal S1x128 .i32) (r q : Fin 128) :
    k0_pay12 (F := Ideal) x (ix2 r q) = x (ix2 0 r) := by
  unfold k0_pay12
  exact col_apply x r q

private theorem pay13_apply (x : Vec Ideal S1x128 .i32) (r q : Fin 128) :
    k0_pay13 (F := Ideal) x (ix2 r q) = x (ix2 0 q) := by
  unfold k0_pay13
  exact row_apply x r q

private theorem pay14_apply (a b : IVec S128x128 32) (i : S128x128.Idx) :
    k0_pay14 a b i = IntOp.cmpi .eq (a i) (b i) := rfl

/-- The offset class of a pair, as the kernel's vector operations spell it, is the specification's class. -/
private theorem clsVec_apply (c : IVec S128x128 1) (a b : IVec S128x128 32) (off hi s : BitVec 32) (i : S128x128.Idx) :
    select c (minsi (broadcast S128x128 hi) (maxsi (broadcast S128x128 0#32) (addi (subi a b) (broadcast S128x128 off))))
        (broadcast S128x128 s) i
      = Cert.RelPos.cls (c i) (IntOp.addi (IntOp.subi (a i) (b i)) off) hi s := rfl

/-! ## A one-hot row -/

/-- The entry of a one-hot row: one at the class, zero elsewhere. -/
private def hot (d : BitVec 32) (k : Nat) : EReal := ((((IntOp.cmpi .eq d (BitVec.ofNat 32 k)).setWidth 32).toInt : ℝ) : EReal)

/-- Row `128 r + q` of the one-hot matrix of a class array, at feature `k`, compares the class of `(r, q)` with the
    feature's number; the change of float format on the way is the identity. -/
private theorem onehot_apply {n : ℕ} (c : IVec S128x128 32) (io : IVec ⟨3, ![1, 1, n]⟩ 32)
    (h2 : S128x128x1.Broadcasts ⟨3, ![128, 128, n]⟩) (h3 : (⟨3, ![1, 1, n]⟩ : Shape).Broadcasts ⟨3, ![128, 128, n]⟩)
    (h4 : (⟨3, ![128, 128, n]⟩ : Shape).ShapeCasts ⟨2, ![16384, n]⟩)
    (r q : Fin 128) (k : Fin n) (p : Fin 16384) (hp : p.val = r.val * 128 + q.val) :
    shapeCast ⟨2, ![16384, n]⟩
        (truncf .bf16 (sitofp (F := Ideal) .f32 (extui 32 (cmpi .eq
          (broadcastTo ⟨3, ![128, 128, n]⟩ (shapeCast S128x128x1 c shapeCasts_S128x128_S128x128x1) h2)
          (broadcastTo ⟨3, ![128, 128, n]⟩ io h3)) natLt_1_32)) bitsLt_bf16_f32) h4 (ix2 p k)
      = ((((IntOp.cmpi .eq (c (ix2 r q)) (io (ix3 0 0 k))).setWidth 32).toInt : ℝ) : EReal) := by
  refine (shapeCast_abn_mn_apply _ h4 r q k p hp).trans ?_
  show ((((IntOp.cmpi .eq (broadcastTo ⟨3, ![128, 128, n]⟩ (shapeCast S128x128x1 c shapeCasts_S128x128_S128x128x1) h2 (ix3 r q k))
    (broadcastTo ⟨3, ![128, 128, n]⟩ io h3 (ix3 r q k))).setWidth 32).toInt : ℝ) : EReal) = _
  rw [broadcastTo_ab1_abn_apply, shapeCast_ab_ab1_apply, broadcastTo_11n_abn_apply]

private theorem iota66_apply (k : Fin 66) : iota .tc S1x1x66 32 [2] iota_S1x1x66_d2_w32 (ix3 0 0 k) = BitVec.ofNat 32 k.val :=
  iota_single_apply .tc S1x1x66 32 2 iota_S1x1x66_d2_w32 (ix3 0 0 k)
private theorem iota6_apply (k : Fin 6) : iota .tc S1x1x6 32 [2] iota_S1x1x6_d2_w32 (ix3 0 0 k) = BitVec.ofNat 32 k.val :=
  iota_single_apply .tc S1x1x6 32 2 iota_S1x1x6_d2_w32 (ix3 0 0 k)

/-! ## The weight table's slices -/

/-- A block of rows of the table (its change of float format the identity) reads the channel's weight at the
    feature the block starts at plus the row. -/
private theorem wslice_apply {m : ℕ} (o : ℕ) (w : Vec Ideal S139x128 .f32) (h : S139x128.Slices ![o, 0] ⟨2, ![m, 128]⟩)
    (j : Fin m) (ch : Fin 128) (hlt : o + j.val < 139) :
    extractStridedSlice ⟨2, ![m, 128]⟩ ![o, 0] (k0_pay21 (F := Ideal) w) h (ix2 j ch) = wcol w ch (o + j.val) := by
  refine (slice2_axis0_apply o _ h j ch ⟨o + j.val, hlt⟩ rfl).trans ?_
  unfold k0_pay21 k0_pay20
  show shapeCast S139x128 w shapeCasts_S139x128_S139x128 (ix2 ⟨o + j.val, hlt⟩ ch) = _
  rw [shapeCast_self]
  unfold wcol
  rw [dif_pos hlt]

private theorem pay22_apply (w : Vec Ideal S139x128 .f32) (u : Fin 1) (ch : Fin 128) :
    k0_pay22 (F := Ideal) w (ix2 u ch) = wcol w ch 132 := by
  unfold k0_pay22
  refine (slice2_axis0_apply 132 _ slices_S139x128_o132_0_S1x128 u ch ⟨132, by decide⟩ (by show 132 = 132 + u.val; omega)).trans ?_
  unfold k0_pay20
  rw [shapeCast_self]
  unfold wcol
  rw [dif_pos (by decide)]

/-! ## The payloads that build the classes and their one-hot rows -/

private theorem pay4_col (x : Vec Ideal S1x128 .i32) (r q : Fin 128) :
    broadcastTo S128x128 (k0_pay4 (F := Ideal) x) broadcasts_S128x1_S128x128 (ix2 r q) = x (ix2 0 r) := by
  unfold k0_pay4; exact col_apply x r q
private theorem pay5_row (x : Vec Ideal S1x128 .i32) (r q : Fin 128) :
    broadcastTo S128x128 (k0_pay5 (F := Ideal) x) broadcasts_S1x128_S128x128 (ix2 r q) = x (ix2 0 q) := by
  unfold k0_pay5; exact row_apply x r q
private theorem pay6_col (x : Vec Ideal S1x128 .i32) (r q : Fin 128) :
    broadcastTo S128x128 (k0_pay6 (F := Ideal) x) broadcasts_S128x1_S128x128 (ix2 r q) = x (ix2 0 r) := by
  unfold k0_pay6; exact col_apply x r q
private theorem pay7_row (x : Vec Ideal S1x128 .i32) (r q : Fin 128) :
    broadcastTo S128x128 (k0_pay7 (F := Ideal) x) broadcasts_S1x128_S128x128 (ix2 r q) = x (ix2 0 q) := by
  unfold k0_pay7; exact row_apply x r q
private theorem pay8_col (x : Vec Ideal S1x128 .i32) (r q : Fin 128) :
    broadcastTo S128x128 (k0_pay8 (F := Ideal) x) broadcasts_S128x1_S128x128 (ix2 r q) = x (ix2 0 r) := by
  unfold k0_pay8; exact col_apply x r q
private theorem pay9_row (x : Vec Ideal S1x128 .i32) (r q : Fin 128) :
    broadcastTo S128x128 (k0_pay9 (F := Ideal) x) broadcasts_S1x128_S128x128 (ix2 r q) = x (ix2 0 q) := by
  unfold k0_pay9; exact row_apply x r q

/-- Row `128 r + q` of the residue-offset one-hot matrix. -/
private theorem pay16_apply (v8 : IVec S128x1 32) (v11 : IVec S1x128 32) (v32 : IVec S128x128 1) (r q : Fin 128) (k : Fin 66)
    (p : Fin 16384) (hp : p.val = r.val * 128 + q.val) :
    k0_pay16 (F := Ideal) v8 v11 v32 (ix2 p k)
      = hot (Cert.RelPos.cls (v32 (ix2 r q))
          (IntOp.addi (IntOp.subi (broadcastTo S128x128 v8 broadcasts_S128x1_S128x128 (ix2 r q))
            (broadcastTo S128x128 v11 broadcasts_S1x128_S128x128 (ix2 r q))) 32#32) 64#32 65#32) k.val := by
  unfold k0_pay16
  refine (onehot_apply (n := 66) _ _ _ _ _ r q k p hp).trans ?_
  rw [iota66_apply]
  rfl

/-- The token-offset class of the pair `(r, q)`, spread along the features. -/
private theorem pay17_apply (v26 : IVec S128x1 32) (v29 : IVec S1x128 32) (v32 v35 : IVec S128x128 1) (r q : Fin 128) (k : Fin 66) :
    k0_pay17 v26 v29 v32 v35 (ix3 r q k)
      = Cert.RelPos.cls (IntOp.andi (v32 (ix2 r q)) (v35 (ix2 r q)))
          (IntOp.addi (IntOp.subi (broadcastTo S128x128 v26 broadcasts_S128x1_S128x128 (ix2 r q))
            (broadcastTo S128x128 v29 broadcasts_S1x128_S128x128 (ix2 r q))) 32#32) 64#32 65#32 := by
  unfold k0_pay17
  refine (broadcastTo_ab1_abn_apply _ _ r q k).trans ?_
  refine (shapeCast_ab_ab1_apply _ _ r q 0).trans ?_
  rfl

/-- The feature numbers, spread over the pairs. -/
private theorem pay18_apply (r q : Fin 128) (k : Fin 66) : k0_pay18 (ix3 r q k) = BitVec.ofNat 32 k.val := by
  unfold k0_pay18
  exact (broadcastTo_11n_abn_apply _ _ r q k).trans (iota66_apply k)

/-- The copy-offset class of the pair `(r, q)`. -/
private theorem pay15_apply (v20 : IVec S128x1 32) (v23 : IVec S1x128 32) (v36 v37 : IVec S128x128 32) (r q : Fin 128) :
    k0_pay15 v20 v23 v36 v37 (ix2 r q)
      = Cert.RelPos.cls (IntOp.cmpi .eq (v36 (ix2 r q)) (v37 (ix2 r q)))
          (IntOp.addi (IntOp.subi (broadcastTo S128x128 v20 broadcasts_S128x1_S128x128 (ix2 r q))
            (broadcastTo S128x128 v23 broadcasts_S1x128_S128x128 (ix2 r q))) 2#32) 4#32 5#32 := rfl

/-- Row `128 r + q` of the copy-offset one-hot matrix. -/
private theorem pay19_apply (v72 : IVec S128x128 32) (r q : Fin 128) (k : Fin 6) (p : Fin 16384) (hp : p.val = r.val * 128 + q.val) :
    k0_pay19 (F := Ideal) v72 (iota .tc S1x1x6 32 [2] iota_S1x1x6_d2_w32) (ix2 p k) = hot (v72 (ix2 r q)) k.val := by
  unfold k0_pay19
  refine (onehot_apply (n := 6) _ _ _ _ _ r q k p hp).trans ?_
  rw [iota6_apply]
  rfl

/-! ## The payloads that add a term to the block -/

/-- A one-hot row against a block of the table's rows: the channel's weight at the block's start plus the class. -/
private theorem hot_sum {n : ℕ} (hn : n ≤ 2 ^ 31) (D : BitVec 32) (hD : D.toNat < n) (w : Vec Ideal S139x128 .f32) (ch : Fin 128) (o : ℕ) :
    ∑ k : Fin n, hot D k.val * wcol w ch (o + k.val) = wcol w ch (o + D.toNat) :=
  Cert.RelPos.onehot_sum n hn D hD (fun k => wcol w ch (o + k.val))

/-- The zero block. -/
private theorem blk0_apply (r q ch : Fin 128) : blk0 (F := Ideal) (ix4 0 r q ch) = 0 := by
  unfold blk0 k0_pay24
  refine (shapeCast_abc_1abc_apply _ _ 0 r q ch).trans ?_
  exact Ideal.ofBits_zero_f32

/-- The second store's payload: the block read back plus the residue-offset row of the pair. -/
private theorem pay25_apply (v82 : FVec Ideal S16384x66 .bf16) (w : Vec Ideal S139x128 .f32) (prev : Vec Ideal S1x128x128x128 .f32)
    (r q ch : Fin 128) (D : BitVec 32) (hD : D.toNat < 66)
    (h82 : ∀ k : Fin 66, v82 (ix2 ⟨r.val * 128 + q.val, by omega⟩ k) = hot D k.val) :
    k0_pay25 (F := Ideal) v82 w prev (ix4 0 r q ch) = prev (ix4 0 r q ch) + wcol w ch D.toNat := by
  unfold k0_pay25
  refine (shapeCast_abc_1abc_apply _ _ 0 r q ch).trans ?_
  refine (addf_apply _ _ _).trans ?_
  refine congrArg₂ (· + ·) (shapeCast_1abc_abc_apply prev _ r q ch) ?_
  refine (shapeCast_mn_abn_apply _ _ r q ch ⟨r.val * 128 + q.val, by omega⟩ rfl).trans ?_
  refine (matmul66_apply _ _ _ ch).trans ?_
  refine (Finset.sum_congr rfl fun k _ => ?_).trans ((hot_sum (by norm_num) D hD w ch 0).trans (by rw [Nat.zero_add]))
  rw [h82 k, wslice_apply 0 w _ k ch (by omega)]

/-- The third term: the token-offset row of the pair, added to the block read back. -/
private theorem pay26_apply (v84 v85 : IVec S128x128x66 32) (w : Vec Ideal S139x128 .f32) (prev : Vec Ideal S1x128x128x128 .f32)
    (r q ch : Fin 128) (D : BitVec 32) (hD : D.toNat < 66)
    (h84 : ∀ k : Fin 66, v84 (ix3 r q k) = D) (h85 : ∀ k : Fin 66, v85 (ix3 r q k) = BitVec.ofNat 32 k.val) :
    k0_pay26 (F := Ideal) v84 v85 w prev (ix3 r q ch) = prev (ix4 0 r q ch) + wcol w ch (66 + D.toNat) := by
  unfold k0_pay26
  refine (addf_apply _ _ _).trans ?_
  refine congrArg₂ (· + ·) (shapeCast_1abc_abc_apply prev _ r q ch) ?_
  refine (shapeCast_mn_abn_apply _ _ r q ch ⟨r.val * 128 + q.val, by omega⟩ rfl).trans ?_
  refine (matmul66_apply _ _ _ ch).trans ?_
  refine (Finset.sum_congr rfl fun k _ => ?_).trans (hot_sum (by norm_num) D hD w ch 66)
  refine congrArg₂ (· * ·) ?_ (wslice_apply 66 w _ k ch (by omega))
  refine (shapeCast_abn_mn_apply _ _ r q k _ rfl).trans ?_
  show ((((IntOp.cmpi .eq (v84 (ix3 r q k)) (v85 (ix3 r q k))).setWidth 32).toInt : ℝ) : EReal) = _
  rw [h84 k, h85 k]
  rfl

private theorem pay1_apply (v122 : FVec Ideal S128x128x128 .f32) (r q ch : Fin 128) :
    k0_pay1 (F := Ideal) v122 (ix4 0 r q ch) = v122 (ix3 r q ch) := by
  unfold k0_pay1
  exact shapeCast_abc_1abc_apply _ _ 0 r q ch

/-- The fourth store's payload: the block read back plus the same-entity bit of the pair times the given row. -/
private theorem pay2_apply (v38 : IVec S128x128 1) (v104 : FVec Ideal S1x128 .f32) (prev : Vec Ideal S1x128x128x128 .f32)
    (r q ch : Fin 128) :
    k0_pay2 (F := Ideal) v38 v104 prev (ix4 0 r q ch)
      = prev (ix4 0 r q ch) + Scalar.select (v38 (ix2 r q)) (1 : EReal) 0 * v104 (ix2 0 ch) := by
  unfold k0_pay2
  refine (shapeCast_abc_1abc_apply _ _ 0 r q ch).trans ?_
  refine (addf_apply _ _ _).trans ?_
  refine congrArg₂ (· + ·) (shapeCast_1abc_abc_apply prev _ r q ch) ?_
  refine (mulf_apply _ _ _).trans ?_
  refine congrArg₂ (· * ·) ?_ ?_
  · refine (broadcastTo_ab1_abn_apply _ _ r q ch).trans ?_
    show ((((shapeCast S128x128x1 (extui 32 v38 natLt_1_32) shapeCasts_S128x128_S128x128x1 (ix3 r q 0)).toInt : ℝ)) : EReal) = _
    rw [shapeCast_ab_ab1_apply]
    exact Cert.RelPos.bit_sitofp (v38 (ix2 r q))
  · exact (broadcastTo_11n_abn_apply _ _ r q ch).trans (shapeCast_1n_11n_apply _ _ 0 0 ch)

/-- The last store's payload: the block read back plus the copy-offset row of the pair. -/
private theorem pay3_apply (v98 : FVec Ideal S16384x6 .bf16) (w : Vec Ideal S139x128 .f32) (prev : Vec Ideal S1x128x128x128 .f32)
    (r q ch : Fin 128) (D : BitVec 32) (hD : D.toNat < 6)
    (h98 : ∀ k : Fin 6, v98 (ix2 ⟨r.val * 128 + q.val, by omega⟩ k) = hot D k.val) :
    k0_pay3 (F := Ideal) v98 (k0_pay23 (F := Ideal) w) prev (ix4 0 r q ch) = prev (ix4 0 r q ch) + wcol w ch (133 + D.toNat) := by
  unfold k0_pay3 k0_pay23
  refine (shapeCast_abc_1abc_apply _ _ 0 r q ch).trans ?_
  refine (addf_apply _ _ _).trans ?_
  refine congrArg₂ (· + ·) (shapeCast_1abc_abc_apply prev _ r q ch) ?_
  refine (shapeCast_mn_abn_apply _ _ r q ch ⟨r.val * 128 + q.val, by omega⟩ rfl).trans ?_
  refine (matmul6_apply _ _ _ ch).trans ?_
  refine (Finset.sum_congr rfl fun k _ => ?_).trans (hot_sum (by norm_num) D hD w ch 133)
  rw [h98 k, wslice_apply 133 w _ k ch (by omega)]

/-! ## The blocks, store after store -/

/-- After the second store: the residue-offset row of the pair. -/
private theorem blk1_apply (xar xac xrr xrc : Vec Ideal S1x128 .i32) (w : Vec Ideal S139x128 .f32) (r q ch : Fin 128) :
    blk1 (F := Ideal) xar xac xrr xrc w (ix4 0 r q ch)
      = wcol w ch (Cert.RelPos.cls (IntOp.cmpi .eq (xar (ix2 0 r)) (xac (ix2 0 q)))
          (IntOp.addi (IntOp.subi (xrr (ix2 0 r)) (xrc (ix2 0 q))) 32#32) 64#32 65#32).toNat := by
  unfold blk1
  refine (pay25_apply _ w _ r q ch
    (Cert.RelPos.cls (IntOp.cmpi .eq (xar (ix2 0 r)) (xac (ix2 0 q))) (IntOp.addi (IntOp.subi (xrr (ix2 0 r)) (xrc (ix2 0 q))) 32#32) 64#32 65#32)
    (Cert.RelPos.cls_toNat_lt _ _ _ _ 66 (by decide) (by decide) (by norm_num)) (fun k => ?_)).trans ?_
  · refine (pay16_apply _ _ _ r q k _ rfl).trans ?_
    rw [pay10_apply, pay4_col, pay5_row]
  · rw [blk0_apply, zero_add]

/-- After the third store: the token-offset row added. -/
private theorem blk2_apply (xar xac xrr xrc xtr xtc : Vec Ideal S1x128 .i32) (w : Vec Ideal S139x128 .f32) (r q ch : Fin 128) :
    blk2 (F := Ideal) xar xac xrr xrc xtr xtc w (ix4 0 r q ch)
      = blk1 (F := Ideal) xar xac xrr xrc w (ix4 0 r q ch)
        + wcol w ch (66 + (Cert.RelPos.cls (IntOp.andi (IntOp.cmpi .eq (xar (ix2 0 r)) (xac (ix2 0 q))) (IntOp.cmpi .eq (xrr (ix2 0 r)) (xrc (ix2 0 q))))
          (IntOp.addi (IntOp.subi (xtr (ix2 0 r)) (xtc (ix2 0 q))) 32#32) 64#32 65#32).toNat) := by
  unfold blk2
  refine (pay1_apply _ r q ch).trans ?_
  refine pay26_apply _ _ w _ r q ch _ (Cert.RelPos.cls_toNat_lt _ _ _ _ 66 (by decide) (by decide) (by norm_num))
    (fun k => ?_) (fun k => pay18_apply r q k)
  refine (pay17_apply _ _ _ _ r q k).trans ?_
  rw [pay10_apply, pay11_apply, pay8_col, pay9_row]

/-- After the fourth store: the same-entity row added where the entities agree. -/
private theorem blk3_apply (xar xac xrr xrc xer xec xtr xtc : Vec Ideal S1x128 .i32) (w : Vec Ideal S139x128 .f32) (r q ch : Fin 128) :
    blk3 (F := Ideal) xar xac xrr xrc xer xec xtr xtc w (ix4 0 r q ch)
      = blk2 (F := Ideal) xar xac xrr xrc xtr xtc w (ix4 0 r q ch)
        + Scalar.select (IntOp.cmpi .eq (xer (ix2 0 r)) (xec (ix2 0 q))) (1 : EReal) 0 * wcol w ch 132 := by
  unfold blk3
  refine (pay2_apply _ _ _ r q ch).trans ?_
  rw [pay14_apply, pay12_apply, pay13_apply, pay22_apply]

/-- Entry (0, r, q, ch) of the block is the specification's entry of the pair's ids. -/
theorem outBlock_apply (xar xac xrr xrc xer xec xsr xsc xtr xtc : Vec Ideal S1x128 .i32) (w : Vec Ideal S139x128 .f32)
    (r q ch : Fin 128) :
    outBlock (F := Ideal) xar xac xrr xrc xer xec xsr xsc xtr xtc w (ix4 0 r q ch)
      = Cert.RelPos.relPosCore (wcol w ch)
          (xar (ix2 0 r)) (xac (ix2 0 q)) (xrr (ix2 0 r)) (xrc (ix2 0 q)) (xer (ix2 0 r)) (xec (ix2 0 q))
          (xsr (ix2 0 r)) (xsc (ix2 0 q)) (xtr (ix2 0 r)) (xtc (ix2 0 q)) := by
  unfold outBlock
  refine (pay3_apply _ w _ r q ch
    (Cert.RelPos.cls (IntOp.cmpi .eq (xer (ix2 0 r)) (xec (ix2 0 q))) (IntOp.addi (IntOp.subi (xsr (ix2 0 r)) (xsc (ix2 0 q))) 2#32) 4#32 5#32)
    (Cert.RelPos.cls_toNat_lt _ _ _ _ 6 (by decide) (by decide) (by norm_num)) (fun k => ?_)).trans ?_
  · refine (pay19_apply _ r q k _ rfl).trans ?_
    rw [pay15_apply, pay12_apply, pay13_apply, pay6_col, pay7_row]
  · rw [blk3_apply, blk2_apply, blk1_apply]
    rfl

end Cert.KernelIdeal.Hand

end
-- ==== Proof.KiValue.lean ====
/-
  From blocks to the array: after the run the kernel's result array is the specification's array.

  Grid point t = (i, j) writes back block (0, i, j, 0) of the result, and what it writes is `outBlock` of its
  input blocks. Entry (0, r, q, ch) of that block is the specification's entry of the ten ids it reads (the
  block-value module); those ids are entries 128 i + r and 128 j + q of the id vectors, because the row windows sit
  at block i and the column windows at block j of their vectors; and the block of the transposed table is the
  whole table, whose (k, ch) entry is the weight matrix's (ch, k). So the block is the block of the specification's
  array at the same place. The 64 blocks tile the result, hence the whole array is the specification's.
-/
import proofs.«424427_j1468878815797_4_alg».proof.Proof.KiFrame
import proofs.«424427_j1468878815797_4_alg».proof.Proof.KiBlockValue
import proofs.«424427_j1468878815797_4_alg».proof.Proof.Spec
import Idealize.ShloMosaic.Lib.Pipeline.Value
import Idealize.ShloMosaic.Lib.ValueLayout
import Idealize.ShloMosaic.Lib.StableHlo.Run

set_option maxRecDepth 16384

noncomputable section

namespace Cert.KernelIdeal.Hand

open Idealize.ShloMosaic Idealize.ShloMosaic.TcCoe Idealize.ShloMosaic.ValueIdx
open Idealize.SL Idealize.SL.Sem
open Idealize.ShloMosaic.Pipeline (Dat Cfg Window)
open Cert.KernelIdeal Cert.KernelIdeal.Gen

variable (m : (ℓ : Loc nD τ sig) → Buf (Elt Ideal) ℓ) (ρ : Dev nD → PrngReg)

/-- Where the windows sit at point `t`: every row window at the output block's row index, every column window at
    its column index, the table at its one block; the output's indices within the grid. Decided over the 64 points. -/
theorem idx_facts : ∀ t : Fin cfg0.N,
    win0_0.index t (0 : Fin 2) = 0
    ∧ win0_0.index t (1 : Fin 2) = win0_11.index t (1 : Fin 4)
    ∧ win0_1.index t (0 : Fin 2) = 0
    ∧ win0_1.index t (1 : Fin 2) = win0_11.index t (2 : Fin 4)
    ∧ win0_2.index t (0 : Fin 2) = 0
    ∧ win0_2.index t (1 : Fin 2) = win0_11.index t (1 : Fin 4)
    ∧ win0_3.index t (0 : Fin 2) = 0
    ∧ win0_3.index t (1 : Fin 2) = win0_11.index t (2 : Fin 4)
    ∧ win0_4.index t (0 : Fin 2) = 0
    ∧ win0_4.index t (1 : Fin 2) = win0_11.index t (1 : Fin 4)
    ∧ win0_5.index t (0 : Fin 2) = 0
    ∧ win0_5.index t (1 : Fin 2) = win0_11.index t (2 : Fin 4)
    ∧ win0_6.index t (0 : Fin 2) = 0
    ∧ win0_6.index t (1 : Fin 2) = win0_11.index t (1 : Fin 4)
    ∧ win0_7.index t (0 : Fin 2) = 0
    ∧ win0_7.index t (1 : Fin 2) = win0_11.index t (2 : Fin 4)
    ∧ win0_8.index t (0 : Fin 2) = 0
    ∧ win0_8.index t (1 : Fin 2) = win0_11.index t (1 : Fin 4)
    ∧ win0_9.index t (0 : Fin 2) = 0
    ∧ win0_9.index t (1 : Fin 2) = win0_11.index t (2 : Fin 4)
    ∧ win0_10.index t (0 : Fin 2) = 0
    ∧ win0_10.index t (1 : Fin 2) = 0
    ∧ win0_11.index t (0 : Fin 4) = 0
    ∧ win0_11.index t (3 : Fin 4) = 0
    ∧ win0_11.index t (1 : Fin 4) ≤ 7
    ∧ win0_11.index t (2 : Fin 4) ≤ 7 :=
  (by decide +kernel : ∀ t : Fin grid0.N, _)

/-- Every block of the result is some point's. -/
theorem idx_onto : ∀ (q1 q2 : Fin 8), ∃ t : Fin cfg0.N, win0_11.index t = ![0, q1.val, q2.val, 0] :=
  (by decide +kernel : ∀ (q1 q2 : Fin 8), ∃ t : Fin grid0.N, win0_11.index t = ![0, q1.val, q2.val, 0])

/-- Entry `r` of window 0's block at point `t` is entry `128 * (the point's row block) + r` of its id vector. -/
theorem blk0_apply (c : Dev nD) (t : Fin cfg0.N) (r : Fin 128) (p : Fin 1024) (hp : p.val = win0_11.index t (1 : Fin 4) * 128 + r.val) :
    iblk m c 0 t (ix2 0 r) = m ((c : Thread nD τ).loc main_arg1) (ix2 0 p) := by
  rw [← V_main_arg1 m c]
  show V m c main_arg1 (((cfg0.win 0).blk t).view.emb (ix2 0 r)) = V m c main_arg1 (ix2 0 p)
  refine congrArg _ (funext fun a => Fin.ext ?_)
  obtain ⟨e0, e1, e2, e3, e4, e5, e6, e7, e8, e9, e10, e11, e12, e13, e14, e15, e16, e17, e18, e19, e20, e21, e22, e23, e24, e25⟩ := idx_facts t
  match a with
  | ⟨0, _⟩ => show win0_0.index t (0 : Fin 2) * 1 + 1 * 0 = 0; omega
  | ⟨1, _⟩ => show win0_0.index t (1 : Fin 2) * 128 + 1 * r.val = p.val; omega
/-- Entry `r` of window 1's block at point `t` is entry `128 * (the point's column block) + r` of its id vector. -/
theorem blk1_apply (c : Dev nD) (t : Fin cfg0.N) (r : Fin 128) (p : Fin 1024) (hp : p.val = win0_11.index t (2 : Fin 4) * 128 + r.val) :
    iblk m c 1 t (ix2 0 r) = m ((c : Thread nD τ).loc main_arg1) (ix2 0 p) := by
  rw [← V_main_arg1 m c]
  show V m c main_arg1 (((cfg0.win 1).blk t).view.emb (ix2 0 r)) = V m c main_arg1 (ix2 0 p)
  refine congrArg _ (funext fun a => Fin.ext ?_)
  obtain ⟨e0, e1, e2, e3, e4, e5, e6, e7, e8, e9, e10, e11, e12, e13, e14, e15, e16, e17, e18, e19, e20, e21, e22, e23, e24, e25⟩ := idx_facts t
  match a with
  | ⟨0, _⟩ => show win0_1.index t (0 : Fin 2) * 1 + 1 * 0 = 0; omega
  | ⟨1, _⟩ => show win0_1.index t (1 : Fin 2) * 128 + 1 * r.val = p.val; omega
/-- Entry `r` of window 2's block at point `t` is entry `128 * (the point's row block) + r` of its id vector. -/
theorem blk2_apply (c : Dev nD) (t : Fin cfg0.N) (r : Fin 128) (p : Fin 1024) (hp : p.val = win0_11.index t (1 : Fin 4) * 128 + r.val) :
    iblk m c 2 t (ix2 0 r) = m ((c : Thread nD τ).loc main_arg2) (ix2 0 p) := by
  rw [← V_main_arg2 m c]
  show V m c main_arg2 (((cfg0.win 2).blk t).view.emb (ix2 0 r)) = V m c main_arg2 (ix2 0 p)
  refine congrArg _ (funext fun a => Fin.ext ?_)
  obtain ⟨e0, e1, e2, e3, e4, e5, e6, e7, e8, e9, e10, e11, e12, e13, e14, e15, e16, e17, e18, e19, e20, e21, e22, e23, e24, e25⟩ := idx_facts t
  match a with
  | ⟨0, _⟩ => show win0_2.index t (0 : Fin 2) * 1 + 1 * 0 = 0; omega
  | ⟨1, _⟩ => show win0_2.index t (1 : Fin 2) * 128 + 1 * r.val = p.val; omega
/-- Entry `r` of window 3's block at point `t` is entry `128 * (the point's column block) + r` of its id vector. -/
theorem blk3_apply (c : Dev nD) (t : Fin cfg0.N) (r : Fin 128) (p : Fin 1024) (hp : p.val = win0_11.index t (2 : Fin 4) * 128 + r.val) :
    iblk m c 3 t (ix2 0 r) = m ((c : Thread nD τ).loc main_arg2) (ix2 0 p) := by
  rw [← V_main_arg2 m c]
  show V m c main_arg2 (((cfg0.win 3).blk t).view.emb (ix2 0 r)) = V m c main_arg2 (ix2 0 p)
  refine congrArg _ (funext fun a => Fin.ext ?_)
  obtain ⟨e0, e1, e2, e3, e4, e5, e6, e7, e8, e9, e10, e11, e12, e13, e14, e15, e16, e17, e18, e19, e20, e21, e22, e23, e24, e25⟩ := idx_facts t
  match a with
  | ⟨0, _⟩ => show win0_3.index t (0 : Fin 2) * 1 + 1 * 0 = 0; omega
  | ⟨1, _⟩ => show win0_3.index t (1 : Fin 2) * 128 + 1 * r.val = p.val; omega
/-- Entry `r` of window 4's block at point `t` is entry `128 * (the point's row block) + r` of its id vector. -/
theorem blk4_apply (c : Dev nD) (t : Fin cfg0.N) (r : Fin 128) (p : Fin 1024) (hp : p.val = win0_11.index t (1 : Fin 4) * 128 + r.val) :
    iblk m c 4 t (ix2 0 r) = m ((c : Thread nD τ).loc main_arg3) (ix2 0 p) := by
  rw [← V_main_arg3 m c]
  show V m c main_arg3 (((cfg0.win 4).blk t).view.emb (ix2 0 r)) = V m c main_arg3 (ix2 0 p)
  refine congrArg _ (funext fun a => Fin.ext ?_)
  obtain ⟨e0, e1, e2, e3, e4, e5, e6, e7, e8, e9, e10, e11, e12, e13, e14, e15, e16, e17, e18, e19, e20, e21, e22, e23, e24, e25⟩ := idx_facts t
  match a with
  | ⟨0, _⟩ => show win0_4.index t (0 : Fin 2) * 1 + 1 * 0 = 0; omega
  | ⟨1, _⟩ => show win0_4.index t (1 : Fin 2) * 128 + 1 * r.val = p.val; omega
/-- Entry `r` of window 5's block at point `t` is entry `128 * (the point's column block) + r` of its id vector. -/
theorem blk5_apply (c : Dev nD) (t : Fin cfg0.N) (r : Fin 128) (p : Fin 1024) (hp : p.val = win0_11.index t (2 : Fin 4) * 128 + r.val) :
    iblk m c 5 t (ix2 0 r) = m ((c : Thread nD τ).loc main_arg3) (ix2 0 p) := by
  rw [← V_main_arg3 m c]
  show V m c main_arg3 (((cfg0.win 5).blk t).view.emb (ix2 0 r)) = V m c main_arg3 (ix2 0 p)
  refine congrArg _ (funext fun a => Fin.ext ?_)
  obtain ⟨e0, e1, e2, e3, e4, e5, e6, e7, e8, e9, e10, e11, e12, e13, e14, e15, e16, e17, e18, e19, e20, e21, e22, e23, e24, e25⟩ := idx_facts t
  match a with
  | ⟨0, _⟩ => show win0_5.index t (0 : Fin 2) * 1 + 1 * 0 = 0; omega
  | ⟨1, _⟩ => show win0_5.index t (1 : Fin 2) * 128 + 1 * r.val = p.val; omega
/-- Entry `r` of window 6's block at point `t` is entry `128 * (the point's row block) + r` of its id vector. -/
theorem blk6_apply (c : Dev nD) (t : Fin cfg0.N) (r : Fin 128) (p : Fin 1024) (hp : p.val = win0_11.index t (1 : Fin 4) * 128 + r.val) :
    iblk m c 6 t (ix2 0 r) = m ((c : Thread nD τ).loc main_arg4) (ix2 0 p) := by
  rw [← V_main_arg4 m c]
  show V m c main_arg4 (((cfg0.win 6).blk t).view.emb (ix2 0 r)) = V m c main_arg4 (ix2 0 p)
  refine congrArg _ (funext fun a => Fin.ext ?_)
  obtain ⟨e0, e1, e2, e3, e4, e5, e6, e7, e8, e9, e10, e11, e12, e13, e14, e15, e16, e17, e18, e19, e20, e21, e22, e23, e24, e25⟩ := idx_facts t
  match a with
  | ⟨0, _⟩ => show win0_6.index t (0 : Fin 2) * 1 + 1 * 0 = 0; omega
  | ⟨1, _⟩ => show win0_6.index t (1 : Fin 2) * 128 + 1 * r.val = p.val; omega
/-- Entry `r` of window 7's block at point `t` is entry `128 * (the point's column block) + r` of its id vector. -/
theorem blk7_apply (c : Dev nD) (t : Fin cfg0.N) (r : Fin 128) (p : Fin 1024) (hp : p.val = win0_11.index t (2 : Fin 4) * 128 + r.val) :
    iblk m c 7 t (ix2 0 r) = m ((c : Thread nD τ).loc main_arg4) (ix2 0 p) := by
  rw [← V_main_arg4 m c]
  show V m c main_arg4 (((cfg0.win 7).blk t).view.emb (ix2 0 r)) = V m c main_arg4 (ix2 0 p)
  refine congrArg _ (funext fun a => Fin.ext ?_)
  obtain ⟨e0, e1, e2, e3, e4, e5, e6, e7, e8, e9, e10, e11, e12, e13, e14, e15, e16, e17, e18, e19, e20, e21, e22, e23, e24, e25⟩ := idx_facts t
  match a with
  | ⟨0, _⟩ => show win0_7.index t (0 : Fin 2) * 1 + 1 * 0 = 0; omega
  | ⟨1, _⟩ => show win0_7.index t (1 : Fin 2) * 128 + 1 * r.val = p.val; omega
/-- Entry `r` of window 8's block at point `t` is entry `128 * (the point's row block) + r` of its id vector. -/
theorem blk8_apply (c : Dev nD) (t : Fin cfg0.N) (r : Fin 128) (p : Fin 1024) (hp : p.val = win0_11.index t (1 : Fin 4) * 128 + r.val) :
    iblk m c 8 t (ix2 0 r) = m ((c : Thread nD τ).loc main_arg5) (ix2 0 p) := by
  rw [← V_main_arg5 m c]
  show V m c main_arg5 (((cfg0.win 8).blk t).view.emb (ix2 0 r)) = V m c main_arg5 (ix2 0 p)
  refine congrArg _ (funext fun a => Fin.ext ?_)
  obtain ⟨e0, e1, e2, e3, e4, e5, e6, e7, e8, e9, e10, e11, e12, e13, e14, e15, e16, e17, e18, e19, e20, e21, e22, e23, e24, e25⟩ := idx_facts t
  match a with
  | ⟨0, _⟩ => show win0_8.index t (0 : Fin 2) * 1 + 1 * 0 = 0; omega
  | ⟨1, _⟩ => show win0_8.index t (1 : Fin 2) * 128 + 1 * r.val = p.val; omega
/-- Entry `r` of window 9's block at point `t` is entry `128 * (the point's column block) + r` of its id vector. -/
theorem blk9_apply (c : Dev nD) (t : Fin cfg0.N) (r : Fin 128) (p : Fin 1024) (hp : p.val = win0_11.index t (2 : Fin 4) * 128 + r.val) :
    iblk m c 9 t (ix2 0 r) = m ((c : Thread nD τ).loc main_arg5) (ix2 0 p) := by
  rw [← V_main_arg5 m c]
  show V m c main_arg5 (((cfg0.win 9).blk t).view.emb (ix2 0 r)) = V m c main_arg5 (ix2 0 p)
  refine congrArg _ (funext fun a => Fin.ext ?_)
  obtain ⟨e0, e1, e2, e3, e4, e5, e6, e7, e8, e9, e10, e11, e12, e13, e14, e15, e16, e17, e18, e19, e20, e21, e22, e23, e24, e25⟩ := idx_facts t
  match a with
  | ⟨0, _⟩ => show win0_9.index t (0 : Fin 2) * 1 + 1 * 0 = 0; omega
  | ⟨1, _⟩ => show win0_9.index t (1 : Fin 2) * 128 + 1 * r.val = p.val; omega

/-- The region finds the transposed weight table in the table window's array. -/
theorem V_main_v0 (c : Dev nD) :
    (V m c main_v0 : S139x128.Idx → EReal) = transpose S139x128 [1, 0] (m ((c : Thread nD τ).loc main_arg0)) transposes_S128x139_S139x128_1_0 := by
  dsimp only [V, hostOps0]; after_results

/-- The table window's block is the whole transposed table: its column `ch` is row `ch` of the weight matrix. -/
theorem wcol_blk (c : Dev nD) (t : Fin cfg0.N) (ch : Fin 128) :
    wcol (iblk m c 10 t) ch = Cert.RelPos.wrow (m ((c : Thread nD τ).loc main_arg0)) ch := by
  funext k
  unfold wcol Cert.RelPos.wrow
  by_cases hk : k < 139
  · rw [dif_pos hk, dif_pos hk]
    have e : iblk m c 10 t (ix2 ⟨k, hk⟩ ch) = V m c main_v0 (ix2 ⟨k, hk⟩ ch) := by
      show V m c main_v0 (((cfg0.win 10).blk t).view.emb (ix2 ⟨k, hk⟩ ch)) = V m c main_v0 (ix2 ⟨k, hk⟩ ch)
      refine congrArg _ (funext fun a => Fin.ext ?_)
      obtain ⟨e0, e1, e2, e3, e4, e5, e6, e7, e8, e9, e10, e11, e12, e13, e14, e15, e16, e17, e18, e19, e20, e21, e22, e23, e24, e25⟩ := idx_facts t
      match a with
      | ⟨0, _⟩ => show win0_10.index t (0 : Fin 2) * 139 + 1 * k = k; omega
      | ⟨1, _⟩ => show win0_10.index t (1 : Fin 2) * 128 + 1 * ch.val = ch.val; omega
    rw [e, V_main_v0]
    exact transpose_ix2_apply _ _ ⟨k, hk⟩ ch
  · rw [dif_neg hk, dif_neg hk]

/-- WHAT POINT `t` WRITES BACK is block `t` of the specification's array of the arguments as launched. -/
theorem flushed_eq (c : Dev nD) (t : Fin cfg0.N) :
    (dats m 0 c).flushed 11 t = ((cfg0.win 11).blk t).view.read (Elt Ideal)
      (Cert.RelPos.relPos (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5))) := by
  show (cfg0.win 11).cut (grid0.coords t) ((dats m 0 c).after 11 t) = _
  rw [after0_11]
  funext (j : S1x128x128x128.Idx)
  obtain ⟨a, r, q, ch, rfl⟩ : ∃ (a : Fin 1) (r q ch : Fin 128), j = ix4 a r q ch := ⟨j 0, j 1, j 2, j 3, eq_ix4 j⟩
  obtain rfl : a = 0 := Subsingleton.elim _ _
  obtain ⟨e0, e1, e2, e3, e4, e5, e6, e7, e8, e9, e10, e11, e12, e13, e14, e15, e16, e17, e18, e19, e20, e21, e22, e23, e24, e25⟩ := idx_facts t
  -- the array index under the block index
  have h1 : ((((cfg0.win 11).blk t).view.emb (ix4 0 r q ch)) 1).val = win0_11.index t (1 : Fin 4) * 128 + 1 * r.val := rfl
  have h2 : ((((cfg0.win 11).blk t).view.emb (ix4 0 r q ch)) 2).val = win0_11.index t (2 : Fin 4) * 128 + 1 * q.val := rfl
  have h3 : ((((cfg0.win 11).blk t).view.emb (ix4 0 r q ch)) 3).val = win0_11.index t (3 : Fin 4) * 128 + 1 * ch.val := rfl
  show outBlock (F := Ideal) (iblk m c 0 t) (iblk m c 1 t) (iblk m c 2 t) (iblk m c 3 t) (iblk m c 4 t) (iblk m c 5 t) (iblk m c 6 t) (iblk m c 7 t) (iblk m c 8 t) (iblk m c 9 t) (iblk m c 10 t) (ix4 0 r q ch)
      = Cert.RelPos.relPos _ _ _ _ _ _ (((cfg0.win 11).blk t).view.emb (ix4 0 r q ch))
  rw [outBlock_apply, wcol_blk m c t ch]
  unfold Cert.RelPos.relPos
  rw [blk0_apply m c t r ⟨_, (((cfg0.win 11).blk t).view.emb (ix4 0 r q ch) 1).isLt⟩ (by rw [h1]; omega), blk1_apply m c t q ⟨_, (((cfg0.win 11).blk t).view.emb (ix4 0 r q ch) 2).isLt⟩ (by rw [h2]; omega),
    blk2_apply m c t r ⟨_, (((cfg0.win 11).blk t).view.emb (ix4 0 r q ch) 1).isLt⟩ (by rw [h1]; omega), blk3_apply m c t q ⟨_, (((cfg0.win 11).blk t).view.emb (ix4 0 r q ch) 2).isLt⟩ (by rw [h2]; omega),
    blk4_apply m c t r ⟨_, (((cfg0.win 11).blk t).view.emb (ix4 0 r q ch) 1).isLt⟩ (by rw [h1]; omega), blk5_apply m c t q ⟨_, (((cfg0.win 11).blk t).view.emb (ix4 0 r q ch) 2).isLt⟩ (by rw [h2]; omega),
    blk6_apply m c t r ⟨_, (((cfg0.win 11).blk t).view.emb (ix4 0 r q ch) 1).isLt⟩ (by rw [h1]; omega), blk7_apply m c t q ⟨_, (((cfg0.win 11).blk t).view.emb (ix4 0 r q ch) 2).isLt⟩ (by rw [h2]; omega),
    blk8_apply m c t r ⟨_, (((cfg0.win 11).blk t).view.emb (ix4 0 r q ch) 1).isLt⟩ (by rw [h1]; omega), blk9_apply m c t q ⟨_, (((cfg0.win 11).blk t).view.emb (ix4 0 r q ch) 2).isLt⟩ (by rw [h2]; omega)]
  have hch : (⟨((((cfg0.win 11).blk t).view.emb (ix4 0 r q ch)) 3).val, (((cfg0.win 11).blk t).view.emb (ix4 0 r q ch) 3).isLt⟩ : Fin 128) = ch := Fin.ext (by rw [h3]; omega)
  rw [hch]

/-- An index of the result is in point `t`'s block iff each coordinate is in the block's range on its axis. -/
theorem mem_blk (t : Fin cfg0.N) (i : S1x1024x1024x128.Idx) :
    i ∈ ((cfg0.win 11).blk t).view.set ↔ ∀ a : Fin 4, win0_11.index t a * S1x128x128x128.size a ≤ (i a).val ∧ (i a).val < win0_11.index t a * S1x128x128x128.size a + S1x128x128x128.size a := by
  show i ∈ ((View.whole main_v1).slice (win0_11.rect t)).set ↔ _
  rw [View.set_slice_whole, Rect.mem_set_unit]
  exact Iff.rfl

/-- The blocks tile the result: every index lies in the block of the point at (row / 128, column / 128). -/
theorem cover (i : S1x1024x1024x128.Idx) : ∃ t : Fin cfg0.N, (cfg0.win 11).flush t = true ∧ i ∈ ((cfg0.win 11).blk t).view.set := by
  have hi0 : (i 0).val < 1 := (i 0).isLt
  have hi1 : (i 1).val < 1024 := (i 1).isLt
  have hi2 : (i 2).val < 1024 := (i 2).isLt
  have hi3 : (i 3).val < 128 := (i 3).isLt
  obtain ⟨t, ht⟩ := idx_onto ⟨(i 1).val / 128, by omega⟩ ⟨(i 2).val / 128, by omega⟩
  have q0 : win0_11.index t (0 : Fin 4) = 0 := congrFun ht 0
  have q1 : win0_11.index t (1 : Fin 4) = (i 1).val / 128 := congrFun ht 1
  have q2 : win0_11.index t (2 : Fin 4) = (i 2).val / 128 := congrFun ht 2
  have q3 : win0_11.index t (3 : Fin 4) = 0 := congrFun ht 3
  refine ⟨t, flush0_11 t, ?_⟩
  rw [mem_blk]
  intro a
  match a with
  | ⟨0, _⟩ => show win0_11.index t (0 : Fin 4) * 1 ≤ (i 0).val ∧ (i 0).val < win0_11.index t (0 : Fin 4) * 1 + 1; omega
  | ⟨1, _⟩ => show win0_11.index t (1 : Fin 4) * 128 ≤ (i 1).val ∧ (i 1).val < win0_11.index t (1 : Fin 4) * 128 + 128; omega
  | ⟨2, _⟩ => show win0_11.index t (2 : Fin 4) * 128 ≤ (i 2).val ∧ (i 2).val < win0_11.index t (2 : Fin 4) * 128 + 128; omega
  | ⟨3, _⟩ => show win0_11.index t (3 : Fin 4) * 128 ≤ (i 3).val ∧ (i 3).val < win0_11.index t (3 : Fin 4) * 128 + 128; omega

/-- THE RESULT ARRAY after the run is the specification's array of the arguments as launched. -/
theorem final (c : Dev nD) : (dats m 0 c).arrAt 11 cfg0.N
    = Cert.RelPos.relPos (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5)) :=
  (dats m 0 c).arrAt_eq_of_cover 11 _ (fun t _ => flushed_eq m c t) cover

/-- The run, read: the result at the specification's array, the arguments unchanged. -/
theorem run_value : θ_run defs (onTc (τ := τ) (main (F := Ideal))) ⟨m, fun _ => 0, ρ⟩ (fun r => ∀ c : Dev nD,
      r.2.mem ((c.tc : Thread nD τ).loc main_v1)
        = Cert.RelPos.relPos (m ((c : Thread nD τ).loc main_arg0)) (m ((c : Thread nD τ).loc main_arg1)) (m ((c : Thread nD τ).loc main_arg2))
            (m ((c : Thread nD τ).loc main_arg3)) (m ((c : Thread nD τ).loc main_arg4)) (m ((c : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun r h c => ⟨(h c).1.trans (final m c), (h c).2⟩) (run_result m ρ)

end Cert.KernelIdeal.Hand

end
-- ==== Proof.RefRead.lean ====
/-
  The reference's run, read one operation at a time: this module only gathers the generated run and
  read-at-an-index lemmas of the reference program for the modules that compare it with the kernel.
-/
import proofs.«424427_j1468878815797_4_alg».proof.Proof.Gen.ReferenceIdeal.Run
import proofs.«424427_j1468878815797_4_alg».proof.Proof.Gen.ReferenceIdeal.Read
-- ==== Proof.RefValue.lean ====
/-
  The reference program computes the specification.

  Its last value is a sum of three row gathers of slices of the transposed weight table and one masked row;
  each gather index is a clipped class that is never negative and lies below the slice's height, so the
  reference's wrap of negative indices and the gather's clamp both leave it alone, and the gathered row is
  the table's row at the class. Entry by entry that is `relPosCore`.
-/
import proofs.«424427_j1468878815797_4_alg».proof.Proof.RefRead
import proofs.«424427_j1468878815797_4_alg».proof.Proof.Spec
import Idealize.ShloMosaic.Lib.ValueIdx
import Idealize.ShloMosaic.Lib.ValueLayout
import Idealize.ShloMosaic.Lib.Pipeline.Value
import Idealize.ShloMosaic.PureOps.Ideal.Laws

noncomputable section

namespace Cert.ReferenceIdeal.RefValue

open Idealize.ShloMosaic Idealize.ShloMosaic.ValueIdx Idealize.SL.Sem Cert.ReferenceIdeal Cert.ReferenceIdeal.Gen Cert.ReferenceIdeal.Read

section Gather
variable {α : Type}

/-- The dimension numbers of a row gather: a table of `N` rows of 128 entries, one start index per pair of tokens,
    the whole row taken (the row axis collapsed, the 128 entries the result's last axis). -/
private abbrev rowDims (N : Nat) (wf : GatherDims.WF ⟨2, ![N, 128]⟩ ⟨4, ![1, 1024, 1024, 1]⟩ ⟨4, ![1, 1024, 1024, 128]⟩ [3] [0] [] [0] [] 3 ![1, 128]) :
    GatherDims ⟨2, ![N, 128]⟩ ⟨4, ![1, 1024, 1024, 1]⟩ ⟨4, ![1, 1024, 1024, 128]⟩ where
  offsetDims := [3]
  collapsedSliceDims := [0]
  operandBatchingDims := []
  startIndicesBatchingDims := []
  startIndexMap := [0]
  indexVectorDim := 3
  sliceSizes := ![1, 128]
  wf := wf

/-- Where the result entry `(0, r, q, ch)` reads its start index: at `(0, r, q, 0)`. -/
private abbrev rowIdx (y : (⟨4, ![1, 1024, 1024, 128]⟩ : Shape).Idx) : (⟨4, ![1, 1024, 1024, 1]⟩ : Shape).Idx :=
  fun a => match a with
    | ⟨0, _⟩ => ⟨0, Nat.one_pos⟩
    | ⟨1, _⟩ => ⟨(y 1).val, (y 1).isLt⟩
    | ⟨2, _⟩ => ⟨(y 2).val, (y 2).isLt⟩
    | ⟨3, _⟩ => ⟨0, Nat.one_pos⟩

/-- The row gather read at an entry: the table's row at the start index read signed and clamped into `[0, N − 1]`,
    at the entry's channel. -/
private theorem gather_row_apply {N w : Nat} (hN : 0 < N)
    (wf : GatherDims.WF ⟨2, ![N, 128]⟩ ⟨4, ![1, 1024, 1024, 1]⟩ ⟨4, ![1, 1024, 1024, 128]⟩ [3] [0] [] [0] [] 3 ![1, 128])
    (x : (⟨2, ![N, 128]⟩ : Shape).Idx → α) (idx : IVec ⟨4, ![1, 1024, 1024, 1]⟩ w) (y : (⟨4, ![1, 1024, 1024, 128]⟩ : Shape).Idx) :
    Host.gather (rowDims N wf) x idx y
      = x (ix2 ⟨min (idx (rowIdx y)).toInt.toNat (N - 1), by omega⟩ ⟨(y 3).val, (y 3).isLt⟩) := by
  unfold Host.gather
  congr 1
  funext a
  refine Fin.ext ?_
  match a with
  | ⟨0, _⟩ =>
    show (rowDims N wf).start y idx 0 + (rowDims N wf).batchCoord y 0 + (rowDims N wf).offCoord y 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowDims N wf).startIndexMap from List.mem_singleton.mpr rfl)]
    have hsi : (rowDims N wf).siIdx y ⟨List.idxOf (0 : Fin 2) (rowDims N wf).startIndexMap,
        List.idxOf_lt_length_iff.2 (List.mem_singleton.mpr rfl)⟩ = rowIdx y := by
      funext b; refine Fin.ext ?_
      match b with
      | ⟨0, _⟩ =>
        show (y 0).val = 0
        have h : (y 0).val < 1 := (y 0).isLt
        omega
      | ⟨1, _⟩ => rfl
      | ⟨2, _⟩ => rfl
      | ⟨3, _⟩ => rfl
    rw [hsi]
    rfl
  | ⟨1, _⟩ =>
    show (rowDims N wf).start y idx 1 + (rowDims N wf).batchCoord y 1 + (rowDims N wf).offCoord y 1 = _
    rw [GatherDims.batchCoord_eq_zero _ _ _ List.not_mem_nil]
    unfold GatherDims.start
    rw [dif_neg (show (1 : Fin 2) ∉ ([0] : List (Fin 2)) by decide)]
    simp only [Nat.add_zero, Nat.zero_add]
    rfl

end Gather

/-! ## Indices -/

local macro "idx2" : tactic =>
  `(tactic| (funext a; refine Fin.ext ?_; match a with | ⟨0, _⟩ => rfl | ⟨1, _⟩ => rfl))
local macro "idx3" : tactic =>
  `(tactic| (funext a; refine Fin.ext ?_; match a with | ⟨0, _⟩ => rfl | ⟨1, _⟩ => rfl | ⟨2, _⟩ => rfl))
local macro "idx4" : tactic =>
  `(tactic| (funext a; refine Fin.ext ?_; match a with | ⟨0, _⟩ => rfl | ⟨1, _⟩ => rfl | ⟨2, _⟩ => rfl | ⟨3, _⟩ => rfl))

/-- An array of one integer per token. -/
private abbrev Tok := (⟨S1x1024, .i32⟩ : BufTy).Contents (Elt Ideal)
/-- The weight table, one row per channel. -/
private abbrev Tab := (⟨S128x139, .f32⟩ : BufTy).Contents (Elt Ideal)

/-! ## The pair arrays: a token array broadcast along the rows and along the columns -/

section Pair
variable (x : Tok) (r q : Fin 1024)

private theorem v2_at : val_main_v2 (F := Ideal) x (ix3 0 r q) = x (ix2 0 r) := by
  rw [val_main_v2_apply, val_main_v0_apply]; congr 1; idx2
private theorem v3_at : val_main_v3 (F := Ideal) x (ix3 0 r q) = x (ix2 0 q) := by
  rw [val_main_v3_apply, val_main_v1_apply]; congr 1; idx2
private theorem v7_at : val_main_v7 (F := Ideal) x (ix3 0 r q) = x (ix2 0 r) := by
  rw [val_main_v7_apply, val_main_v5_apply]; congr 1; idx2
private theorem v8_at : val_main_v8 (F := Ideal) x (ix3 0 r q) = x (ix2 0 q) := by
  rw [val_main_v8_apply, val_main_v6_apply]; congr 1; idx2
private theorem v12_at : val_main_v12 (F := Ideal) x (ix3 0 r q) = x (ix2 0 r) := by
  rw [val_main_v12_apply, val_main_v10_apply]; congr 1; idx2
private theorem v13_at : val_main_v13 (F := Ideal) x (ix3 0 r q) = x (ix2 0 q) := by
  rw [val_main_v13_apply, val_main_v11_apply]; congr 1; idx2
private theorem v17_at : val_main_v17 (F := Ideal) x (ix3 0 r q) = x (ix2 0 r) := by
  rw [val_main_v17_apply, val_main_v15_apply]; congr 1; idx2
private theorem v18_at : val_main_v18 (F := Ideal) x (ix3 0 r q) = x (ix2 0 q) := by
  rw [val_main_v18_apply, val_main_v16_apply]; congr 1; idx2
private theorem v26_at : val_main_v26 (F := Ideal) x (ix3 0 r q) = x (ix2 0 r) := by
  rw [val_main_v26_apply, val_main_v24_apply]; congr 1; idx2
private theorem v27_at : val_main_v27 (F := Ideal) x (ix3 0 r q) = x (ix2 0 q) := by
  rw [val_main_v27_apply, val_main_v25_apply]; congr 1; idx2
private theorem v36_at : val_main_v36 (F := Ideal) x (ix3 0 r q) = x (ix2 0 r) := by
  rw [val_main_v36_apply, val_main_v34_apply]; congr 1; idx2
private theorem v37_at : val_main_v37 (F := Ideal) x (ix3 0 r q) = x (ix2 0 q) := by
  rw [val_main_v37_apply, val_main_v35_apply]; congr 1; idx2

end Pair

/-! ## The three classes -/

section Classes
variable (asym res ent sym tok : Tok) (r q : Fin 1024)

/-- The residue class of the pair. -/
private abbrev d1 : BitVec 32 :=
  Cert.RelPos.cls (IntOp.cmpi .eq (asym (ix2 0 r)) (asym (ix2 0 q)))
    (IntOp.addi (IntOp.subi (res (ix2 0 r)) (res (ix2 0 q))) 32#32) 64#32 65#32
/-- The token class of the pair. -/
private abbrev d2 : BitVec 32 :=
  Cert.RelPos.cls (IntOp.andi (IntOp.cmpi .eq (asym (ix2 0 r)) (asym (ix2 0 q))) (IntOp.cmpi .eq (res (ix2 0 r)) (res (ix2 0 q))))
    (IntOp.addi (IntOp.subi (tok (ix2 0 r)) (tok (ix2 0 q))) 32#32) 64#32 65#32
/-- The copy class of the pair. -/
private abbrev d3 : BitVec 32 :=
  Cert.RelPos.cls (IntOp.cmpi .eq (ent (ix2 0 r)) (ent (ix2 0 q)))
    (IntOp.addi (IntOp.subi (sym (ix2 0 r)) (sym (ix2 0 q))) 2#32) 4#32 5#32

private theorem v23_at : val_main_v23 (F := Ideal) asym res (ix3 0 r q) = d1 asym res r q := by
  rw [val_main_v23_apply, val_main_v4_apply, v2_at, v3_at, val_main_v22_apply, val_main_call0_v4_apply,
    val_main_call0_v3_apply, val_main_c_1_apply, val_main_call0_v2_apply, val_main_call0_v1_apply,
    val_main_call0_v0_apply, val_main_c_0_apply, val_main_v21_apply, val_main_v19_apply, v17_at, v18_at,
    val_main_v20_apply, val_main_c_apply, val_main_call1_v1_apply, val_main_call1_v0_apply, val_main_c_2_apply]
  rfl

private theorem v33_at : val_main_v33 (F := Ideal) asym res tok (ix3 0 r q) = d2 asym res tok r q := by
  rw [val_main_v33_apply, val_main_v32_apply, val_main_v4_apply, v2_at, v3_at, val_main_v9_apply, v7_at, v8_at,
    val_main_v31_apply, val_main_call2_v4_apply,
    val_main_call2_v3_apply, val_main_c_5_apply, val_main_call2_v2_apply, val_main_call2_v1_apply,
    val_main_call2_v0_apply, val_main_c_4_apply, val_main_v30_apply, val_main_v28_apply, v26_at, v27_at,
    val_main_v29_apply, val_main_c_3_apply, val_main_call3_v1_apply, val_main_call3_v0_apply, val_main_c_6_apply]
  rfl

private theorem v42_at : val_main_v42 (F := Ideal) ent sym (ix3 0 r q) = d3 ent sym r q := by
  rw [val_main_v42_apply, val_main_v14_apply, v12_at, v13_at, val_main_v41_apply, val_main_call4_v4_apply,
    val_main_call4_v3_apply, val_main_c_9_apply, val_main_call4_v2_apply, val_main_call4_v1_apply,
    val_main_call4_v0_apply, val_main_c_8_apply, val_main_v40_apply, val_main_v38_apply, v36_at, v37_at,
    val_main_v39_apply, val_main_c_7_apply, val_main_call5_v1_apply, val_main_call5_v0_apply, val_main_c_10_apply]
  rfl

end Classes

/-! ## The wrap of a negative index never fires -/

/-- A word that is not negative is left alone by the wrap `d < 0 ? d + n : d`. -/
private theorem wrap_id (d n : BitVec 32) (h : d.slt 0#32 = false) :
    Scalar.select (IntOp.cmpi .slt d 0#32) (IntOp.addi d n) d = d := by
  unfold IntOp.cmpi
  simp only [h]
  exact select_zero _ _

section Wrapped
variable (asym res ent sym tok : Tok) (r q : Fin 1024)

private theorem v49_at : val_main_v49 (F := Ideal) asym res (ix3 0 r q) = d1 asym res r q := by
  rw [val_main_v49_apply, val_main_v46_apply, val_main_v48_apply, v23_at, val_main_v45_apply, val_main_c_11_apply,
    val_main_v47_apply, val_main_c_12_apply]
  exact wrap_id _ _ (Cert.RelPos.cls_not_slt_zero _ _ _ _ (by decide) (by decide))

private theorem v57_at : val_main_v57 (F := Ideal) asym res tok (ix3 0 r q) = d2 asym res tok r q := by
  rw [val_main_v57_apply, val_main_v54_apply, val_main_v56_apply, v33_at, val_main_v53_apply, val_main_c_13_apply,
    val_main_v55_apply, val_main_c_14_apply]
  exact wrap_id _ _ (Cert.RelPos.cls_not_slt_zero _ _ _ _ (by decide) (by decide))

private theorem v75_at : val_main_v75 (F := Ideal) ent sym (ix3 0 r q) = d3 ent sym r q := by
  rw [val_main_v75_apply, val_main_v72_apply, val_main_v74_apply, v42_at, val_main_v71_apply, val_main_c_15_apply,
    val_main_v73_apply, val_main_c_16_apply]
  exact wrap_id _ _ (Cert.RelPos.cls_not_slt_zero _ _ _ _ (by decide) (by decide))

end Wrapped

/-! ## A row gather at an index that is in range reads the row -/

/-- At a start index `d` below the table's height (so non-negative as a signed word) the clamp is the identity and
    the gather reads row `d`. -/
private theorem gather_at {α : Type} {N : Nat} (hN : 0 < N) (hN' : N ≤ 2 ^ 31)
    (wf : GatherDims.WF ⟨2, ![N, 128]⟩ ⟨4, ![1, 1024, 1024, 1]⟩ ⟨4, ![1, 1024, 1024, 128]⟩ [3] [0] [] [0] [] 3 ![1, 128])
    (T : (⟨2, ![N, 128]⟩ : Shape).Idx → α) (idx : IVec ⟨4, ![1, 1024, 1024, 1]⟩ 32)
    (y : (⟨4, ![1, 1024, 1024, 128]⟩ : Shape).Idx) (d : BitVec 32) (hd : idx (rowIdx y) = d) (hlt : d.toNat < N) :
    Host.gather (rowDims N wf) T idx y = T (ix2 ⟨d.toNat, hlt⟩ ⟨(y 3).val, (y 3).isLt⟩) := by
  rw [gather_row_apply hN]
  congr 2
  refine Fin.ext ?_
  show min (idx (rowIdx y)).toInt.toNat (N - 1) = d.toNat
  rw [hd]
  have hi : d.toInt = (d.toNat : Int) := by
    rw [BitVec.toInt_eq_toNat_cond, if_pos (by omega)]
  rw [hi, Int.toNat_natCast]
  exact Nat.min_eq_left (by omega)

/-! ## The slices of the transposed table -/

section Tables
variable (W : Tab) (ch : Fin 128)

private theorem v44_at (k : Fin 66) : val_main_v44 (F := Ideal) W (ix2 k ch) = Cert.RelPos.wrow W ch k.val := by
  rw [val_main_v44_apply, val_main_v43_apply]
  unfold Cert.RelPos.wrow
  rw [dif_pos (by have := k.isLt; omega)]
  congr 1; idx2

private theorem v52_at (k : Fin 66) : val_main_v52 (F := Ideal) W (ix2 k ch) = Cert.RelPos.wrow W ch (66 + k.val) := by
  rw [val_main_v52_apply, val_main_v43_apply]
  unfold Cert.RelPos.wrow
  rw [dif_pos (by have := k.isLt; omega)]
  congr 1; idx2

private theorem v70_at (k : Fin 6) : val_main_v70 (F := Ideal) W (ix2 k ch) = Cert.RelPos.wrow W ch (133 + k.val) := by
  rw [val_main_v70_apply, val_main_v43_apply]
  unfold Cert.RelPos.wrow
  rw [dif_pos (by have := k.isLt; omega)]
  congr 1; idx2

private theorem v67_at (r q : Fin 1024) : val_main_v67 (F := Ideal) W (ix4 0 r q ch) = Cert.RelPos.wrow W ch 132 := by
  rw [val_main_v67_apply, val_main_v65_apply, val_main_v64_apply, val_main_v63_apply, val_main_v43_apply]
  unfold Cert.RelPos.wrow
  rw [dif_pos (by decide)]
  congr 1
  funext a; refine Fin.ext ?_
  match a with
  | ⟨0, _⟩ => exact Nat.mod_eq_of_lt ch.isLt
  | ⟨1, _⟩ => rfl

end Tables

/-! ## The four terms of the sum -/

section Terms
variable (W : Tab) (asym res ent sym tok : Tok) (r q : Fin 1024) (ch : Fin 128)

private theorem v51_at : val_main_v51 (F := Ideal) W asym res (ix4 0 r q ch)
    = Cert.RelPos.wrow W ch (d1 asym res r q).toNat := by
  have hlt : (d1 asym res r q).toNat < 66 :=
    Cert.RelPos.cls_toNat_lt _ _ _ _ 66 (by decide) (by decide) (by decide)
  have hidx : val_main_v50 (F := Ideal) asym res (rowIdx (ix4 0 r q ch)) = d1 asym res r q := by
    rw [val_main_v50_apply]
    exact (congrArg _ (by idx3)).trans (v49_at asym res r q)
  unfold val_main_v51
  refine (gather_at (N := 66) (by decide) (by decide) _ _ _ _ _ hidx hlt).trans ?_
  exact v44_at W ch ⟨_, hlt⟩

private theorem v59_at : val_main_v59 (F := Ideal) W asym res tok (ix4 0 r q ch)
    = Cert.RelPos.wrow W ch (66 + (d2 asym res tok r q).toNat) := by
  have hlt : (d2 asym res tok r q).toNat < 66 :=
    Cert.RelPos.cls_toNat_lt _ _ _ _ 66 (by decide) (by decide) (by decide)
  have hidx : val_main_v58 (F := Ideal) asym res tok (rowIdx (ix4 0 r q ch)) = d2 asym res tok r q := by
    rw [val_main_v58_apply]
    exact (congrArg _ (by idx3)).trans (v57_at asym res tok r q)
  unfold val_main_v59
  refine (gather_at (N := 66) (by decide) (by decide) _ _ _ _ _ hidx hlt).trans ?_
  exact v52_at W ch ⟨_, hlt⟩

private theorem v77_at : val_main_v77 (F := Ideal) W ent sym (ix4 0 r q ch)
    = Cert.RelPos.wrow W ch (133 + (d3 ent sym r q).toNat) := by
  have hlt : (d3 ent sym r q).toNat < 6 :=
    Cert.RelPos.cls_toNat_lt _ _ _ _ 6 (by decide) (by decide) (by decide)
  have hidx : val_main_v76 (F := Ideal) ent sym (rowIdx (ix4 0 r q ch)) = d3 ent sym r q := by
    rw [val_main_v76_apply]
    exact (congrArg _ (by idx3)).trans (v75_at ent sym r q)
  unfold val_main_v77
  refine (gather_at (N := 6) (by decide) (by decide) _ _ _ _ _ hidx hlt).trans ?_
  exact v70_at W ch ⟨_, hlt⟩

private theorem v14_at : val_main_v14 (F := Ideal) ent (ix3 0 r q) = IntOp.cmpi .eq (ent (ix2 0 r)) (ent (ix2 0 q)) := by
  rw [val_main_v14_apply, v12_at, v13_at]

private theorem v66_at : val_main_v66 (F := Ideal) ent (ix4 0 r q ch)
    = Scalar.select (IntOp.cmpi .eq (ent (ix2 0 r)) (ent (ix2 0 q))) (1 : EReal) 0 := by
  rw [val_main_v66_apply, val_main_v62_apply, val_main_v61_apply]
  have e : idx_main_v61 (idx_main_v66 (ix4 0 r q ch)) = ix3 0 r q := by idx3
  rw [e, v14_at]
  exact Cert.RelPos.bit_uitofp _

private theorem v78_at : val_main_v78 (F := Ideal) W asym res ent sym tok (ix4 0 r q ch)
    = Cert.RelPos.relPosCore (Cert.RelPos.wrow W ch)
        (asym (ix2 0 r)) (asym (ix2 0 q)) (res (ix2 0 r)) (res (ix2 0 q)) (ent (ix2 0 r)) (ent (ix2 0 q))
        (sym (ix2 0 r)) (sym (ix2 0 q)) (tok (ix2 0 r)) (tok (ix2 0 q)) := by
  rw [val_main_v78_apply, val_main_v69_apply, val_main_v60_apply, val_main_v68_apply, v51_at, v59_at, v66_at, v67_at, v77_at]
  rfl

end Terms

/-- The reference's result, as a function of its six argument arrays, is the specification's array. -/
theorem ref_eq_relPos (W : (⟨S128x139, .f32⟩ : BufTy).Contents (Elt Ideal))
    (asym res ent sym tok : (⟨S1x1024, .i32⟩ : BufTy).Contents (Elt Ideal)) :
    val_main_v78 (F := Ideal) W asym res ent sym tok = Cert.RelPos.relPos W asym res ent sym tok := by
  funext i
  have hi : i = ix4 0 ⟨(i 1).val, (i 1).isLt⟩ ⟨(i 2).val, (i 2).isLt⟩ ⟨(i 3).val, (i 3).isLt⟩ := by
    funext a; refine Fin.ext ?_
    match a with
    | ⟨0, _⟩ =>
      show (i 0).val = 0
      have h : (i 0).val < 1 := (i 0).isLt
      omega
    | ⟨1, _⟩ => rfl
    | ⟨2, _⟩ => rfl
    | ⟨3, _⟩ => rfl
  rw [hi]
  exact v78_at W asym res ent sym tok _ _ _

end Cert.ReferenceIdeal.RefValue

end
-- ==== Proof.lean ====
/-
  The proof of `Cert.Claim`: the relative-position-encoding kernel against its reference, over the extended reals.

  Both programs compute, for every ordered pair of tokens (r, q) and every channel, the sum of four rows of the
  transposed weight table: the rows picked by the clipped residue offset, the clipped token offset and the clipped
  copy offset of the pair (each replaced by a sentinel class when the pair fails a same-chain / same-residue /
  same-entity test), and the same-entity row taken once when the entities agree (Proof/Spec.lean: `relPos`).
  The reference gathers the rows; the kernel multiplies one-hot rows into slices of the table on the matrix unit
  and accumulates the four terms into its output block, 128 x 128 pairs at a time over an 8 x 8 grid.

    * Proof/RefValue.lean — the reference's result is `relPos` of its arguments: the classes are never negative and
      lie below the table slices' heights, so the gathers read exactly the rows at the classes.
    * Proof/KiBlock.lean, KiBody.lean, KiFrame.lean — the kernel program runs to the end, faults nowhere and leaves
      its arguments unchanged, each grid point leaving `outBlock` of its input blocks in the output block; the two
      windows that read one id vector share it, half a share each (Proof/LibSharedFrame.lean states the run for
      such windows). KwBlock / KwBody / KwFrame are the same text at the program as printed.
    * Proof/KiBlockValue.lean, KiValue.lean — entry by entry the block is the specification's, a one-hot row times a
      table slice being the table's row at the hot place, and the 64 blocks tile the result.

  The two sides then end at the same array whenever they start from the same arguments; no step uses that the
  weights are finite (zero times an infinity is zero on the extended reals, and sums are only regrouped by the
  unit law), so the precondition is never opened. The idealization pass rewrote nothing in this kernel, so the
  sanctioned-idealization conjunct is trivially true.
-/
import proofs.«424427_j1468878815797_4_alg».proof.Defs
import proofs.«424427_j1468878815797_4_alg».proof.Proof.Gen.Kernel
import proofs.«424427_j1468878815797_4_alg».proof.Proof.Gen.KernelIdeal
import proofs.«424427_j1468878815797_4_alg».proof.Proof.Gen.ReferenceIdeal
import proofs.«424427_j1468878815797_4_alg».proof.Proof.Gen.Pre_finite_inputs
import proofs.«424427_j1468878815797_4_alg».proof.Proof.KwFrame
import proofs.«424427_j1468878815797_4_alg».proof.Proof.KiValue
import proofs.«424427_j1468878815797_4_alg».proof.Proof.RefValue
import Idealize.ShloMosaic.Adequacy
import Idealize.ShloMosaic.Init

noncomputable section

namespace Cert.Proof

open Idealize.ShloMosaic Idealize.ShloMosaic.TcCoe Idealize.SL.Sem

/-- The program as printed runs and leaves its arguments unchanged. -/
theorem frame_p : Cert.frame_Kernel := fun m ρ _ => Cert.Kernel.Hand.frame m ρ

/-- So does the idealized program. -/
theorem frame_pi : Cert.frame_KernelIdeal := fun m ρ _ => Cert.KernelIdeal.Hand.frame m ρ

/-- The reference is host operations only: its run, with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The idealization pass rewrote no operation of this kernel. -/
theorem preserves : Cert.preserves_Kernel_KernelIdeal := trivial

/-- From memories that agree on the six arguments both programs end with the specification's array of those
    arguments in their result, and their arguments unchanged. -/
theorem algebraic : Cert.algebraic_KernelIdeal_ReferenceIdeal := by
  intro m ρ m' ρ' _ hagree
  refine ⟨_, Cert.KernelIdeal.Hand.run_value m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v78_eq, Cert.ReferenceIdeal.RefValue.ref_eq_relPos,
    (hagree c).1, (hagree c).2.1, (hagree c).2.2.1, (hagree c).2.2.2.1, (hagree c).2.2.2.2.1, (hagree c).2.2.2.2.2]

theorem claim : Cert.Claim :=
  ⟨Cert.Kernel.Gen.facts, Cert.KernelIdeal.Gen.facts, Cert.ReferenceIdeal.Gen.facts, Cert.Pre_finite_inputs.Gen.facts,
    frame_p, frame_pi, frame_ri, preserves, algebraic⟩

end Cert.Proof

end
